-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩

abbrev nBuf : Space → Nat
  | .hbm => 54
  | .vmem => 23
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S100000x128, .f32⟩
  | .hbm, ⟨40, _⟩ => ⟨S1x128, .f32⟩
  | .hbm, ⟨41, _⟩ => ⟨S1x128, .f32⟩
  | .hbm, ⟨42, _⟩ => ⟨S_, .f32⟩
  | .hbm, ⟨43, _⟩ => ⟨S1x128, .f32⟩
  | .hbm, ⟨44, _⟩ => ⟨S1x128, .f32⟩
  | .hbm, ⟨45, _⟩ => ⟨S_, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S_, .f32⟩
  | .hbm, ⟨51, _⟩ => ⟨S1x128, .f32⟩
  | .hbm, ⟨52, _⟩ => ⟨S1x128, .f32⟩
  | .hbm, ⟨53, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S5000x128, .f32⟩
  | .local _ .vmem, ⟨22, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26_0 : Ref sig .tc := ⟨.hbm, 39, rfl⟩
abbrev main_v26_1 : Ref sig .tc := ⟨.hbm, 40, rfl⟩
abbrev main_v26_2 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg6_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem6_1 : DmaSem sig := 20

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v37 : BitVec 1 := Scalar.cmpi .eq arg0 c19_i32
  let v38 : BitVec 32 := Scalar.extui v37
  let c0_i32_24 : BitVec 32 := 0#32
  let v39 : BitVec 1 := Scalar.cmpi .ne v38 c0_i32_24
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  broadcasts_S1x128_S5000x128 : S1x128.Broadcasts S5000x128
  reduces_S5000x128_S128 : S5000x128.Reduces [0] S128
  bcast_S_S1x128 : S_.BroadcastsInDim S1x128 (![] : Fin 0 → Fin S1x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v26_1) S1x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26_2) S1x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v26_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S128, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S1x128, .f32⟩
  | .hbm, ⟨51, _⟩ => ⟨S100000x128, .f32⟩
  | .hbm, ⟨52, _⟩ => ⟨S100000x128, .f32⟩
  | .hbm, ⟨53, _⟩ => ⟨S100000x128, .f32⟩
  | .hbm, ⟨54, _⟩ => ⟨S_, .f32⟩
  | .hbm, ⟨55, _⟩ => ⟨S128, .f32⟩
  | .hbm, ⟨56, _⟩ => ⟨S_, .f32⟩
  | .hbm, ⟨57, _⟩ => ⟨S128, .f32⟩
  | .hbm, ⟨58, _⟩ => ⟨S128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S_, .f32⟩
  | .hbm, ⟨63, _⟩ => ⟨S128, .f32⟩
  | .hbm, ⟨64, _⟩ => ⟨S128, .f32⟩
  | .hbm, ⟨65, _⟩ => ⟨S128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_call0_cst : Ref sig .tc := ⟨.hbm, 42, rfl⟩
abbrev main_call0_v0 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KR0Defs.lean ====
/-
  The first pallas_call (rows in blocks of 5000, twenty grid points): what it computes, point by point.
  At point t the body reads the t-th row block of the neighbourhood mean and of x, and the whole of W_l, b and W_r;
  it writes the block h_t = relu(mean_t · W_l + x_t · W_r + b) to the first output, and adds to two accumulators kept
  in scratch between points the column sums of h_t and of h_t², after clearing them at the first point. At the last
  point the accumulators are copied to the second and third outputs. This module names those values: the blocks,
  the accumulators after each point (a recursion on the point), the invariant that carries the accumulators from
  one point to the next, and the proof data of the pipeline.
-/
import proofs.«111244_j21663815041135_1_alg».proof.Proof.Gen.Kernel.Launch
import proofs.«111244_j21663815041135_1_alg».proof.Proof.Gen.Kernel.Skeleton
import proofs.«111244_j21663815041135_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: a parameter, instantiated by the run
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of h from the five input blocks (mean, x, W_l, b, W_r in window order). -/
def hOf (x0 x1 : Vec F S5000x128 .f32) (x2 : Vec F S128x128 .f32) (x3 : Vec F S1x128 .f32) (x4 : Vec F S128x128 .f32) :
    Vec F S5000x128 .f32 := k0_pay4 x0 x1 x2 x4 x3
/-- The column-sum accumulator after a point, from its contents before. -/
def sStep (x0 x1 : Vec F S5000x128 .f32) (x2 : Vec F S128x128 .f32) (x3 : Vec F S1x128 .f32) (x4 : Vec F S128x128 .f32)
    (s : Vec F S1x128 .f32) : Vec F S1x128 .f32 := k0_pay5 x0 x1 x2 x4 x3 s
/-- The accumulator of the column sums of squares after a point, from its contents before. -/
def qStep (x0 x1 : Vec F S5000x128 .f32) (x2 : Vec F S128x128 .f32) (x3 : Vec F S1x128 .f32) (x4 : Vec F S128x128 .f32)
    (q : Vec F S1x128 .f32) : Vec F S1x128 .f32 := k0_pay1 q (k0_pay6 x0 x1 x2 x4 x3)

/-- The block of h the body stores at point t. -/
def hblk (c : Dev nD) (t : Fin cfg0.N) : Vec F S5000x128 .f32 :=
  hOf (iblk0 V c 0 t) (iblk0 V c 1 t) (iblk0 V c 2 t) (iblk0 V c 3 t) (iblk0 V c 4 t)

/-- The column-sum accumulator after point n: cleared and then fed at point 0, fed at every later point. -/
def accS (c : Dev nD) : (n : ℕ) → n < cfg0.N → Vec F S1x128 .f32
  | 0, h => sStep (iblk0 V c 0 ⟨0, h⟩) (iblk0 V c 1 ⟨0, h⟩) (iblk0 V c 2 ⟨0, h⟩) (iblk0 V c 3 ⟨0, h⟩) (iblk0 V c 4 ⟨0, h⟩) (k0_pay2 (F := F))
  | n + 1, h => sStep (iblk0 V c 0 ⟨n + 1, h⟩) (iblk0 V c 1 ⟨n + 1, h⟩) (iblk0 V c 2 ⟨n + 1, h⟩) (iblk0 V c 3 ⟨n + 1, h⟩) (iblk0 V c 4 ⟨n + 1, h⟩)
      (accS c n (Nat.lt_of_succ_lt h))

/-- The sum-of-squares accumulator after point n. -/
def accQ (c : Dev nD) : (n : ℕ) → n < cfg0.N → Vec F S1x128 .f32
  | 0, h => qStep (iblk0 V c 0 ⟨0, h⟩) (iblk0 V c 1 ⟨0, h⟩) (iblk0 V c 2 ⟨0, h⟩) (iblk0 V c 3 ⟨0, h⟩) (iblk0 V c 4 ⟨0, h⟩) (k0_pay3 (F := F))
  | n + 1, h => qStep (iblk0 V c 0 ⟨n + 1, h⟩) (iblk0 V c 1 ⟨n + 1, h⟩) (iblk0 V c 2 ⟨n + 1, h⟩) (iblk0 V c 3 ⟨n + 1, h⟩) (iblk0 V c 4 ⟨n + 1, h⟩)
      (accQ c n (Nat.lt_of_succ_lt h))

/-- The two accumulators, as whole scoped buffers of the kernel's own. -/
abbrev scM0_0 : Memref sig .tc .vmem S1x128 .f32 := Memref.whole cc0_scratch0
abbrev scM0_1 : Memref sig .tc .vmem S1x128 .f32 := Memref.whole cc0_scratch1

/-- Every other scoped buffer that is no staging buffer of this call, at some contents each: carried unopened. -/
abbrev restBut0 (c : Dev nD) : sProp 𝕄 :=
  Pipeline.scopedRestBut (Ix := Unit) (Name := ℕ) (U := UR sig nD τ) (Lvl := ℕ) (Val := Elt F) spec0 c [cc0_scratch0, cc0_scratch1]

/-- The region invariant before position n: before the first point every scratch buffer holds anything; afterwards the
    two accumulators hold what the point before left, the other scoped buffers anything. -/
def PhiS (c : Dev nD) : (n : ℕ) → n ≤ cfg0.N → sProp 𝕄
  | 0, _ => Pipeline.ΦA spec0 c
  | n + 1, hn => iprop(owns (c : Thread nD τ) scM0_0 fullShare (accS V c n hn) ∗ owns (c : Thread nD τ) scM0_1 fullShare (accQ V c n hn)
      ∗ restBut0 c ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(owns (c : Thread nD τ) scM0_0 fullShare (accS V c n hn) ∗ owns (c : Thread nD τ) scM0_1 fullShare (accQ V c n hn)
      ∗ restBut0 c ∗ (∃ r, prngReg c r)) := rfl

theorem PhiS_pos (c : Dev nD) (n : ℕ) (h : n ≤ cfg0.N) (hz : n ≠ 0) :
    PhiS V c n h = iprop(owns (c : Thread nD τ) scM0_0 fullShare (accS V c (n - 1) (by omega)) ∗ owns (c : Thread nD τ) scM0_1 fullShare (accQ V c (n - 1) (by omega))
      ∗ restBut0 c ∗ (∃ r, prngReg c r)) := by
  cases n with
  | zero => exact absurd rfl hz
  | succ n => rfl

/-- The proof data of the first pipeline on core c: the arrays as the region finds them; after the body at point t each
    input's buffer at its block, the first output's at the block of h, the other two at the accumulators; the
    invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => hblk V c t
    | ⟨6, _⟩ => accS V c t.val t.isLt
    | ⟨7, _⟩ => accQ V c t.val t.isLt
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = hblk V c t := by dsimp only [dat0]
theorem after0_6 (c : Dev nD) (t : Fin cfg0.N) : (dat0 V c).after 6 t = accS V c t.val t.isLt := by dsimp only [dat0]
theorem after0_7 (c : Dev nD) (t : Fin cfg0.N) : (dat0 V c).after 7 t = accQ V c t.val t.isLt := by dsimp only [dat0]

end Cert.Kernel.Hand

end
-- ==== Proof.KR1Defs.lean ====
/-
  The second pallas_call (the same twenty row blocks): at point t the body reads the t-th row block of h and of x and
  the whole of the column mean, the column variance, gamma and beta, and writes the block
  x_t + ((h_t − mean) · rsqrt(variance + ε) · gamma + beta). Nothing is carried between points. This module names the
  blocks and the proof data of the pipeline.
-/
import proofs.«111244_j21663815041135_1_alg».proof.Proof.Gen.Kernel.Launch
import proofs.«111244_j21663815041135_1_alg».proof.Proof.Gen.Kernel.Skeleton
import proofs.«111244_j21663815041135_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output block from the six input blocks (h, x, mean, variance, gamma, beta in window order). -/
def oOf (x0 x1 : Vec F S5000x128 .f32) (x2 x3 x4 x5 : Vec F S1x128 .f32) : Vec F S5000x128 .f32 :=
  k1_pay1 x0 x3 x2 x4 x5 x1

/-- The block the body stores at point t. -/
def oblk (c : Dev nD) (t : Fin cfg1.N) : Vec F S5000x128 .f32 :=
  oOf (iblk1 V c 0 t) (iblk1 V c 1 t) (iblk1 V c 2 t) (iblk1 V c 3 t) (iblk1 V c 4 t) (iblk1 V c 5 t)

/-- The proof data of the second pipeline on core c: the arrays as the region finds them; after the body each input's
    buffer at its block and the output's at the block above; the scratch-free invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => oblk V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = oblk V c t := by dsimp only [dat1]

end Cert.Kernel.Hand

end
-- ==== Proof.KChain.lean ====
/-
  The program is four stretches: host operations, the first pallas_call, host operations, the second pallas_call.
  Between stretches a core holds every unscoped buffer at known contents: at launch the memory; after a host stretch the
  operations' results; after a pallas_call its result arrays at what its write-backs leave and every other buffer as
  before. This module fixes those contents, the result buffer's contents at the end, and each pipeline's proof data at
  the contents its call finds.
-/
import proofs.«111244_j21663815041135_1_alg».proof.Proof.KR0Defs
import proofs.«111244_j21663815041135_1_alg».proof.Proof.KR1Defs
import proofs.«111244_j21663815041135_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The contents between stretches -/

/-- What the first pallas_call finds: the launch contents after the first host stretch. -/
abbrev Ve1 : (c : Dev nD) → (b : Ref sig .tc) → Buf (Elt F) ((c : Thread nD τ).loc b) := fun c b => Gen.V1 m c b

/-- After the first pallas_call: its arrays at what its write-backs leave, every other buffer as before. -/
def W2 (c : Dev nD) : Valuation τ sig (Elt F) :=
  Pipeline.withArrays spec0 c (Gen.V1 m c) fun w => (dat0 (Ve1 m) c).arrAt w cfg0.N

/-- The first call's results, as the unknowns the generated contents chain is written over. -/
def outs2 : Gen.Outs (F := F) := fun _ r c => W2 m c r

/-- What the second pallas_call finds: after the second host stretch. -/
abbrev Ve3 : (c : Dev nD) → (b : Ref sig .tc) → Buf (Elt F) ((c : Thread nD τ).loc b) := fun c b => Gen.V3 m (outs2 m) c b

/-- After the second pallas_call. -/
def W4 (c : Dev nD) : Valuation τ sig (Elt F) :=
  Pipeline.withArrays spec1 c (Gen.V3 m (outs2 m) c) fun w => (dat1 (Ve3 m) c).arrAt w cfg1.N

/-- Both calls' results. -/
def outs : Gen.Outs (F := F) := fun J r c => match J with
  | 4 => W4 m c r
  | _ => W2 m c r

theorem V2_outs (c : Dev nD) : Gen.V2 m (outs m) c = Gen.V2 m (outs2 m) c := rfl
theorem V3_outs (c : Dev nD) : Gen.V3 m (outs m) c = Gen.V3 m (outs2 m) c := rfl

theorem W2_arr (c : Dev nD) (w : Fin cfg0.W) :
    W2 m c (Proc.devRef .tc (Pipeline.arrRef spec0 w)) = (dat0 (Ve1 m) c).arrAt w cfg0.N := by
  unfold W2; exact Pipeline.withArrays_arr spec0 launch0.win.arr_inj c _ _ w
theorem W4_arr (c : Dev nD) (w : Fin cfg1.W) :
    W4 m c (Proc.devRef .tc (Pipeline.arrRef spec1 w)) = (dat1 (Ve3 m) c).arrAt w cfg1.N := by
  unfold W4; exact Pipeline.withArrays_arr spec1 launch1.win.arr_inj c _ _ w

/-- The result buffer's contents at the end. -/
def result (c : Dev nD) : Buf (Elt F) ((c.tc : Thread nD τ).loc main_v35) := Gen.V4 m (outs m) c main_v35

theorem result_eq (c : Dev nD) : result m c = (dat1 (Ve3 m) c).arrAt 6 cfg1.N := by
  unfold result
  show Function.update (Gen.V3 m (outs m) c) main_v35 (outs m 4 main_v35 c) main_v35 = _
  rw [Function.update_self]
  exact W4_arr m c 6

/-! ## The proof data family and what rides beside the buffers -/

/-- No pipeline has a prefetched table. -/
abbrev adm : (p : Fin 2) → (pcfgs (F := F) p).Adm := fun p => (cfgs p).toPCfg_adm

/-- Each pipeline's proof data at its region's entry contents. -/
def pdats : (p : Fin 2) → (c : Dev nD) → Dat τ (Elt F) Unit ℕ (UR sig nD τ) ℕ (cfgs p) c
  | ⟨0, _⟩ => fun c => dat0 (Ve1 m) c
  | ⟨1, _⟩ => fun c => dat1 (Ve3 m) c

abbrev 𝒱₀ : Variants := Variants.none
abbrev L : GSem nD τ sig → Finset Unit := fun _ => ∅
abbrev lv : GSem nD τ sig → Unit → ℕ := fun _ _ => 0

/-- Beside the buffers: the core's generator register at some state and its dues, which are none. -/
abbrev R (c : Dev nD) : sProp 𝕄 := iprop((∃ r, prngReg c r) ∗ ∃ W, owes (c : Thread nD τ) (0 : CellTallies nD τ sig Unit) W)

end Cert.Kernel.Hand

end
-- ==== Proof.KR0Run.lean ====
/-
  The body of the first kernel, run on any whole memrefs, in its three cases. At the first point the body clears
  the two accumulators and then feeds them; at a middle point it feeds them; at the last point it feeds them and
  copies them to the second and third outputs. In every case the five input buffers are read and left as they
  were, and the first output receives the block relu(mean · W_l + x · W_r + b) of the input blocks. Each case is
  stated with the contents every buffer ends with: the accumulators at the step functions of what they held
  (of the cleared values at the first point), the two accumulator outputs untouched except at the last point.
-/
import proofs.«111244_j21663815041135_1_alg».proof.Proof.KR0Defs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer access, however spelt. -/
theorem r0_hz : (![0, 0] : Fin 2 → Nat) = fun _ => 0 := funext fun a => by fin_cases a <;> rfl

/-- The condition of the first conditional, from the grid coordinate: the point is the first. -/
abbrev r0_condFirst (i : grid0.Coords) : Prop := (Scalar.cmpi .ne (Scalar.extui (Scalar.cmpi .eq (BitVec.ofNat 32 (i 0).val) 0#32)) 0#32) = 1#1
/-- The condition of the second conditional: the point is the last. -/
abbrev r0_condLast (i : grid0.Coords) : Prop := k0_cond2 i = 1#1

/-- A store through the whole shape, made last, leaves its payload, whatever was stored before and whatever the buffer held. -/
theorem r0_read_store_whole {sp : Space} {S : Shape} {e : EltTy} (v : View sig .tc sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h inb]

/-- A load through the whole shape of a whole buffer reads its contents. -/
theorem r0_readAt_whole {S : Shape} {e : EltTy} (m : Memref sig .tc .vmem S e) (hm : m.IsWhole)
    {off : Fin S.rank → ℕ} (h : off = fun _ => 0) (inb : ∀ a, off a + S.size a ≤ S.size a) (X : S.Idx → Elt F e) :
    View.readAt (Elt F) m.view (Rect.unit off S.size inb).toLoadRect (hm.unread X) = X := by
  rw [View.readAt_eq_ld, hm.read_unread, View.ld_unit_zero h inb]

set_option maxHeartbeats 1000000 in
/-- The first point: both conditionals decided (first taken, second not). The accumulators start at anything,
    are cleared, and end at one step from the cleared values; the accumulator outputs are not touched. -/
theorem r0_run_first (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole)
    (hc1 : r0_condFirst i) (hc2 : ¬r0_condLast i)
    (x0 x1 : Vec F S5000x128 .f32) (x2 : Vec F S128x128 .f32) (x3 : Vec F S1x128 .f32) (x4 : Vec F S128x128 .f32)
    (d7 d8 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ owns (c : Thread nD τ) arg7 fullShare d7 ∗ owns (c : Thread nD τ) arg8 fullShare d8
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (hOf x0 x1 x2 x3 x4) ∗ owns (c : Thread nD τ) arg7 fullShare d7 ∗ owns (c : Thread nD τ) arg8 fullShare d8
            ∗ owns (c : Thread nD τ) arg9 fullShare (sStep x0 x1 x2 x3 x4 (k0_pay2 (F := F))) ∗ owns (c : Thread nD τ) arg10 fullShare (qStep x0 x1 x2 x3 x4 (k0_pay3 (F := F)))) -∗ K ⟨⟩))
      ⊢ wp frame (wpE (defs₀ (F := F)) Variants.none c none) E (cc0__h_kernel i arg1 harg1 arg2 harg2 arg3 harg3 arg4 harg4 arg5 harg5 arg6 harg6 arg7 harg7 arg8 harg8 arg9 harg9 arg10 harg10) K := by
  simp only [cc0__h_kernel_eq_skeleton]; unfold cc0__h_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, H7, H8, ⟨%d9, %f9, -, H9⟩, ⟨%d10, %f10, -, H10⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    refine (r0_read_store_whole _ _ r0_hz _ _ _).trans ?_
    (try sl_unfold_words)
    simp only [r0_readAt_whole (S := S5000x128) _ _ r0_hz, r0_readAt_whole (S := S128x128) _ _ r0_hz, r0_readAt_whole (S := S1x128) _ _ r0_hz, View.readCov_unit_zero (S := S1x128) _ r0_hz]
    rfl
  isplitl [H7]; · iexact H7
  isplitl [H8]; · iexact H8
  isplitl [H9]
  · iexists _; isplitr; swap; · iexact H9
    ipureintro
    refine (r0_read_store_whole _ _ r0_hz _ _ _).trans ?_
    (try sl_unfold_words)
    simp only [r0_readAt_whole (S := S5000x128) _ _ r0_hz, r0_readAt_whole (S := S128x128) _ _ r0_hz, r0_readAt_whole (S := S1x128) _ _ r0_hz, View.readCov_unit_zero (S := S1x128) _ r0_hz]
    rfl
  iexists _; isplitr; swap; · iexact H10
  ipureintro
  refine (r0_read_store_whole _ _ r0_hz _ _ _).trans ?_
  (try sl_unfold_words)
  simp only [r0_readAt_whole (S := S5000x128) _ _ r0_hz, r0_readAt_whole (S := S128x128) _ _ r0_hz, r0_readAt_whole (S := S1x128) _ _ r0_hz, View.readCov_unit_zero (S := S1x128) _ r0_hz]
  rfl

set_option maxHeartbeats 1000000 in
/-- A middle point: neither conditional taken. The accumulators go one step from what they held; the accumulator
    outputs are not touched. -/
theorem r0_run_mid (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole)
    (hc1 : ¬r0_condFirst i) (hc2 : ¬r0_condLast i)
    (x0 x1 : Vec F S5000x128 .f32) (x2 : Vec F S128x128 .f32) (x3 : Vec F S1x128 .f32) (x4 : Vec F S128x128 .f32)
    (d7 d8 s q : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ owns (c : Thread nD τ) arg7 fullShare d7 ∗ owns (c : Thread nD τ) arg8 fullShare d8
        ∗ owns (c : Thread nD τ) arg9 fullShare s ∗ owns (c : Thread nD τ) arg10 fullShare q
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (hOf x0 x1 x2 x3 x4) ∗ owns (c : Thread nD τ) arg7 fullShare d7 ∗ owns (c : Thread nD τ) arg8 fullShare d8
            ∗ owns (c : Thread nD τ) arg9 fullShare (sStep x0 x1 x2 x3 x4 s) ∗ owns (c : Thread nD τ) arg10 fullShare (qStep x0 x1 x2 x3 x4 q)) -∗ K ⟨⟩))
      ⊢ wp frame (wpE (defs₀ (F := F)) Variants.none c none) E (cc0__h_kernel i arg1 harg1 arg2 harg2 arg3 harg3 arg4 harg4 arg5 harg5 arg6 harg6 arg7 harg7 arg8 harg8 arg9 harg9 arg10 harg10) K := by
  simp only [cc0__h_kernel_eq_skeleton]; unfold cc0__h_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, H7, H8, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5
  obtain rfl := harg9.eq_unread hf9; obtain rfl := harg10.eq_unread hf10
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    refine (r0_read_store_whole _ _ r0_hz _ _ _).trans ?_
    (try sl_unfold_words)
    simp only [r0_readAt_whole (S := S5000x128) _ _ r0_hz, r0_readAt_whole (S := S128x128) _ _ r0_hz, r0_readAt_whole (S := S1x128) _ _ r0_hz, View.readCov_unit_zero (S := S1x128) _ r0_hz]
    rfl
  isplitl [H7]; · iexact H7
  isplitl [H8]; · iexact H8
  isplitl [H9]
  · iexists _; isplitr; swap; · iexact H9
    ipureintro
    refine (r0_read_store_whole _ _ r0_hz _ _ _).trans ?_
    (try sl_unfold_words)
    simp only [r0_readAt_whole (S := S5000x128) _ _ r0_hz, r0_readAt_whole (S := S128x128) _ _ r0_hz, r0_readAt_whole (S := S1x128) _ _ r0_hz, View.readCov_unit_zero (S := S1x128) _ r0_hz]
    rfl
  iexists _; isplitr; swap; · iexact H10
  ipureintro
  refine (r0_read_store_whole _ _ r0_hz _ _ _).trans ?_
  (try sl_unfold_words)
  simp only [r0_readAt_whole (S := S5000x128) _ _ r0_hz, r0_readAt_whole (S := S128x128) _ _ r0_hz, r0_readAt_whole (S := S1x128) _ _ r0_hz, View.readCov_unit_zero (S := S1x128) _ r0_hz]
  rfl

set_option maxHeartbeats 1000000 in
/-- The last point: the second conditional taken. The accumulators go one step from what they held, and the two
    accumulator outputs, whatever they held, receive the accumulators' new contents. -/
theorem r0_run_last (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole)
    (hc1 : ¬r0_condFirst i) (hc2 : r0_condLast i)
    (x0 x1 : Vec F S5000x128 .f32) (x2 : Vec F S128x128 .f32) (x3 : Vec F S1x128 .f32) (x4 : Vec F S128x128 .f32)
    (s q : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s ∗ owns (c : Thread nD τ) arg10 fullShare q
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (hOf x0 x1 x2 x3 x4) ∗ owns (c : Thread nD τ) arg7 fullShare (sStep x0 x1 x2 x3 x4 s) ∗ owns (c : Thread nD τ) arg8 fullShare (qStep x0 x1 x2 x3 x4 q)
            ∗ owns (c : Thread nD τ) arg9 fullShare (sStep x0 x1 x2 x3 x4 s) ∗ owns (c : Thread nD τ) arg10 fullShare (qStep x0 x1 x2 x3 x4 q)) -∗ K ⟨⟩))
      ⊢ wp frame (wpE (defs₀ (F := F)) Variants.none c none) E (cc0__h_kernel i arg1 harg1 arg2 harg2 arg3 harg3 arg4 harg4 arg5 harg5 arg6 harg6 arg7 harg7 arg8 harg8 arg9 harg9 arg10 harg10) K := by
  simp only [cc0__h_kernel_eq_skeleton]; unfold cc0__h_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5
  obtain rfl := harg9.eq_unread hf9; obtain rfl := harg10.eq_unread hf10
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    refine (r0_read_store_whole _ _ r0_hz _ _ _).trans ?_
    (try sl_unfold_words)
    simp only [r0_readAt_whole (S := S5000x128) _ _ r0_hz, r0_readAt_whole (S := S128x128) _ _ r0_hz, r0_readAt_whole (S := S1x128) _ _ r0_hz, View.readCov_unit_zero (S := S1x128) _ r0_hz]
    rfl
  isplitl [H7]
  · iexists _; isplitr; swap; · iexact H7
    ipureintro
    refine (r0_read_store_whole _ _ r0_hz _ _ _).trans ?_
    (try sl_unfold_words)
    simp only [r0_readAt_whole (S := S5000x128) _ _ r0_hz, r0_readAt_whole (S := S128x128) _ _ r0_hz, r0_readAt_whole (S := S1x128) _ _ r0_hz, View.readCov_unit_zero (S := S1x128) _ r0_hz]
    rfl
  isplitl [H8]
  · iexists _; isplitr; swap; · iexact H8
    ipureintro
    refine (r0_read_store_whole _ _ r0_hz _ _ _).trans ?_
    (try sl_unfold_words)
    simp only [r0_readAt_whole (S := S5000x128) _ _ r0_hz, r0_readAt_whole (S := S128x128) _ _ r0_hz, r0_readAt_whole (S := S1x128) _ _ r0_hz, View.readCov_unit_zero (S := S1x128) _ r0_hz]
    rfl
  isplitl [H9]
  · iexists _; isplitr; swap; · iexact H9
    ipureintro
    refine (r0_read_store_whole _ _ r0_hz _ _ _).trans ?_
    (try sl_unfold_words)
    simp only [r0_readAt_whole (S := S5000x128) _ _ r0_hz, r0_readAt_whole (S := S128x128) _ _ r0_hz, r0_readAt_whole (S := S1x128) _ _ r0_hz, View.readCov_unit_zero (S := S1x128) _ r0_hz]
    rfl
  iexists _; isplitr; swap; · iexact H10
  ipureintro
  refine (r0_read_store_whole _ _ r0_hz _ _ _).trans ?_
  (try sl_unfold_words)
  simp only [r0_readAt_whole (S := S5000x128) _ _ r0_hz, r0_readAt_whole (S := S128x128) _ _ r0_hz, r0_readAt_whole (S := S1x128) _ _ r0_hz, View.readCov_unit_zero (S := S1x128) _ r0_hz]
  rfl

end Cert.Kernel.Hand

end
-- ==== Proof.KR0Body.lean ====
/-
  The body of the first kernel meets its obligation at every grid point, and the carried accumulators enter and
  leave the region's invariant. At a point the five input buffers hold their blocks (fetched there or not); the point
  is the first, a middle one or the last, and that case's run of the body gives the first output its block of h, the
  accumulators one step from what the point before left (from the cleared values at the first point), and at the
  last point the two accumulator outputs the accumulators' final contents; elsewhere those two outputs are idle and
  go back as they came.
-/
import proofs.«111244_j21663815041135_1_alg».proof.Proof.KR0Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The conditions over the grid, and where the two accumulator outputs are idle -/

/-- The first conditional is taken at the first point only — decided over the grid. -/
theorem r0_hcondFirst : ∀ t : Fin cfg0.N, r0_condFirst (grid0.coords t) ↔ t.val = 0 :=
  (by decide +kernel : ∀ t : Fin grid0.N, r0_condFirst (grid0.coords t) ↔ t.val = 0)
/-- The second conditional is taken at the last point only. -/
theorem r0_hcondLast : ∀ t : Fin cfg0.N, r0_condLast (grid0.coords t) ↔ t.val = 19 :=
  (by decide +kernel : ∀ t : Fin grid0.N, r0_condLast (grid0.coords t) ↔ t.val = 19)
theorem r0_liveAt0 : ∀ t : Fin cfg0.N, cfg0.idle 0 (grid0.coords t) = false := by decide +kernel
theorem r0_liveAt1 : ∀ t : Fin cfg0.N, cfg0.idle 1 (grid0.coords t) = false := by decide +kernel
theorem r0_liveAt2 : ∀ t : Fin cfg0.N, cfg0.idle 2 (grid0.coords t) = false := by decide +kernel
theorem r0_liveAt3 : ∀ t : Fin cfg0.N, cfg0.idle 3 (grid0.coords t) = false := by decide +kernel
theorem r0_liveAt4 : ∀ t : Fin cfg0.N, cfg0.idle 4 (grid0.coords t) = false := by decide +kernel
theorem r0_liveAt5 : ∀ t : Fin cfg0.N, cfg0.idle 5 (grid0.coords t) = false := by decide +kernel
/-- Away from the last point output 6 is idle and is not written back; at the last point it is live. -/
theorem r0_idleAt6 : ∀ t : Fin cfg0.N, ¬r0_condLast (grid0.coords t) → cfg0.idle 6 (grid0.coords t) = true := by decide +kernel
theorem r0_noFlush6 : ∀ t : Fin cfg0.N, ¬r0_condLast (grid0.coords t) → (cfg0.win 6).flush t = false := by decide +kernel
theorem r0_liveAt6 : ∀ t : Fin cfg0.N, r0_condLast (grid0.coords t) → cfg0.idle 6 (grid0.coords t) = false := by decide +kernel
/-- Away from the last point output 7 is idle and is not written back; at the last point it is live. -/
theorem r0_idleAt7 : ∀ t : Fin cfg0.N, ¬r0_condLast (grid0.coords t) → cfg0.idle 7 (grid0.coords t) = true := by decide +kernel
theorem r0_noFlush7 : ∀ t : Fin cfg0.N, ¬r0_condLast (grid0.coords t) → (cfg0.win 7).flush t = false := by decide +kernel
theorem r0_liveAt7 : ∀ t : Fin cfg0.N, r0_condLast (grid0.coords t) → cfg0.idle 7 (grid0.coords t) = false := by decide +kernel

/-! ## The staging memrefs at a point -/
abbrev r0_ms0 (t : Fin cfg0.N) : Memref sig .tc .vmem S5000x128 .f32 := win0_0.stage (cfg0.slots t 0)
abbrev r0_hs0 (t : Fin cfg0.N) : (r0_ms0 t).IsWhole := hstage0_0 ((cfg0.slots t 0).cast nbuf0_0)
abbrev r0_ms1 (t : Fin cfg0.N) : Memref sig .tc .vmem S5000x128 .f32 := win0_1.stage (cfg0.slots t 1)
abbrev r0_hs1 (t : Fin cfg0.N) : (r0_ms1 t).IsWhole := hstage0_1 ((cfg0.slots t 1).cast nbuf0_1)
abbrev r0_ms2 (t : Fin cfg0.N) : Memref sig .tc .vmem S128x128 .f32 := win0_2.stage (cfg0.slots t 2)
abbrev r0_hs2 (t : Fin cfg0.N) : (r0_ms2 t).IsWhole := hstage0_2 ((cfg0.slots t 2).cast nbuf0_2)
abbrev r0_ms3 (t : Fin cfg0.N) : Memref sig .tc .vmem S1x128 .f32 := win0_3.stage (cfg0.slots t 3)
abbrev r0_hs3 (t : Fin cfg0.N) : (r0_ms3 t).IsWhole := hstage0_3 ((cfg0.slots t 3).cast nbuf0_3)
abbrev r0_ms4 (t : Fin cfg0.N) : Memref sig .tc .vmem S128x128 .f32 := win0_4.stage (cfg0.slots t 4)
abbrev r0_hs4 (t : Fin cfg0.N) : (r0_ms4 t).IsWhole := hstage0_4 ((cfg0.slots t 4).cast nbuf0_4)
abbrev r0_ms5 (t : Fin cfg0.N) : Memref sig .tc .vmem S5000x128 .f32 := win0_5.stage (cfg0.slots t 5)
abbrev r0_hs5 (t : Fin cfg0.N) : (r0_ms5 t).IsWhole := hstage0_5 ((cfg0.slots t 5).cast nbuf0_5)
abbrev r0_ms6 (t : Fin cfg0.N) : Memref sig .tc .vmem S1x128 .f32 := win0_6.stage (cfg0.slots t 6)
abbrev r0_hs6 (t : Fin cfg0.N) : (r0_ms6 t).IsWhole := hstage0_6 ((cfg0.slots t 6).cast nbuf0_6)
abbrev r0_ms7 (t : Fin cfg0.N) : Memref sig .tc .vmem S1x128 .f32 := win0_7.stage (cfg0.slots t 7)
abbrev r0_hs7 (t : Fin cfg0.N) : (r0_ms7 t).IsWhole := hstage0_7 ((cfg0.slots t 7).cast nbuf0_7)

/-! ## What the body finds in the input windows: their blocks, fetched at the point or not -/
theorem r0_before0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem r0_before1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem r0_before2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem r0_before3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem r0_before4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)

/-! ## The accumulators at a point, from the point before -/

theorem r0_accS_first (c : Dev nD) (t : Fin cfg0.N) (h : t.val = 0) :
    accS V c t.val t.isLt = sStep (iblk0 V c 0 t) (iblk0 V c 1 t) (iblk0 V c 2 t) (iblk0 V c 3 t) (iblk0 V c 4 t) (k0_pay2 (F := F)) := by
  obtain ⟨n, hn⟩ := t
  cases n with
  | zero => rfl
  | succ n => exact absurd h (Nat.succ_ne_zero _)

theorem r0_accQ_first (c : Dev nD) (t : Fin cfg0.N) (h : t.val = 0) :
    accQ V c t.val t.isLt = qStep (iblk0 V c 0 t) (iblk0 V c 1 t) (iblk0 V c 2 t) (iblk0 V c 3 t) (iblk0 V c 4 t) (k0_pay3 (F := F)) := by
  obtain ⟨n, hn⟩ := t
  cases n with
  | zero => rfl
  | succ n => exact absurd h (Nat.succ_ne_zero _)

theorem r0_accS_pos (c : Dev nD) (t : Fin cfg0.N) (h : t.val ≠ 0) :
    accS V c t.val t.isLt = sStep (iblk0 V c 0 t) (iblk0 V c 1 t) (iblk0 V c 2 t) (iblk0 V c 3 t) (iblk0 V c 4 t) (accS V c (t.val - 1) (Nat.lt_of_le_of_lt (Nat.sub_le _ _) t.isLt)) := by
  obtain ⟨n, hn⟩ := t
  cases n with
  | zero => exact absurd rfl h
  | succ n => rfl

theorem r0_accQ_pos (c : Dev nD) (t : Fin cfg0.N) (h : t.val ≠ 0) :
    accQ V c t.val t.isLt = qStep (iblk0 V c 0 t) (iblk0 V c 1 t) (iblk0 V c 2 t) (iblk0 V c 3 t) (iblk0 V c 4 t) (accQ V c (t.val - 1) (Nat.lt_of_le_of_lt (Nat.sub_le _ _) t.isLt)) := by
  obtain ⟨n, hn⟩ := t
  cases n with
  | zero => exact absurd rfl h
  | succ n => rfl

/-! ## The invariant before the first point, opened at the two accumulators -/

theorem r0_PhiA_eq (c : Dev nD) :
    (Pipeline.ΦA spec0 c : sProp 𝕄)
      = iprop((((∃ d, owns (c : Thread nD τ) scM0_0 fullShare d) ∗ (∃ d, owns (c : Thread nD τ) scM0_1 fullShare d)) ∗ restBut0 c) ∗ (∃ r, prngReg c r)) := by
  unfold Pipeline.ΦA
  rw [Pipeline.scopedRest_split_of_list spec0 c [cc0_scratch0, cc0_scratch1] (by decide) (by decide)]
  simp only [scM0_0, scM0_1, owns_whole]
  rfl

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (r0_ms0 t) fullShare ((dat0 V c).before 0 t d))
    ∗ (∃ d, owns (c : Thread nD τ) (r0_ms1 t) fullShare ((dat0 V c).before 1 t d))
    ∗ (∃ d, owns (c : Thread nD τ) (r0_ms2 t) fullShare ((dat0 V c).before 2 t d))
    ∗ (∃ d, owns (c : Thread nD τ) (r0_ms3 t) fullShare ((dat0 V c).before 3 t d))
    ∗ (∃ d, owns (c : Thread nD τ) (r0_ms4 t) fullShare ((dat0 V c).before 4 t d))
    ∗ (∃ d, owns (c : Thread nD τ) (r0_ms5 t) fullShare ((dat0 V c).before 5 t d))
    ∗ (∃ d, owns (c : Thread nD τ) (r0_ms6 t) fullShare ((dat0 V c).before 6 t d))
    ∗ (∃ d, owns (c : Thread nD τ) (r0_ms7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4800000 in
/-- The body at any point. The inputs' memrefs hold their blocks; the point is the first, a middle one or the last
    (the closed forms of the two conditions), and that case's run applies: the invariant hands the body the two
    accumulators at what the point before left (at anything before the first point) and takes them back at this
    point's values; the two accumulator outputs are handed back untouched except at the last point, where they
    receive the accumulators. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [r0_before0, r0_before1, r0_before2, r0_before3, r0_before4]
  rw [show (dat0 V c).owesAt () t.succ = (dat0 V c).owesAt () t.castSucc from rfl]
  rw [show (dat0 V c).Φ t.succ = PhiS V c (t.val + 1) t.isLt from rfl, PhiS_succ]
  have hN : t.val < 20 := lt_of_lt_of_eq t.isLt (show cfg0.N = 20 from N_0)
  rw [show (dat0 V c).leavesExact 0 t = owns (c : Thread nD τ) (r0_ms0 t) fullShare ((dat0 V c).after 0 t) from by
    unfold Dat.leavesExact; rw [r0_liveAt0 t], after0_0]
  rw [show (dat0 V c).leavesExact 1 t = owns (c : Thread nD τ) (r0_ms1 t) fullShare ((dat0 V c).after 1 t) from by
    unfold Dat.leavesExact; rw [r0_liveAt1 t], after0_1]
  rw [show (dat0 V c).leavesExact 2 t = owns (c : Thread nD τ) (r0_ms2 t) fullShare ((dat0 V c).after 2 t) from by
    unfold Dat.leavesExact; rw [r0_liveAt2 t], after0_2]
  rw [show (dat0 V c).leavesExact 3 t = owns (c : Thread nD τ) (r0_ms3 t) fullShare ((dat0 V c).after 3 t) from by
    unfold Dat.leavesExact; rw [r0_liveAt3 t], after0_3]
  rw [show (dat0 V c).leavesExact 4 t = owns (c : Thread nD τ) (r0_ms4 t) fullShare ((dat0 V c).after 4 t) from by
    unfold Dat.leavesExact; rw [r0_liveAt4 t], after0_4]
  rw [show (dat0 V c).leavesExact 5 t = owns (c : Thread nD τ) (r0_ms5 t) fullShare ((dat0 V c).after 5 t) from by
    unfold Dat.leavesExact; rw [r0_liveAt5 t], after0_5]
  unfold hblk
  by_cases h0 : t.val = 0
  · have h1 : ¬t.val = 19 := by omega
    have hF : r0_condFirst (grid0.coords t) := (r0_hcondFirst t).mpr h0
    have hL : ¬r0_condLast (grid0.coords t) := fun h => h1 ((r0_hcondLast t).mp h)
    rw [Dat.leavesExact_idle (dat0 V c) 6 t (r0_idleAt6 t hL) (r0_noFlush6 t hL)]
    rw [Dat.leavesExact_idle (dat0 V c) 7 t (r0_idleAt7 t hL) (r0_noFlush7 t hL)]
    rw [r0_accS_first V c t h0, r0_accQ_first V c t h0]
    rw [PhiS_castSucc V c t, PhiS_zero V c _ _ h0, r0_PhiA_eq]
    iintro ⟨⟨⟨⟨HS, HQ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (r0_run_first c (grid0.coords t) (r0_ms0 t) (r0_hs0 t) (r0_ms1 t) (r0_hs1 t) (r0_ms2 t) (r0_hs2 t) (r0_ms3 t) (r0_hs3 t) (r0_ms4 t) (r0_hs4 t) (r0_ms5 t) (r0_hs5 t) (r0_ms6 t) (r0_hs6 t) (r0_ms7 t) (r0_hs7 t) scM0_0 (Memref.isWhole_whole _) scM0_1 (Memref.isWhole_whole _) hF hL
      (iblk0 V c 0 t) (iblk0 V c 1 t) (iblk0 V c 2 t) (iblk0 V c 3 t) (iblk0 V c 4 t) ((dat0 V c).before 6 t d6) ((dat0 V c).before 7 t d7) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS]; · iexact HS
    isplitl [HQ]; · iexact HQ
    iintro ⟨H0, H1, H2, H3, H4, H5, H6, H7, HS, HQ⟩
    isplitl [HS HQ HR Hg]
    · isplitl [HS]; · iexact HS
      isplitl [HQ]; · iexact HQ
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  · have hF : ¬r0_condFirst (grid0.coords t) := fun h => h0 ((r0_hcondFirst t).mp h)
    rw [r0_accS_pos V c t h0, r0_accQ_pos V c t h0]
    rw [PhiS_castSucc V c t, PhiS_pos V c _ _ h0]
    by_cases h1 : t.val = 19
    · have hL : r0_condLast (grid0.coords t) := (r0_hcondLast t).mpr h1
      rw [show (dat0 V c).leavesExact 6 t = owns (c : Thread nD τ) (r0_ms6 t) fullShare ((dat0 V c).after 6 t) from by
        unfold Dat.leavesExact; rw [r0_liveAt6 t hL], after0_6]
      rw [show (dat0 V c).leavesExact 7 t = owns (c : Thread nD τ) (r0_ms7 t) fullShare ((dat0 V c).after 7 t) from by
        unfold Dat.leavesExact; rw [r0_liveAt7 t hL], after0_7]
      rw [r0_accS_pos V c t h0, r0_accQ_pos V c t h0]
      iintro ⟨⟨HS, HQ, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (r0_run_last c (grid0.coords t) (r0_ms0 t) (r0_hs0 t) (r0_ms1 t) (r0_hs1 t) (r0_ms2 t) (r0_hs2 t) (r0_ms3 t) (r0_hs3 t) (r0_ms4 t) (r0_hs4 t) (r0_ms5 t) (r0_hs5 t) (r0_ms6 t) (r0_hs6 t) (r0_ms7 t) (r0_hs7 t) scM0_0 (Memref.isWhole_whole _) scM0_1 (Memref.isWhole_whole _) hF hL
        (iblk0 V c 0 t) (iblk0 V c 1 t) (iblk0 V c 2 t) (iblk0 V c 3 t) (iblk0 V c 4 t) (accS V c (t.val - 1) (Nat.lt_of_le_of_lt (Nat.sub_le _ _) t.isLt)) (accQ V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS]; · iexact HS
      isplitl [HQ]; · iexact HQ
      iintro ⟨H0, H1, H2, H3, H4, H5, H6, H7, HS, HQ⟩
      isplitl [HS HQ HR Hg]
      · isplitl [HS]; · iexact HS
        isplitl [HQ]; · iexact HQ
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hL : ¬r0_condLast (grid0.coords t) := fun h => h1 ((r0_hcondLast t).mp h)
      rw [Dat.leavesExact_idle (dat0 V c) 6 t (r0_idleAt6 t hL) (r0_noFlush6 t hL)]
      rw [Dat.leavesExact_idle (dat0 V c) 7 t (r0_idleAt7 t hL) (r0_noFlush7 t hL)]
      iintro ⟨⟨HS, HQ, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (r0_run_mid c (grid0.coords t) (r0_ms0 t) (r0_hs0 t) (r0_ms1 t) (r0_hs1 t) (r0_ms2 t) (r0_hs2 t) (r0_ms3 t) (r0_hs3 t) (r0_ms4 t) (r0_hs4 t) (r0_ms5 t) (r0_hs5 t) (r0_ms6 t) (r0_hs6 t) (r0_ms7 t) (r0_hs7 t) scM0_0 (Memref.isWhole_whole _) scM0_1 (Memref.isWhole_whole _) hF hL
        (iblk0 V c 0 t) (iblk0 V c 1 t) (iblk0 V c 2 t) (iblk0 V c 3 t) (iblk0 V c 4 t) ((dat0 V c).before 6 t d6) ((dat0 V c).before 7 t d7) (accS V c (t.val - 1) (Nat.lt_of_le_of_lt (Nat.sub_le _ _) t.isLt)) (accQ V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS]; · iexact HS
      isplitl [HQ]; · iexact HQ
      iintro ⟨H0, H1, H2, H3, H4, H5, H6, H7, HS, HQ⟩
      isplitl [HS HQ HR Hg]
      · isplitl [HS]; · iexact HS
        isplitl [HQ]; · iexact HQ
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The body obligation of the first pipeline, at every point. -/
theorem body_obligation0 (c : Dev nD) : BodyObligation (dat0 (F := F) V c) (defs₀ (F := F)) Variants.none () Set.univ := fun t => by
  rw [bigSep_W0, bigSep_W0]
  exact sound_body0 V c t

/-- What the launch hands the region (every scratch buffer at anything) is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives that back: the accumulators' contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 20 := N_0; omega
  rw [show (dat0 V c).Φ (Fin.last cfg0.N) = PhiS V c (Fin.last cfg0.N).val (Nat.le_of_lt_succ (Fin.last cfg0.N).isLt) from rfl,
    PhiS_pos V c _ _ hne, r0_PhiA_eq]
  iintro ⟨HS, HQ, HR, Hg⟩
  isplitr [Hg]
  · isplitr [HR]
    · isplitl [HS]
      · iexists _; iexact HS
      iexists _; iexact HQ
    iexact HR
  iexact Hg

end Cert.Kernel.Hand

end
-- ==== Proof.KR1Body.lean ====
/-
  The second pallas_call's body meets its obligation at every grid point.
-/
import proofs.«111244_j21663815041135_1_alg».proof.Proof.KR1Defs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in the six input buffers

Each input window is uncut and never idle, and the body leaves its block in place. At a point where the window is
fetched the buffer holds the block just fetched; at a point where it is not (the four row vectors after the first
point) the block index has not moved since the previous point, so by induction the buffer still holds the same block.
Either way the buffer holds the block of the array at that point. -/

theorem before1_0 (c : Dev nD) (t : Fin cfg1.N) (d) : (dat1 V c).before 0 t d = iblk1 V c 0 t := by
  have hblk : ∀ s, (dat1 V c).blockOf 0 s = iblk1 V c 0 s := fun s => by
    unfold Dat.blockOf iblk1; rw [A_eq1]
  have hkeep : ∀ s, (cfg1.win 0).cut (cfg1.grid.coords s) ((dat1 V c).after 0 s) = (dat1 V c).blockOf 0 s :=
    fun s => by rw [hblk, after1_0]
  rw [(dat1 V c).before_in_eq_fetched 0 rfl (fun _ => rfl) (fun _ _ _ => rfl) hkeep t d]
  exact hblk t

theorem before1_1 (c : Dev nD) (t : Fin cfg1.N) (d) : (dat1 V c).before 1 t d = iblk1 V c 1 t := by
  have hblk : ∀ s, (dat1 V c).blockOf 1 s = iblk1 V c 1 s := fun s => by
    unfold Dat.blockOf iblk1; rw [A_eq1]
  have hkeep : ∀ s, (cfg1.win 1).cut (cfg1.grid.coords s) ((dat1 V c).after 1 s) = (dat1 V c).blockOf 1 s :=
    fun s => by rw [hblk, after1_1]
  rw [(dat1 V c).before_in_eq_fetched 1 rfl (fun _ => rfl) (fun _ _ _ => rfl) hkeep t d]
  exact hblk t

theorem before1_2 (c : Dev nD) (t : Fin cfg1.N) (d) : (dat1 V c).before 2 t d = iblk1 V c 2 t := by
  have hblk : ∀ s, (dat1 V c).blockOf 2 s = iblk1 V c 2 s := fun s => by
    unfold Dat.blockOf iblk1; rw [A_eq1]
  have hkeep : ∀ s, (cfg1.win 2).cut (cfg1.grid.coords s) ((dat1 V c).after 2 s) = (dat1 V c).blockOf 2 s :=
    fun s => by rw [hblk, after1_2]
  rw [(dat1 V c).before_in_eq_fetched 2 rfl (fun _ => rfl) (fun _ _ _ => rfl) hkeep t d]
  exact hblk t

theorem before1_3 (c : Dev nD) (t : Fin cfg1.N) (d) : (dat1 V c).before 3 t d = iblk1 V c 3 t := by
  have hblk : ∀ s, (dat1 V c).blockOf 3 s = iblk1 V c 3 s := fun s => by
    unfold Dat.blockOf iblk1; rw [A_eq1]
  have hkeep : ∀ s, (cfg1.win 3).cut (cfg1.grid.coords s) ((dat1 V c).after 3 s) = (dat1 V c).blockOf 3 s :=
    fun s => by rw [hblk, after1_3]
  rw [(dat1 V c).before_in_eq_fetched 3 rfl (fun _ => rfl) (fun _ _ _ => rfl) hkeep t d]
  exact hblk t

theorem before1_4 (c : Dev nD) (t : Fin cfg1.N) (d) : (dat1 V c).before 4 t d = iblk1 V c 4 t := by
  have hblk : ∀ s, (dat1 V c).blockOf 4 s = iblk1 V c 4 s := fun s => by
    unfold Dat.blockOf iblk1; rw [A_eq1]
  have hkeep : ∀ s, (cfg1.win 4).cut (cfg1.grid.coords s) ((dat1 V c).after 4 s) = (dat1 V c).blockOf 4 s :=
    fun s => by rw [hblk, after1_4]
  rw [(dat1 V c).before_in_eq_fetched 4 rfl (fun _ => rfl) (fun _ _ _ => rfl) hkeep t d]
  exact hblk t

theorem before1_5 (c : Dev nD) (t : Fin cfg1.N) (d) : (dat1 V c).before 5 t d = iblk1 V c 5 t := by
  have hblk : ∀ s, (dat1 V c).blockOf 5 s = iblk1 V c 5 s := fun s => by
    unfold Dat.blockOf iblk1; rw [A_eq1]
  have hkeep : ∀ s, (cfg1.win 5).cut (cfg1.grid.coords s) ((dat1 V c).after 5 s) = (dat1 V c).blockOf 5 s :=
    fun s => by rw [hblk, after1_5]
  rw [(dat1 V c).before_in_eq_fetched 5 rfl (fun _ => rfl) (fun _ _ _ => rfl) hkeep t d]
  exact hblk t

/-! ## The body's triple -/

/-- The offsets of every access of the body are zero. -/
theorem off_zero : (![0, 0] : Fin 2 → Nat) = fun _ => 0 := by
  funext a; fin_cases a <;> rfl

/-- A load through the whole-shape rectangle at offset zero reads the view's contents. -/
theorem readAt_unit_zero {κ : Kind} {sp : Space} {S : Shape} {e : EltTy} (v : View sig κ sp S e) {off : Fin S.rank → Nat}
    (h : off = fun _ => 0) (inb : ∀ a, off a + S.size a ≤ S.size a) (f : v.ty.Contents (Elt F)) :
    v.readAt (Elt F) (Rect.unit off S.size inb).toLoadRect f = v.read (Elt F) f :=
  View.ld_unit_zero h inb _

set_option maxHeartbeats 1000000 in
/-- The body on whole staging memrefs: the six inputs' at contents x0 … x5 (window order) and the output's at anything.
    It loads each input through the whole-buffer rectangle at offset zero, which reads the contents themselves; it
    then stores once, through the whole-buffer rectangle of the output, the payload of those six values. One store
    through the whole rectangle covers every index, so whatever the buffer held before, it now reads as that payload:
    the block oOf x0 … x5. The inputs' buffers are only read, so they are handed back as they were. -/
theorem sound_kernel1 (c : Dev nD) (E : Set ℕ) (i : grid1.Coords)
    (a1 : Memref sig .tc .vmem S5000x128 .f32) (h1 : a1.IsWhole) (a2 : Memref sig .tc .vmem S5000x128 .f32) (h2 : a2.IsWhole)
    (a3 : Memref sig .tc .vmem S1x128 .f32) (h3 : a3.IsWhole) (a4 : Memref sig .tc .vmem S1x128 .f32) (h4 : a4.IsWhole)
    (a5 : Memref sig .tc .vmem S1x128 .f32) (h5 : a5.IsWhole) (a6 : Memref sig .tc .vmem S1x128 .f32) (h6 : a6.IsWhole)
    (a7 : Memref sig .tc .vmem S5000x128 .f32) (h7 : a7.IsWhole)
    (x0 x1 : Vec F S5000x128 .f32) (x2 x3 x4 x5 : Vec F S1x128 .f32) (K : PUnit → sProp 𝕄) :
    iprop(owns (c : Thread nD τ) a1 fullShare x0 ∗ owns (c : Thread nD τ) a2 fullShare x1
        ∗ owns (c : Thread nD τ) a3 fullShare x2 ∗ owns (c : Thread nD τ) a4 fullShare x3
        ∗ owns (c : Thread nD τ) a5 fullShare x4 ∗ owns (c : Thread nD τ) a6 fullShare x5
        ∗ (∃ d, owns (c : Thread nD τ) a7 fullShare d)
        ∗ (iprop(owns (c : Thread nD τ) a1 fullShare x0 ∗ owns (c : Thread nD τ) a2 fullShare x1
            ∗ owns (c : Thread nD τ) a3 fullShare x2 ∗ owns (c : Thread nD τ) a4 fullShare x3
            ∗ owns (c : Thread nD τ) a5 fullShare x4 ∗ owns (c : Thread nD τ) a6 fullShare x5
            ∗ owns (c : Thread nD τ) a7 fullShare (oOf x0 x1 x2 x3 x4 x5)) -∗ K ⟨⟩))
      ⊢ wp frame (wpE (defs₀ (F := F)) Variants.none c none) E (cc1__bn_kernel i a1 h1 a2 h2 a3 h3 a4 h4 a5 h5 a6 h6 a7 h7) K := by
  simp only [cc1__bn_kernel_eq_skeleton]; unfold cc1__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  rw [View.read_writes_eq_canon _ _ _
      (fun y => ⟨_, List.mem_singleton_self _, View.mem_set_unit_zero off_zero inb_S5000x128_S5000x128_0_0 y⟩),
    View.canon_unit_zero off_zero]
  rw [readAt_unit_zero (S := S5000x128) a1.view off_zero, readAt_unit_zero (S := S5000x128) a2.view off_zero,
    readAt_unit_zero (S := S1x128) a3.view off_zero, readAt_unit_zero (S := S1x128) a4.view off_zero,
    readAt_unit_zero (S := S1x128) a5.view off_zero, readAt_unit_zero (S := S1x128) a6.view off_zero]
  rfl

/-! ## The body obligation, at a generic point -/

/-- What the body is called with at point t: the invariant, what the core owes, and each window's current staging
    buffer at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- What it returns: the same invariant and debt, and each buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point. The six inputs' buffers hold their blocks, so the triple above applies with those blocks for
    x0 … x5; the output's buffer may hold anything. The invariant and the debt are the same at every point and the body
    touches neither: they pass through. What comes back is each input's buffer at its block and the output's at
    oOf of the six blocks, which is the block the proof data name. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold oblk
  iexact H6

/-- The body obligation of the second pipeline, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KFrame.lean ====
/-
  Each pallas_call gets its record over the contents between stretches: its arrays are split out of the buffers at entry
  and put back at exit, the first call's accumulators enter and leave its invariant. Then the run: every weakly fair
  execution terminates, the result buffer holds what the second call's write-backs leave, and every argument holds what
  it held at launch.
-/
import proofs.«111244_j21663815041135_1_alg».proof.Proof.KChain
import proofs.«111244_j21663815041135_1_alg».proof.Proof.KR0Body
import proofs.«111244_j21663815041135_1_alg».proof.Proof.KR1Body

set_option maxRecDepth 16384

noncomputable section

/-! ## The two pallas_calls over those contents -/

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After the first call each of its arrays holds what its write-backs leave: an input what it held, a result the fold
    of its write-backs. -/
theorem hF0 (c : Dev nD) (w : Fin cfg0.W) :
    (dat0 (Ve1 m) c).arrAt w cfg0.N = (fun b : Ref sig .tc => Gen.V2 m (outs m) c b) (Pipeline.arrRef spec0 w) := by
  have n01 : (Proc.devRef .tc main_v26_0 : DevRef τ sig) ≠ Proc.devRef .tc main_v26_1 := StableHlo.devRef_ne_of_ne (by decide)
  have n02 : (Proc.devRef .tc main_v26_0 : DevRef τ sig) ≠ Proc.devRef .tc main_v26_2 := StableHlo.devRef_ne_of_ne (by decide)
  have n12 : (Proc.devRef .tc main_v26_1 : DevRef τ sig) ≠ Proc.devRef .tc main_v26_2 := StableHlo.devRef_ne_of_ne (by decide)
  match w with
  | ⟨0, _⟩ => exact ((dat0 (Ve1 m) c).arrAt_in 0 rfl _).trans ((A_eq0 (Ve1 m) c 0).trans (Gen.V2_of m (outs m) c main_v22 (by decide)).symm)
  | ⟨1, _⟩ => exact ((dat0 (Ve1 m) c).arrAt_in 1 rfl _).trans ((A_eq0 (Ve1 m) c 1).trans (Gen.V2_of m (outs m) c main_arg0 (by decide)).symm)
  | ⟨2, _⟩ => exact ((dat0 (Ve1 m) c).arrAt_in 2 rfl _).trans ((A_eq0 (Ve1 m) c 2).trans (Gen.V2_of m (outs m) c main_arg2 (by decide)).symm)
  | ⟨3, _⟩ => exact ((dat0 (Ve1 m) c).arrAt_in 3 rfl _).trans ((A_eq0 (Ve1 m) c 3).trans (Gen.V2_of m (outs m) c main_v23 (by decide)).symm)
  | ⟨4, _⟩ => exact ((dat0 (Ve1 m) c).arrAt_in 4 rfl _).trans ((A_eq0 (Ve1 m) c 4).trans (Gen.V2_of m (outs m) c main_arg4 (by decide)).symm)
  | ⟨5, _⟩ =>
    show _ = Function.update (Function.update (Function.update (Gen.V1 m c) main_v26_0 (outs m 2 main_v26_0 c)) main_v26_1 (outs m 2 main_v26_1 c)) main_v26_2 (outs m 2 main_v26_2 c) main_v26_0
    rw [Function.update_of_ne n02, Function.update_of_ne n01, Function.update_self]
    exact (W2_arr m c 5).symm
  | ⟨6, _⟩ =>
    show _ = Function.update (Function.update (Function.update (Gen.V1 m c) main_v26_0 (outs m 2 main_v26_0 c)) main_v26_1 (outs m 2 main_v26_1 c)) main_v26_2 (outs m 2 main_v26_2 c) main_v26_1
    rw [Function.update_of_ne n12, Function.update_self]
    exact (W2_arr m c 6).symm
  | ⟨7, _⟩ =>
    show _ = Function.update (Function.update (Function.update (Gen.V1 m c) main_v26_0 (outs m 2 main_v26_0 c)) main_v26_1 (outs m 2 main_v26_1 c)) main_v26_2 (outs m 2 main_v26_2 c) main_v26_2
    rw [Function.update_self]
    exact (W2_arr m c 7).symm

/-- Every buffer that is no array of the first call holds after it what it held before. -/
theorem hrest0 (c : Dev nD) : ∀ b, b ∉ Finset.univ.image (Pipeline.arrRef spec0) →
    (fun b : Ref sig .tc => Gen.V2 m (outs m) c b) b = (Ve1 m c) b := fun b hb =>
  Gen.V2_of m (outs m) c b fun hmem => by
    simp only [List.mem_cons, List.mem_nil_iff, or_false] at hmem
    rcases hmem with rfl | rfl | rfl
    · exact hb (Finset.mem_image.mpr ⟨5, Finset.mem_univ _, rfl⟩)
    · exact hb (Finset.mem_image.mpr ⟨6, Finset.mem_univ _, rfl⟩)
    · exact hb (Finset.mem_image.mpr ⟨7, Finset.mem_univ _, rfl⟩)

/-- After the second call each of its arrays holds what its write-backs leave. -/
theorem hF1 (c : Dev nD) (w : Fin cfg1.W) :
    (dat1 (Ve3 m) c).arrAt w cfg1.N = (fun b : Ref sig .tc => Gen.V4 m (outs m) c b) (Pipeline.arrRef spec1 w) := by
  match w with
  | ⟨0, _⟩ => exact ((dat1 (Ve3 m) c).arrAt_in 0 rfl _).trans ((A_eq1 (Ve3 m) c 0).trans (Gen.V4_of m (outs m) c main_v26_0 (by decide)).symm)
  | ⟨1, _⟩ => exact ((dat1 (Ve3 m) c).arrAt_in 1 rfl _).trans ((A_eq1 (Ve3 m) c 1).trans (Gen.V4_of m (outs m) c main_arg0 (by decide)).symm)
  | ⟨2, _⟩ => exact ((dat1 (Ve3 m) c).arrAt_in 2 rfl _).trans ((A_eq1 (Ve3 m) c 2).trans (Gen.V4_of m (outs m) c main_v28 (by decide)).symm)
  | ⟨3, _⟩ => exact ((dat1 (Ve3 m) c).arrAt_in 3 rfl _).trans ((A_eq1 (Ve3 m) c 3).trans (Gen.V4_of m (outs m) c main_v34 (by decide)).symm)
  | ⟨4, _⟩ => exact ((dat1 (Ve3 m) c).arrAt_in 4 rfl _).trans ((A_eq1 (Ve3 m) c 4).trans (Gen.V4_of m (outs m) c main_v24 (by decide)).symm)
  | ⟨5, _⟩ => exact ((dat1 (Ve3 m) c).arrAt_in 5 rfl _).trans ((A_eq1 (Ve3 m) c 5).trans (Gen.V4_of m (outs m) c main_v25 (by decide)).symm)
  | ⟨6, _⟩ =>
    show _ = Function.update (Gen.V3 m (outs m) c) main_v35 (outs m 4 main_v35 c) main_v35
    rw [Function.update_self]
    exact (W4_arr m c 6).symm

/-- Every buffer that is no array of the second call holds after it what it held before. -/
theorem hrest1 (c : Dev nD) : ∀ b, b ∉ Finset.univ.image (Pipeline.arrRef spec1) →
    (fun b : Ref sig .tc => Gen.V4 m (outs m) c b) b = (Ve3 m c) b := fun b hb =>
  Gen.V4_of m (outs m) c b fun hmem => by
    simp only [List.mem_cons, List.mem_nil_iff, or_false] at hmem
    rcases hmem with rfl
    exact hb (Finset.mem_image.mpr ⟨6, Finset.mem_univ _, rfl⟩)

end Cert.Kernel.Hand

/-! ## The regions as segments, and the run -/

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The first pallas_call over the thread state: entered with every unscoped buffer as the first host stretch leaves
    it, left with its three result arrays at what its write-backs leave. Its arrays are split out of the buffers and
    put back; the generator register and the scoped buffers enter its invariant (where the two accumulators are
    tracked) and come back; nothing is owed; it has no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Ve1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Ve1 m) c)
    unfold Pipeline.ΦA
    iintro ⟨Hp, -, Hr⟩
    isplitl [Hr]; · iexact Hr
    iexact Hp
  hout c := by
    refine BIBase.Entails.trans (hout0 (Ve1 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve1 m c) (fun b : Ref sig .tc => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call over the thread state: entered with every unscoped buffer as the second host stretch
    leaves it, left with its result array at what its write-backs leave. Nothing is tracked between its points. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve3 m) c).loose
  hwaits := Pipeline.hwaits_of_owed_zero _ _ _ _ L lv 1 fun _ _ => rfl
  pre c := iprop(StableHlo.held (c : Thread nD τ) (Pipeline.ucRefs τ sig) (Gen.V3 m (outs m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Ve3 m c)
  hentry c := by
    rw [Pipeline.ownSems0_none, V3_outs m c]
    have hsplit := Pipeline.arrays_of_unscopedBufs (p := 1) (pcfgs (F := F)) adm (pdats m) launch1.win launch1.arr_whole c
      ((pdats m 1 c).share_full fun _ => rfl) (Ve3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve3 m c) (fun b : Ref sig .tc => Gen.V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

/-! ## The run -/

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What rides beside the buffers, made from what the launch deals each core. -/
theorem rides_init : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => (R c : sProp 𝕄)) : sProp 𝕄) :=
  Pipeline.initEach L lv fun c => by
    iintro ⟨⟨-, HO, -, Hp, -⟩, -⟩
    imodintro
    isplitl [Hp]; · iexists _; iexact Hp
    iexists ∅; iexact HO

set_option backward.isDefEq.respectTransparency.types false in
/-- THE RUN. From any memory with zero counters every weakly fair execution of the program terminates, nothing
    faulting; the result buffer ends at what the second call's write-backs leave and every argument as launched. -/
theorem run : θ_run defs (onTc (τ := τ) (main (F := F))) ⟨m, fun _ => 0, ρ⟩ (fun r => ∀ c : Dev nD,
      r.2.mem ((c.tc : Thread nD τ).loc main_v35) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) adm (pdats m) () cellOf_inj emb₁ defs₀ 𝒱₀ L lv m ρ main
    (Gen.segs m (outs m) 𝒱₀ L lv (fun _ c => R c) () (pdats m) (reg0 m) (reg1 m))
    (fun c Q => by
      rewrite [main_chain c, Seg.run_eq_chain,
        show (Gen.segs m (outs m) 𝒱₀ L lv (fun _ c => R c) () (pdats m) (reg0 m) (reg1 m) c).map Seg.prog = [
          StableHlo.seq hostOps0,
          Prog.lift (.customCall (Pipeline.entry 0) ()),
          StableHlo.seq hostOps1,
          Prog.lift (.customCall (Pipeline.entry 1) ()) ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V4 m (outs m) c))
    (hch := fun c => ⟨.rfl, .rfl, .rfl, .rfl, sep_mono .rfl (by iintro ⟨-, H⟩; iexact H)⟩)
    (hinit := ?_) (QY := fun c s => s.mem ((c.tc : Thread nD τ).loc main_v35) = result m c
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6))
    (hfin := fun c s' => ?_) (hQ := fun _ h => h)
  · -- the launch: the unscoped buffers are held at the launch contents; the rest makes what rides on every core
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)))
            : sProp 𝕄) := by
      rw [← bigSep_sep']
      exact bigSep_mono fun c _ => by rw [← Pipeline.unscopedBufs_held (Ix := Unit) (Name := ℕ) (U := UR sig nD τ) (Lvl := ℕ) c (Gen.V0 m c)]; exact BI.Entails.refl _
    iintro ⟨H, Hla⟩
    ihave H' := hsplit $$ H
    icases H' with ⟨Hh, Hr⟩
    imod (rides_init (F := F) ρ) $$ [Hr Hla] with HE
    · isplitl [Hr]; · iexact Hr
      iexact Hla
    imodintro
    rw [bigSep_sep' Finset.univ (fun c : Dev nD => StableHlo.held (c : Thread nD τ) (Pipeline.ucRefs τ sig) (Gen.V0 m c)) (fun c : Dev nD => (R c : sProp 𝕄))]
    isplitl [Hh]; · iexact Hh
    iexact HE
  · -- the end: the result buffer and each argument's buffer read off the last contents
    unfold StableHlo.held
    iintro ⟨Hh, HSI⟩
    ihave Hr := (pointsTo_read_all (Pipeline.ucRefs τ sig) (fun b => ((c : Thread nD τ).1, b)) (Gen.V4 m (outs m) c) s') $$ [Hh HSI]
    · isplitl [Hh] <;> iassumption
    icases Hr with ⟨%h, HSI⟩
    imodintro
    isplitr
    · ipureintro
      exact ⟨h (Proc.devRef .tc main_v35) (Finset.mem_filter.mpr ⟨StableHlo.devRef_mem_tcRefs main_v35, by decide⟩),
        (h (Proc.devRef .tc main_arg0) (Finset.mem_filter.mpr ⟨StableHlo.devRef_mem_tcRefs main_arg0, by decide⟩)).trans (Gen.V4_main_arg0 m (outs m) c),
        (h (Proc.devRef .tc main_arg1) (Finset.mem_filter.mpr ⟨StableHlo.devRef_mem_tcRefs main_arg1, by decide⟩)).trans (Gen.V4_main_arg1 m (outs m) c),
        (h (Proc.devRef .tc main_arg2) (Finset.mem_filter.mpr ⟨StableHlo.devRef_mem_tcRefs main_arg2, by decide⟩)).trans (Gen.V4_main_arg2 m (outs m) c),
        (h (Proc.devRef .tc main_arg3) (Finset.mem_filter.mpr ⟨StableHlo.devRef_mem_tcRefs main_arg3, by decide⟩)).trans (Gen.V4_main_arg3 m (outs m) c),
        (h (Proc.devRef .tc main_arg4) (Finset.mem_filter.mpr ⟨StableHlo.devRef_mem_tcRefs main_arg4, by decide⟩)).trans (Gen.V4_main_arg4 m (outs m) c),
        (h (Proc.devRef .tc main_arg5) (Finset.mem_filter.mpr ⟨StableHlo.devRef_mem_tcRefs main_arg5, by decide⟩)).trans (Gen.V4_main_arg5 m (outs m) c),
        (h (Proc.devRef .tc main_arg6) (Finset.mem_filter.mpr ⟨StableHlo.devRef_mem_tcRefs main_arg6, by decide⟩)).trans (Gen.V4_main_arg6 m (outs m) c)⟩
    · iexact HSI

end Cert.Kernel.Hand

end
-- ==== Proof.KIR0Defs.lean ====
/-
  The first pallas_call (rows in blocks of 5000, twenty grid points): what it computes, point by point.
  At point t the body reads the t-th row block of the neighbourhood mean and of x, and the whole of W_l, b and W_r;
  it writes the block h_t = relu(mean_t · W_l + x_t · W_r + b) to the first output, and adds to two accumulators kept
  in scratch between points the column sums of h_t and of h_t², after clearing them at the first point. At the last
  point the accumulators are copied to the second and third outputs. This module names those values: the blocks,
  the accumulators after each point (a recursion on the point), the invariant that carries the accumulators from
  one point to the next, and the proof data of the pipeline.
-/
import proofs.«111244_j21663815041135_1_alg».proof.Proof.Gen.KernelIdeal.Launch
import proofs.«111244_j21663815041135_1_alg».proof.Proof.Gen.KernelIdeal.Skeleton
import proofs.«111244_j21663815041135_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: a parameter, instantiated by the run
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of h from the five input blocks (mean, x, W_l, b, W_r in window order). -/
def hOf (x0 x1 : Vec F S5000x128 .f32) (x2 : Vec F S128x128 .f32) (x3 : Vec F S1x128 .f32) (x4 : Vec F S128x128 .f32) :
    Vec F S5000x128 .f32 := k0_pay4 x0 x1 x2 x4 x3
/-- The column-sum accumulator after a point, from its contents before. -/
def sStep (x0 x1 : Vec F S5000x128 .f32) (x2 : Vec F S128x128 .f32) (x3 : Vec F S1x128 .f32) (x4 : Vec F S128x128 .f32)
    (s : Vec F S1x128 .f32) : Vec F S1x128 .f32 := k0_pay5 x0 x1 x2 x4 x3 s
/-- The accumulator of the column sums of squares after a point, from its contents before. -/
def qStep (x0 x1 : Vec F S5000x128 .f32) (x2 : Vec F S128x128 .f32) (x3 : Vec F S1x128 .f32) (x4 : Vec F S128x128 .f32)
    (q : Vec F S1x128 .f32) : Vec F S1x128 .f32 := k0_pay1 q (k0_pay6 x0 x1 x2 x4 x3)

/-- The block of h the body stores at point t. -/
def hblk (c : Dev nD) (t : Fin cfg0.N) : Vec F S5000x128 .f32 :=
  hOf (iblk0 V c 0 t) (iblk0 V c 1 t) (iblk0 V c 2 t) (iblk0 V c 3 t) (iblk0 V c 4 t)

/-- The column-sum accumulator after point n: cleared and then fed at point 0, fed at every later point. -/
def accS (c : Dev nD) : (n : ℕ) → n < cfg0.N → Vec F S1x128 .f32
  | 0, h => sStep (iblk0 V c 0 ⟨0, h⟩) (iblk0 V c 1 ⟨0, h⟩) (iblk0 V c 2 ⟨0, h⟩) (iblk0 V c 3 ⟨0, h⟩) (iblk0 V c 4 ⟨0, h⟩) (k0_pay2 (F := F))
  | n + 1, h => sStep (iblk0 V c 0 ⟨n + 1, h⟩) (iblk0 V c 1 ⟨n + 1, h⟩) (iblk0 V c 2 ⟨n + 1, h⟩) (iblk0 V c 3 ⟨n + 1, h⟩) (iblk0 V c 4 ⟨n + 1, h⟩)
      (accS c n (Nat.lt_of_succ_lt h))

/-- The sum-of-squares accumulator after point n. -/
def accQ (c : Dev nD) : (n : ℕ) → n < cfg0.N → Vec F S1x128 .f32
  | 0, h => qStep (iblk0 V c 0 ⟨0, h⟩) (iblk0 V c 1 ⟨0, h⟩) (iblk0 V c 2 ⟨0, h⟩) (iblk0 V c 3 ⟨0, h⟩) (iblk0 V c 4 ⟨0, h⟩) (k0_pay3 (F := F))
  | n + 1, h => qStep (iblk0 V c 0 ⟨n + 1, h⟩) (iblk0 V c 1 ⟨n + 1, h⟩) (iblk0 V c 2 ⟨n + 1, h⟩) (iblk0 V c 3 ⟨n + 1, h⟩) (iblk0 V c 4 ⟨n + 1, h⟩)
      (accQ c n (Nat.lt_of_succ_lt h))

/-- The two accumulators, as whole scoped buffers of the kernel's own. -/
abbrev scM0_0 : Memref sig .tc .vmem S1x128 .f32 := Memref.whole cc0_scratch0
abbrev scM0_1 : Memref sig .tc .vmem S1x128 .f32 := Memref.whole cc0_scratch1

/-- Every other scoped buffer that is no staging buffer of this call, at some contents each: carried unopened. -/
abbrev restBut0 (c : Dev nD) : sProp 𝕄 :=
  Pipeline.scopedRestBut (Ix := Unit) (Name := ℕ) (U := UR sig nD τ) (Lvl := ℕ) (Val := Elt F) spec0 c [cc0_scratch0, cc0_scratch1]

/-- The region invariant before position n: before the first point every scratch buffer holds anything; afterwards the
    two accumulators hold what the point before left, the other scoped buffers anything. -/
def PhiS (c : Dev nD) : (n : ℕ) → n ≤ cfg0.N → sProp 𝕄
  | 0, _ => Pipeline.ΦA spec0 c
  | n + 1, hn => iprop(owns (c : Thread nD τ) scM0_0 fullShare (accS V c n hn) ∗ owns (c : Thread nD τ) scM0_1 fullShare (accQ V c n hn)
      ∗ restBut0 c ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(owns (c : Thread nD τ) scM0_0 fullShare (accS V c n hn) ∗ owns (c : Thread nD τ) scM0_1 fullShare (accQ V c n hn)
      ∗ restBut0 c ∗ (∃ r, prngReg c r)) := rfl

theorem PhiS_pos (c : Dev nD) (n : ℕ) (h : n ≤ cfg0.N) (hz : n ≠ 0) :
    PhiS V c n h = iprop(owns (c : Thread nD τ) scM0_0 fullShare (accS V c (n - 1) (by omega)) ∗ owns (c : Thread nD τ) scM0_1 fullShare (accQ V c (n - 1) (by omega))
      ∗ restBut0 c ∗ (∃ r, prngReg c r)) := by
  cases n with
  | zero => exact absurd rfl hz
  | succ n => rfl

/-- The proof data of the first pipeline on core c: the arrays as the region finds them; after the body at point t each
    input's buffer at its block, the first output's at the block of h, the other two at the accumulators; the
    invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => hblk V c t
    | ⟨6, _⟩ => accS V c t.val t.isLt
    | ⟨7, _⟩ => accQ V c t.val t.isLt
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = hblk V c t := by dsimp only [dat0]
theorem after0_6 (c : Dev nD) (t : Fin cfg0.N) : (dat0 V c).after 6 t = accS V c t.val t.isLt := by dsimp only [dat0]
theorem after0_7 (c : Dev nD) (t : Fin cfg0.N) : (dat0 V c).after 7 t = accQ V c t.val t.isLt := by dsimp only [dat0]

end Cert.KernelIdeal.Hand

end
-- ==== Proof.KIR1Defs.lean ====
/-
  The second pallas_call (the same twenty row blocks): at point t the body reads the t-th row block of h and of x and
  the whole of the column mean, the column variance, gamma and beta, and writes the block
  x_t + ((h_t − mean) · rsqrt(variance + ε) · gamma + beta). Nothing is carried between points. This module names the
  blocks and the proof data of the pipeline.
-/
import proofs.«111244_j21663815041135_1_alg».proof.Proof.Gen.KernelIdeal.Launch
import proofs.«111244_j21663815041135_1_alg».proof.Proof.Gen.KernelIdeal.Skeleton
import proofs.«111244_j21663815041135_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output block from the six input blocks (h, x, mean, variance, gamma, beta in window order). -/
def oOf (x0 x1 : Vec F S5000x128 .f32) (x2 x3 x4 x5 : Vec F S1x128 .f32) : Vec F S5000x128 .f32 :=
  k1_pay1 x0 x3 x2 x4 x5 x1

/-- The block the body stores at point t. -/
def oblk (c : Dev nD) (t : Fin cfg1.N) : Vec F S5000x128 .f32 :=
  oOf (iblk1 V c 0 t) (iblk1 V c 1 t) (iblk1 V c 2 t) (iblk1 V c 3 t) (iblk1 V c 4 t) (iblk1 V c 5 t)

/-- The proof data of the second pipeline on core c: the arrays as the region finds them; after the body each input's
    buffer at its block and the output's at the block above; the scratch-free invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => oblk V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = oblk V c t := by dsimp only [dat1]

end Cert.KernelIdeal.Hand

end
-- ==== Proof.KIChain.lean ====
/-
  The program is four stretches: host operations, the first pallas_call, host operations, the second pallas_call.
  Between stretches a core holds every unscoped buffer at known contents: at launch the memory; after a host stretch the
  operations' results; after a pallas_call its result arrays at what its write-backs leave and every other buffer as
  before. This module fixes those contents, the result buffer's contents at the end, and each pipeline's proof data at
  the contents its call finds.
-/
import proofs.«111244_j21663815041135_1_alg».proof.Proof.KIR0Defs
import proofs.«111244_j21663815041135_1_alg».proof.Proof.KIR1Defs
import proofs.«111244_j21663815041135_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The contents between stretches -/

/-- What the first pallas_call finds: the launch contents after the first host stretch. -/
abbrev Ve1 : (c : Dev nD) → (b : Ref sig .tc) → Buf (Elt F) ((c : Thread nD τ).loc b) := fun c b => Gen.V1 m c b

/-- After the first pallas_call: its arrays at what its write-backs leave, every other buffer as before. -/
def W2 (c : Dev nD) : Valuation τ sig (Elt F) :=
  Pipeline.withArrays spec0 c (Gen.V1 m c) fun w => (dat0 (Ve1 m) c).arrAt w cfg0.N

/-- The first call's results, as the unknowns the generated contents chain is written over. -/
def outs2 : Gen.Outs (F := F) := fun _ r c => W2 m c r

/-- What the second pallas_call finds: after the second host stretch. -/
abbrev Ve3 : (c : Dev nD) → (b : Ref sig .tc) → Buf (Elt F) ((c : Thread nD τ).loc b) := fun c b => Gen.V3 m (outs2 m) c b

/-- After the second pallas_call. -/
def W4 (c : Dev nD) : Valuation τ sig (Elt F) :=
  Pipeline.withArrays spec1 c (Gen.V3 m (outs2 m) c) fun w => (dat1 (Ve3 m) c).arrAt w cfg1.N

/-- Both calls' results. -/
def outs : Gen.Outs (F := F) := fun J r c => match J with
  | 4 => W4 m c r
  | _ => W2 m c r

theorem V2_outs (c : Dev nD) : Gen.V2 m (outs m) c = Gen.V2 m (outs2 m) c := rfl
theorem V3_outs (c : Dev nD) : Gen.V3 m (outs m) c = Gen.V3 m (outs2 m) c := rfl

theorem W2_arr (c : Dev nD) (w : Fin cfg0.W) :
    W2 m c (Proc.devRef .tc (Pipeline.arrRef spec0 w)) = (dat0 (Ve1 m) c).arrAt w cfg0.N := by
  unfold W2; exact Pipeline.withArrays_arr spec0 launch0.win.arr_inj c _ _ w
theorem W4_arr (c : Dev nD) (w : Fin cfg1.W) :
    W4 m c (Proc.devRef .tc (Pipeline.arrRef spec1 w)) = (dat1 (Ve3 m) c).arrAt w cfg1.N := by
  unfold W4; exact Pipeline.withArrays_arr spec1 launch1.win.arr_inj c _ _ w

/-- The result buffer's contents at the end. -/
def result (c : Dev nD) : Buf (Elt F) ((c.tc : Thread nD τ).loc main_v35) := Gen.V4 m (outs m) c main_v35

theorem result_eq (c : Dev nD) : result m c = (dat1 (Ve3 m) c).arrAt 6 cfg1.N := by
  unfold result
  show Function.update (Gen.V3 m (outs m) c) main_v35 (outs m 4 main_v35 c) main_v35 = _
  rw [Function.update_self]
  exact W4_arr m c 6

/-! ## The proof data family and what rides beside the buffers -/

/-- No pipeline has a prefetched table. -/
abbrev adm : (p : Fin 2) → (pcfgs (F := F) p).Adm := fun p => (cfgs p).toPCfg_adm

/-- Each pipeline's proof data at its region's entry contents. -/
def pdats : (p : Fin 2) → (c : Dev nD) → Dat τ (Elt F) Unit ℕ (UR sig nD τ) ℕ (cfgs p) c
  | ⟨0, _⟩ => fun c => dat0 (Ve1 m) c
  | ⟨1, _⟩ => fun c => dat1 (Ve3 m) c

abbrev 𝒱₀ : Variants := Variants.none
abbrev L : GSem nD τ sig → Finset Unit := fun _ => ∅
abbrev lv : GSem nD τ sig → Unit → ℕ := fun _ _ => 0

/-- Beside the buffers: the core's generator register at some state and its dues, which are none. -/
abbrev R (c : Dev nD) : sProp 𝕄 := iprop((∃ r, prngReg c r) ∗ ∃ W, owes (c : Thread nD τ) (0 : CellTallies nD τ sig Unit) W)

end Cert.KernelIdeal.Hand

end
-- ==== Proof.KIR0Run.lean ====
/-
  The body of the first kernel, run on any whole memrefs, in its three cases. At the first point the body clears
  the two accumulators and then feeds them; at a middle point it feeds them; at the last point it feeds them and
  copies them to the second and third outputs. In every case the five input buffers are read and left as they
  were, and the first output receives the block relu(mean · W_l + x · W_r + b) of the input blocks. Each case is
  stated with the contents every buffer ends with: the accumulators at the step functions of what they held
  (of the cleared values at the first point), the two accumulator outputs untouched except at the last point.
-/
import proofs.«111244_j21663815041135_1_alg».proof.Proof.KIR0Defs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer access, however spelt. -/
theorem r0_hz : (![0, 0] : Fin 2 → Nat) = fun _ => 0 := funext fun a => by fin_cases a <;> rfl

/-- The condition of the first conditional, from the grid coordinate: the point is the first. -/
abbrev r0_condFirst (i : grid0.Coords) : Prop := (Scalar.cmpi .ne (Scalar.extui (Scalar.cmpi .eq (BitVec.ofNat 32 (i 0).val) 0#32)) 0#32) = 1#1
/-- The condition of the second conditional: the point is the last. -/
abbrev r0_condLast (i : grid0.Coords) : Prop := k0_cond2 i = 1#1

/-- A store through the whole shape, made last, leaves its payload, whatever was stored before and whatever the buffer held. -/
theorem r0_read_store_whole {sp : Space} {S : Shape} {e : EltTy} (v : View sig .tc sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h inb]

/-- A load through the whole shape of a whole buffer reads its contents. -/
theorem r0_readAt_whole {S : Shape} {e : EltTy} (m : Memref sig .tc .vmem S e) (hm : m.IsWhole)
    {off : Fin S.rank → ℕ} (h : off = fun _ => 0) (inb : ∀ a, off a + S.size a ≤ S.size a) (X : S.Idx → Elt F e) :
    View.readAt (Elt F) m.view (Rect.unit off S.size inb).toLoadRect (hm.unread X) = X := by
  rw [View.readAt_eq_ld, hm.read_unread, View.ld_unit_zero h inb]

set_option maxHeartbeats 1000000 in
/-- The first point: both conditionals decided (first taken, second not). The accumulators start at anything,
    are cleared, and end at one step from the cleared values; the accumulator outputs are not touched. -/
theorem r0_run_first (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole)
    (hc1 : r0_condFirst i) (hc2 : ¬r0_condLast i)
    (x0 x1 : Vec F S5000x128 .f32) (x2 : Vec F S128x128 .f32) (x3 : Vec F S1x128 .f32) (x4 : Vec F S128x128 .f32)
    (d7 d8 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ owns (c : Thread nD τ) arg7 fullShare d7 ∗ owns (c : Thread nD τ) arg8 fullShare d8
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (hOf x0 x1 x2 x3 x4) ∗ owns (c : Thread nD τ) arg7 fullShare d7 ∗ owns (c : Thread nD τ) arg8 fullShare d8
            ∗ owns (c : Thread nD τ) arg9 fullShare (sStep x0 x1 x2 x3 x4 (k0_pay2 (F := F))) ∗ owns (c : Thread nD τ) arg10 fullShare (qStep x0 x1 x2 x3 x4 (k0_pay3 (F := F)))) -∗ K ⟨⟩))
      ⊢ wp frame (wpE (defs₀ (F := F)) Variants.none c none) E (cc0__h_kernel i arg1 harg1 arg2 harg2 arg3 harg3 arg4 harg4 arg5 harg5 arg6 harg6 arg7 harg7 arg8 harg8 arg9 harg9 arg10 harg10) K := by
  simp only [cc0__h_kernel_eq_skeleton]; unfold cc0__h_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, H7, H8, ⟨%d9, %f9, -, H9⟩, ⟨%d10, %f10, -, H10⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    refine (r0_read_store_whole _ _ r0_hz _ _ _).trans ?_
    (try sl_unfold_words)
    simp only [r0_readAt_whole (S := S5000x128) _ _ r0_hz, r0_readAt_whole (S := S128x128) _ _ r0_hz, r0_readAt_whole (S := S1x128) _ _ r0_hz, View.readCov_unit_zero (S := S1x128) _ r0_hz]
    rfl
  isplitl [H7]; · iexact H7
  isplitl [H8]; · iexact H8
  isplitl [H9]
  · iexists _; isplitr; swap; · iexact H9
    ipureintro
    refine (r0_read_store_whole _ _ r0_hz _ _ _).trans ?_
    (try sl_unfold_words)
    simp only [r0_readAt_whole (S := S5000x128) _ _ r0_hz, r0_readAt_whole (S := S128x128) _ _ r0_hz, r0_readAt_whole (S := S1x128) _ _ r0_hz, View.readCov_unit_zero (S := S1x128) _ r0_hz]
    rfl
  iexists _; isplitr; swap; · iexact H10
  ipureintro
  refine (r0_read_store_whole _ _ r0_hz _ _ _).trans ?_
  (try sl_unfold_words)
  simp only [r0_readAt_whole (S := S5000x128) _ _ r0_hz, r0_readAt_whole (S := S128x128) _ _ r0_hz, r0_readAt_whole (S := S1x128) _ _ r0_hz, View.readCov_unit_zero (S := S1x128) _ r0_hz]
  rfl

set_option maxHeartbeats 1000000 in
/-- A middle point: neither conditional taken. The accumulators go one step from what they held; the accumulator
    outputs are not touched. -/
theorem r0_run_mid (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole)
    (hc1 : ¬r0_condFirst i) (hc2 : ¬r0_condLast i)
    (x0 x1 : Vec F S5000x128 .f32) (x2 : Vec F S128x128 .f32) (x3 : Vec F S1x128 .f32) (x4 : Vec F S128x128 .f32)
    (d7 d8 s q : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ owns (c : Thread nD τ) arg7 fullShare d7 ∗ owns (c : Thread nD τ) arg8 fullShare d8
        ∗ owns (c : Thread nD τ) arg9 fullShare s ∗ owns (c : Thread nD τ) arg10 fullShare q
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (hOf x0 x1 x2 x3 x4) ∗ owns (c : Thread nD τ) arg7 fullShare d7 ∗ owns (c : Thread nD τ) arg8 fullShare d8
            ∗ owns (c : Thread nD τ) arg9 fullShare (sStep x0 x1 x2 x3 x4 s) ∗ owns (c : Thread nD τ) arg10 fullShare (qStep x0 x1 x2 x3 x4 q)) -∗ K ⟨⟩))
      ⊢ wp frame (wpE (defs₀ (F := F)) Variants.none c none) E (cc0__h_kernel i arg1 harg1 arg2 harg2 arg3 harg3 arg4 harg4 arg5 harg5 arg6 harg6 arg7 harg7 arg8 harg8 arg9 harg9 arg10 harg10) K := by
  simp only [cc0__h_kernel_eq_skeleton]; unfold cc0__h_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, H7, H8, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5
  obtain rfl := harg9.eq_unread hf9; obtain rfl := harg10.eq_unread hf10
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    refine (r0_read_store_whole _ _ r0_hz _ _ _).trans ?_
    (try sl_unfold_words)
    simp only [r0_readAt_whole (S := S5000x128) _ _ r0_hz, r0_readAt_whole (S := S128x128) _ _ r0_hz, r0_readAt_whole (S := S1x128) _ _ r0_hz, View.readCov_unit_zero (S := S1x128) _ r0_hz]
    rfl
  isplitl [H7]; · iexact H7
  isplitl [H8]; · iexact H8
  isplitl [H9]
  · iexists _; isplitr; swap; · iexact H9
    ipureintro
    refine (r0_read_store_whole _ _ r0_hz _ _ _).trans ?_
    (try sl_unfold_words)
    simp only [r0_readAt_whole (S := S5000x128) _ _ r0_hz, r0_readAt_whole (S := S128x128) _ _ r0_hz, r0_readAt_whole (S := S1x128) _ _ r0_hz, View.readCov_unit_zero (S := S1x128) _ r0_hz]
    rfl
  iexists _; isplitr; swap; · iexact H10
  ipureintro
  refine (r0_read_store_whole _ _ r0_hz _ _ _).trans ?_
  (try sl_unfold_words)
  simp only [r0_readAt_whole (S := S5000x128) _ _ r0_hz, r0_readAt_whole (S := S128x128) _ _ r0_hz, r0_readAt_whole (S := S1x128) _ _ r0_hz, View.readCov_unit_zero (S := S1x128) _ r0_hz]
  rfl

set_option maxHeartbeats 1000000 in
/-- The last point: the second conditional taken. The accumulators go one step from what they held, and the two
    accumulator outputs, whatever they held, receive the accumulators' new contents. -/
theorem r0_run_last (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole)
    (hc1 : ¬r0_condFirst i) (hc2 : r0_condLast i)
    (x0 x1 : Vec F S5000x128 .f32) (x2 : Vec F S128x128 .f32) (x3 : Vec F S1x128 .f32) (x4 : Vec F S128x128 .f32)
    (s q : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s ∗ owns (c : Thread nD τ) arg10 fullShare q
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (hOf x0 x1 x2 x3 x4) ∗ owns (c : Thread nD τ) arg7 fullShare (sStep x0 x1 x2 x3 x4 s) ∗ owns (c : Thread nD τ) arg8 fullShare (qStep x0 x1 x2 x3 x4 q)
            ∗ owns (c : Thread nD τ) arg9 fullShare (sStep x0 x1 x2 x3 x4 s) ∗ owns (c : Thread nD τ) arg10 fullShare (qStep x0 x1 x2 x3 x4 q)) -∗ K ⟨⟩))
      ⊢ wp frame (wpE (defs₀ (F := F)) Variants.none c none) E (cc0__h_kernel i arg1 harg1 arg2 harg2 arg3 harg3 arg4 harg4 arg5 harg5 arg6 harg6 arg7 harg7 arg8 harg8 arg9 harg9 arg10 harg10) K := by
  simp only [cc0__h_kernel_eq_skeleton]; unfold cc0__h_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5
  obtain rfl := harg9.eq_unread hf9; obtain rfl := harg10.eq_unread hf10
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    refine (r0_read_store_whole _ _ r0_hz _ _ _).trans ?_
    (try sl_unfold_words)
    simp only [r0_readAt_whole (S := S5000x128) _ _ r0_hz, r0_readAt_whole (S := S128x128) _ _ r0_hz, r0_readAt_whole (S := S1x128) _ _ r0_hz, View.readCov_unit_zero (S := S1x128) _ r0_hz]
    rfl
  isplitl [H7]
  · iexists _; isplitr; swap; · iexact H7
    ipureintro
    refine (r0_read_store_whole _ _ r0_hz _ _ _).trans ?_
    (try sl_unfold_words)
    simp only [r0_readAt_whole (S := S5000x128) _ _ r0_hz, r0_readAt_whole (S := S128x128) _ _ r0_hz, r0_readAt_whole (S := S1x128) _ _ r0_hz, View.readCov_unit_zero (S := S1x128) _ r0_hz]
    rfl
  isplitl [H8]
  · iexists _; isplitr; swap; · iexact H8
    ipureintro
    refine (r0_read_store_whole _ _ r0_hz _ _ _).trans ?_
    (try sl_unfold_words)
    simp only [r0_readAt_whole (S := S5000x128) _ _ r0_hz, r0_readAt_whole (S := S128x128) _ _ r0_hz, r0_readAt_whole (S := S1x128) _ _ r0_hz, View.readCov_unit_zero (S := S1x128) _ r0_hz]
    rfl
  isplitl [H9]
  · iexists _; isplitr; swap; · iexact H9
    ipureintro
    refine (r0_read_store_whole _ _ r0_hz _ _ _).trans ?_
    (try sl_unfold_words)
    simp only [r0_readAt_whole (S := S5000x128) _ _ r0_hz, r0_readAt_whole (S := S128x128) _ _ r0_hz, r0_readAt_whole (S := S1x128) _ _ r0_hz, View.readCov_unit_zero (S := S1x128) _ r0_hz]
    rfl
  iexists _; isplitr; swap; · iexact H10
  ipureintro
  refine (r0_read_store_whole _ _ r0_hz _ _ _).trans ?_
  (try sl_unfold_words)
  simp only [r0_readAt_whole (S := S5000x128) _ _ r0_hz, r0_readAt_whole (S := S128x128) _ _ r0_hz, r0_readAt_whole (S := S1x128) _ _ r0_hz, View.readCov_unit_zero (S := S1x128) _ r0_hz]
  rfl

end Cert.KernelIdeal.Hand

end
-- ==== Proof.KIR0Body.lean ====
/-
  The body of the first kernel meets its obligation at every grid point, and the carried accumulators enter and
  leave the region's invariant. At a point the five input buffers hold their blocks (fetched there or not); the point
  is the first, a middle one or the last, and that case's run of the body gives the first output its block of h, the
  accumulators one step from what the point before left (from the cleared values at the first point), and at the
  last point the two accumulator outputs the accumulators' final contents; elsewhere those two outputs are idle and
  go back as they came.
-/
import proofs.«111244_j21663815041135_1_alg».proof.Proof.KIR0Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The conditions over the grid, and where the two accumulator outputs are idle -/

/-- The first conditional is taken at the first point only — decided over the grid. -/
theorem r0_hcondFirst : ∀ t : Fin cfg0.N, r0_condFirst (grid0.coords t) ↔ t.val = 0 :=
  (by decide +kernel : ∀ t : Fin grid0.N, r0_condFirst (grid0.coords t) ↔ t.val = 0)
/-- The second conditional is taken at the last point only. -/
theorem r0_hcondLast : ∀ t : Fin cfg0.N, r0_condLast (grid0.coords t) ↔ t.val = 19 :=
  (by decide +kernel : ∀ t : Fin grid0.N, r0_condLast (grid0.coords t) ↔ t.val = 19)
theorem r0_liveAt0 : ∀ t : Fin cfg0.N, cfg0.idle 0 (grid0.coords t) = false := by decide +kernel
theorem r0_liveAt1 : ∀ t : Fin cfg0.N, cfg0.idle 1 (grid0.coords t) = false := by decide +kernel
theorem r0_liveAt2 : ∀ t : Fin cfg0.N, cfg0.idle 2 (grid0.coords t) = false := by decide +kernel
theorem r0_liveAt3 : ∀ t : Fin cfg0.N, cfg0.idle 3 (grid0.coords t) = false := by decide +kernel
theorem r0_liveAt4 : ∀ t : Fin cfg0.N, cfg0.idle 4 (grid0.coords t) = false := by decide +kernel
theorem r0_liveAt5 : ∀ t : Fin cfg0.N, cfg0.idle 5 (grid0.coords t) = false := by decide +kernel
/-- Away from the last point output 6 is idle and is not written back; at the last point it is live. -/
theorem r0_idleAt6 : ∀ t : Fin cfg0.N, ¬r0_condLast (grid0.coords t) → cfg0.idle 6 (grid0.coords t) = true := by decide +kernel
theorem r0_noFlush6 : ∀ t : Fin cfg0.N, ¬r0_condLast (grid0.coords t) → (cfg0.win 6).flush t = false := by decide +kernel
theorem r0_liveAt6 : ∀ t : Fin cfg0.N, r0_condLast (grid0.coords t) → cfg0.idle 6 (grid0.coords t) = false := by decide +kernel
/-- Away from the last point output 7 is idle and is not written back; at the last point it is live. -/
theorem r0_idleAt7 : ∀ t : Fin cfg0.N, ¬r0_condLast (grid0.coords t) → cfg0.idle 7 (grid0.coords t) = true := by decide +kernel
theorem r0_noFlush7 : ∀ t : Fin cfg0.N, ¬r0_condLast (grid0.coords t) → (cfg0.win 7).flush t = false := by decide +kernel
theorem r0_liveAt7 : ∀ t : Fin cfg0.N, r0_condLast (grid0.coords t) → cfg0.idle 7 (grid0.coords t) = false := by decide +kernel

/-! ## The staging memrefs at a point -/
abbrev r0_ms0 (t : Fin cfg0.N) : Memref sig .tc .vmem S5000x128 .f32 := win0_0.stage (cfg0.slots t 0)
abbrev r0_hs0 (t : Fin cfg0.N) : (r0_ms0 t).IsWhole := hstage0_0 ((cfg0.slots t 0).cast nbuf0_0)
abbrev r0_ms1 (t : Fin cfg0.N) : Memref sig .tc .vmem S5000x128 .f32 := win0_1.stage (cfg0.slots t 1)
abbrev r0_hs1 (t : Fin cfg0.N) : (r0_ms1 t).IsWhole := hstage0_1 ((cfg0.slots t 1).cast nbuf0_1)
abbrev r0_ms2 (t : Fin cfg0.N) : Memref sig .tc .vmem S128x128 .f32 := win0_2.stage (cfg0.slots t 2)
abbrev r0_hs2 (t : Fin cfg0.N) : (r0_ms2 t).IsWhole := hstage0_2 ((cfg0.slots t 2).cast nbuf0_2)
abbrev r0_ms3 (t : Fin cfg0.N) : Memref sig .tc .vmem S1x128 .f32 := win0_3.stage (cfg0.slots t 3)
abbrev r0_hs3 (t : Fin cfg0.N) : (r0_ms3 t).IsWhole := hstage0_3 ((cfg0.slots t 3).cast nbuf0_3)
abbrev r0_ms4 (t : Fin cfg0.N) : Memref sig .tc .vmem S128x128 .f32 := win0_4.stage (cfg0.slots t 4)
abbrev r0_hs4 (t : Fin cfg0.N) : (r0_ms4 t).IsWhole := hstage0_4 ((cfg0.slots t 4).cast nbuf0_4)
abbrev r0_ms5 (t : Fin cfg0.N) : Memref sig .tc .vmem S5000x128 .f32 := win0_5.stage (cfg0.slots t 5)
abbrev r0_hs5 (t : Fin cfg0.N) : (r0_ms5 t).IsWhole := hstage0_5 ((cfg0.slots t 5).cast nbuf0_5)
abbrev r0_ms6 (t : Fin cfg0.N) : Memref sig .tc .vmem S1x128 .f32 := win0_6.stage (cfg0.slots t 6)
abbrev r0_hs6 (t : Fin cfg0.N) : (r0_ms6 t).IsWhole := hstage0_6 ((cfg0.slots t 6).cast nbuf0_6)
abbrev r0_ms7 (t : Fin cfg0.N) : Memref sig .tc .vmem S1x128 .f32 := win0_7.stage (cfg0.slots t 7)
abbrev r0_hs7 (t : Fin cfg0.N) : (r0_ms7 t).IsWhole := hstage0_7 ((cfg0.slots t 7).cast nbuf0_7)

/-! ## What the body finds in the input windows: their blocks, fetched at the point or not -/
theorem r0_before0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem r0_before1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem r0_before2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem r0_before3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem r0_before4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)

/-! ## The accumulators at a point, from the point before -/

theorem r0_accS_first (c : Dev nD) (t : Fin cfg0.N) (h : t.val = 0) :
    accS V c t.val t.isLt = sStep (iblk0 V c 0 t) (iblk0 V c 1 t) (iblk0 V c 2 t) (iblk0 V c 3 t) (iblk0 V c 4 t) (k0_pay2 (F := F)) := by
  obtain ⟨n, hn⟩ := t
  cases n with
  | zero => rfl
  | succ n => exact absurd h (Nat.succ_ne_zero _)

theorem r0_accQ_first (c : Dev nD) (t : Fin cfg0.N) (h : t.val = 0) :
    accQ V c t.val t.isLt = qStep (iblk0 V c 0 t) (iblk0 V c 1 t) (iblk0 V c 2 t) (iblk0 V c 3 t) (iblk0 V c 4 t) (k0_pay3 (F := F)) := by
  obtain ⟨n, hn⟩ := t
  cases n with
  | zero => rfl
  | succ n => exact absurd h (Nat.succ_ne_zero _)

theorem r0_accS_pos (c : Dev nD) (t : Fin cfg0.N) (h : t.val ≠ 0) :
    accS V c t.val t.isLt = sStep (iblk0 V c 0 t) (iblk0 V c 1 t) (iblk0 V c 2 t) (iblk0 V c 3 t) (iblk0 V c 4 t) (accS V c (t.val - 1) (Nat.lt_of_le_of_lt (Nat.sub_le _ _) t.isLt)) := by
  obtain ⟨n, hn⟩ := t
  cases n with
  | zero => exact absurd rfl h
  | succ n => rfl

theorem r0_accQ_pos (c : Dev nD) (t : Fin cfg0.N) (h : t.val ≠ 0) :
    accQ V c t.val t.isLt = qStep (iblk0 V c 0 t) (iblk0 V c 1 t) (iblk0 V c 2 t) (iblk0 V c 3 t) (iblk0 V c 4 t) (accQ V c (t.val - 1) (Nat.lt_of_le_of_lt (Nat.sub_le _ _) t.isLt)) := by
  obtain ⟨n, hn⟩ := t
  cases n with
  | zero => exact absurd rfl h
  | succ n => rfl

/-! ## The invariant before the first point, opened at the two accumulators -/

theorem r0_PhiA_eq (c : Dev nD) :
    (Pipeline.ΦA spec0 c : sProp 𝕄)
      = iprop((((∃ d, owns (c : Thread nD τ) scM0_0 fullShare d) ∗ (∃ d, owns (c : Thread nD τ) scM0_1 fullShare d)) ∗ restBut0 c) ∗ (∃ r, prngReg c r)) := by
  unfold Pipeline.ΦA
  rw [Pipeline.scopedRest_split_of_list spec0 c [cc0_scratch0, cc0_scratch1] (by decide) (by decide)]
  simp only [scM0_0, scM0_1, owns_whole]
  rfl

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (r0_ms0 t) fullShare ((dat0 V c).before 0 t d))
    ∗ (∃ d, owns (c : Thread nD τ) (r0_ms1 t) fullShare ((dat0 V c).before 1 t d))
    ∗ (∃ d, owns (c : Thread nD τ) (r0_ms2 t) fullShare ((dat0 V c).before 2 t d))
    ∗ (∃ d, owns (c : Thread nD τ) (r0_ms3 t) fullShare ((dat0 V c).before 3 t d))
    ∗ (∃ d, owns (c : Thread nD τ) (r0_ms4 t) fullShare ((dat0 V c).before 4 t d))
    ∗ (∃ d, owns (c : Thread nD τ) (r0_ms5 t) fullShare ((dat0 V c).before 5 t d))
    ∗ (∃ d, owns (c : Thread nD τ) (r0_ms6 t) fullShare ((dat0 V c).before 6 t d))
    ∗ (∃ d, owns (c : Thread nD τ) (r0_ms7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4800000 in
/-- The body at any point. The inputs' memrefs hold their blocks; the point is the first, a middle one or the last
    (the closed forms of the two conditions), and that case's run applies: the invariant hands the body the two
    accumulators at what the point before left (at anything before the first point) and takes them back at this
    point's values; the two accumulator outputs are handed back untouched except at the last point, where they
    receive the accumulators. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [r0_before0, r0_before1, r0_before2, r0_before3, r0_before4]
  rw [show (dat0 V c).owesAt () t.succ = (dat0 V c).owesAt () t.castSucc from rfl]
  rw [show (dat0 V c).Φ t.succ = PhiS V c (t.val + 1) t.isLt from rfl, PhiS_succ]
  have hN : t.val < 20 := lt_of_lt_of_eq t.isLt (show cfg0.N = 20 from N_0)
  rw [show (dat0 V c).leavesExact 0 t = owns (c : Thread nD τ) (r0_ms0 t) fullShare ((dat0 V c).after 0 t) from by
    unfold Dat.leavesExact; rw [r0_liveAt0 t], after0_0]
  rw [show (dat0 V c).leavesExact 1 t = owns (c : Thread nD τ) (r0_ms1 t) fullShare ((dat0 V c).after 1 t) from by
    unfold Dat.leavesExact; rw [r0_liveAt1 t], after0_1]
  rw [show (dat0 V c).leavesExact 2 t = owns (c : Thread nD τ) (r0_ms2 t) fullShare ((dat0 V c).after 2 t) from by
    unfold Dat.leavesExact; rw [r0_liveAt2 t], after0_2]
  rw [show (dat0 V c).leavesExact 3 t = owns (c : Thread nD τ) (r0_ms3 t) fullShare ((dat0 V c).after 3 t) from by
    unfold Dat.leavesExact; rw [r0_liveAt3 t], after0_3]
  rw [show (dat0 V c).leavesExact 4 t = owns (c : Thread nD τ) (r0_ms4 t) fullShare ((dat0 V c).after 4 t) from by
    unfold Dat.leavesExact; rw [r0_liveAt4 t], after0_4]
  rw [show (dat0 V c).leavesExact 5 t = owns (c : Thread nD τ) (r0_ms5 t) fullShare ((dat0 V c).after 5 t) from by
    unfold Dat.leavesExact; rw [r0_liveAt5 t], after0_5]
  unfold hblk
  by_cases h0 : t.val = 0
  · have h1 : ¬t.val = 19 := by omega
    have hF : r0_condFirst (grid0.coords t) := (r0_hcondFirst t).mpr h0
    have hL : ¬r0_condLast (grid0.coords t) := fun h => h1 ((r0_hcondLast t).mp h)
    rw [Dat.leavesExact_idle (dat0 V c) 6 t (r0_idleAt6 t hL) (r0_noFlush6 t hL)]
    rw [Dat.leavesExact_idle (dat0 V c) 7 t (r0_idleAt7 t hL) (r0_noFlush7 t hL)]
    rw [r0_accS_first V c t h0, r0_accQ_first V c t h0]
    rw [PhiS_castSucc V c t, PhiS_zero V c _ _ h0, r0_PhiA_eq]
    iintro ⟨⟨⟨⟨HS, HQ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (r0_run_first c (grid0.coords t) (r0_ms0 t) (r0_hs0 t) (r0_ms1 t) (r0_hs1 t) (r0_ms2 t) (r0_hs2 t) (r0_ms3 t) (r0_hs3 t) (r0_ms4 t) (r0_hs4 t) (r0_ms5 t) (r0_hs5 t) (r0_ms6 t) (r0_hs6 t) (r0_ms7 t) (r0_hs7 t) scM0_0 (Memref.isWhole_whole _) scM0_1 (Memref.isWhole_whole _) hF hL
      (iblk0 V c 0 t) (iblk0 V c 1 t) (iblk0 V c 2 t) (iblk0 V c 3 t) (iblk0 V c 4 t) ((dat0 V c).before 6 t d6) ((dat0 V c).before 7 t d7) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS]; · iexact HS
    isplitl [HQ]; · iexact HQ
    iintro ⟨H0, H1, H2, H3, H4, H5, H6, H7, HS, HQ⟩
    isplitl [HS HQ HR Hg]
    · isplitl [HS]; · iexact HS
      isplitl [HQ]; · iexact HQ
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  · have hF : ¬r0_condFirst (grid0.coords t) := fun h => h0 ((r0_hcondFirst t).mp h)
    rw [r0_accS_pos V c t h0, r0_accQ_pos V c t h0]
    rw [PhiS_castSucc V c t, PhiS_pos V c _ _ h0]
    by_cases h1 : t.val = 19
    · have hL : r0_condLast (grid0.coords t) := (r0_hcondLast t).mpr h1
      rw [show (dat0 V c).leavesExact 6 t = owns (c : Thread nD τ) (r0_ms6 t) fullShare ((dat0 V c).after 6 t) from by
        unfold Dat.leavesExact; rw [r0_liveAt6 t hL], after0_6]
      rw [show (dat0 V c).leavesExact 7 t = owns (c : Thread nD τ) (r0_ms7 t) fullShare ((dat0 V c).after 7 t) from by
        unfold Dat.leavesExact; rw [r0_liveAt7 t hL], after0_7]
      rw [r0_accS_pos V c t h0, r0_accQ_pos V c t h0]
      iintro ⟨⟨HS, HQ, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (r0_run_last c (grid0.coords t) (r0_ms0 t) (r0_hs0 t) (r0_ms1 t) (r0_hs1 t) (r0_ms2 t) (r0_hs2 t) (r0_ms3 t) (r0_hs3 t) (r0_ms4 t) (r0_hs4 t) (r0_ms5 t) (r0_hs5 t) (r0_ms6 t) (r0_hs6 t) (r0_ms7 t) (r0_hs7 t) scM0_0 (Memref.isWhole_whole _) scM0_1 (Memref.isWhole_whole _) hF hL
        (iblk0 V c 0 t) (iblk0 V c 1 t) (iblk0 V c 2 t) (iblk0 V c 3 t) (iblk0 V c 4 t) (accS V c (t.val - 1) (Nat.lt_of_le_of_lt (Nat.sub_le _ _) t.isLt)) (accQ V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS]; · iexact HS
      isplitl [HQ]; · iexact HQ
      iintro ⟨H0, H1, H2, H3, H4, H5, H6, H7, HS, HQ⟩
      isplitl [HS HQ HR Hg]
      · isplitl [HS]; · iexact HS
        isplitl [HQ]; · iexact HQ
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hL : ¬r0_condLast (grid0.coords t) := fun h => h1 ((r0_hcondLast t).mp h)
      rw [Dat.leavesExact_idle (dat0 V c) 6 t (r0_idleAt6 t hL) (r0_noFlush6 t hL)]
      rw [Dat.leavesExact_idle (dat0 V c) 7 t (r0_idleAt7 t hL) (r0_noFlush7 t hL)]
      iintro ⟨⟨HS, HQ, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (r0_run_mid c (grid0.coords t) (r0_ms0 t) (r0_hs0 t) (r0_ms1 t) (r0_hs1 t) (r0_ms2 t) (r0_hs2 t) (r0_ms3 t) (r0_hs3 t) (r0_ms4 t) (r0_hs4 t) (r0_ms5 t) (r0_hs5 t) (r0_ms6 t) (r0_hs6 t) (r0_ms7 t) (r0_hs7 t) scM0_0 (Memref.isWhole_whole _) scM0_1 (Memref.isWhole_whole _) hF hL
        (iblk0 V c 0 t) (iblk0 V c 1 t) (iblk0 V c 2 t) (iblk0 V c 3 t) (iblk0 V c 4 t) ((dat0 V c).before 6 t d6) ((dat0 V c).before 7 t d7) (accS V c (t.val - 1) (Nat.lt_of_le_of_lt (Nat.sub_le _ _) t.isLt)) (accQ V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS]; · iexact HS
      isplitl [HQ]; · iexact HQ
      iintro ⟨H0, H1, H2, H3, H4, H5, H6, H7, HS, HQ⟩
      isplitl [HS HQ HR Hg]
      · isplitl [HS]; · iexact HS
        isplitl [HQ]; · iexact HQ
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The body obligation of the first pipeline, at every point. -/
theorem body_obligation0 (c : Dev nD) : BodyObligation (dat0 (F := F) V c) (defs₀ (F := F)) Variants.none () Set.univ := fun t => by
  rw [bigSep_W0, bigSep_W0]
  exact sound_body0 V c t

/-- What the launch hands the region (every scratch buffer at anything) is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives that back: the accumulators' contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 20 := N_0; omega
  rw [show (dat0 V c).Φ (Fin.last cfg0.N) = PhiS V c (Fin.last cfg0.N).val (Nat.le_of_lt_succ (Fin.last cfg0.N).isLt) from rfl,
    PhiS_pos V c _ _ hne, r0_PhiA_eq]
  iintro ⟨HS, HQ, HR, Hg⟩
  isplitr [Hg]
  · isplitr [HR]
    · isplitl [HS]
      · iexists _; iexact HS
      iexists _; iexact HQ
    iexact HR
  iexact Hg

end Cert.KernelIdeal.Hand

end
-- ==== Proof.KIR1Body.lean ====
/-
  The second pallas_call's body meets its obligation at every grid point.
-/
import proofs.«111244_j21663815041135_1_alg».proof.Proof.KIR1Defs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in the six input buffers

Each input window is uncut and never idle, and the body leaves its block in place. At a point where the window is
fetched the buffer holds the block just fetched; at a point where it is not (the four row vectors after the first
point) the block index has not moved since the previous point, so by induction the buffer still holds the same block.
Either way the buffer holds the block of the array at that point. -/

theorem before1_0 (c : Dev nD) (t : Fin cfg1.N) (d) : (dat1 V c).before 0 t d = iblk1 V c 0 t := by
  have hblk : ∀ s, (dat1 V c).blockOf 0 s = iblk1 V c 0 s := fun s => by
    unfold Dat.blockOf iblk1; rw [A_eq1]
  have hkeep : ∀ s, (cfg1.win 0).cut (cfg1.grid.coords s) ((dat1 V c).after 0 s) = (dat1 V c).blockOf 0 s :=
    fun s => by rw [hblk, after1_0]
  rw [(dat1 V c).before_in_eq_fetched 0 rfl (fun _ => rfl) (fun _ _ _ => rfl) hkeep t d]
  exact hblk t

theorem before1_1 (c : Dev nD) (t : Fin cfg1.N) (d) : (dat1 V c).before 1 t d = iblk1 V c 1 t := by
  have hblk : ∀ s, (dat1 V c).blockOf 1 s = iblk1 V c 1 s := fun s => by
    unfold Dat.blockOf iblk1; rw [A_eq1]
  have hkeep : ∀ s, (cfg1.win 1).cut (cfg1.grid.coords s) ((dat1 V c).after 1 s) = (dat1 V c).blockOf 1 s :=
    fun s => by rw [hblk, after1_1]
  rw [(dat1 V c).before_in_eq_fetched 1 rfl (fun _ => rfl) (fun _ _ _ => rfl) hkeep t d]
  exact hblk t

theorem before1_2 (c : Dev nD) (t : Fin cfg1.N) (d) : (dat1 V c).before 2 t d = iblk1 V c 2 t := by
  have hblk : ∀ s, (dat1 V c).blockOf 2 s = iblk1 V c 2 s := fun s => by
    unfold Dat.blockOf iblk1; rw [A_eq1]
  have hkeep : ∀ s, (cfg1.win 2).cut (cfg1.grid.coords s) ((dat1 V c).after 2 s) = (dat1 V c).blockOf 2 s :=
    fun s => by rw [hblk, after1_2]
  rw [(dat1 V c).before_in_eq_fetched 2 rfl (fun _ => rfl) (fun _ _ _ => rfl) hkeep t d]
  exact hblk t

theorem before1_3 (c : Dev nD) (t : Fin cfg1.N) (d) : (dat1 V c).before 3 t d = iblk1 V c 3 t := by
  have hblk : ∀ s, (dat1 V c).blockOf 3 s = iblk1 V c 3 s := fun s => by
    unfold Dat.blockOf iblk1; rw [A_eq1]
  have hkeep : ∀ s, (cfg1.win 3).cut (cfg1.grid.coords s) ((dat1 V c).after 3 s) = (dat1 V c).blockOf 3 s :=
    fun s => by rw [hblk, after1_3]
  rw [(dat1 V c).before_in_eq_fetched 3 rfl (fun _ => rfl) (fun _ _ _ => rfl) hkeep t d]
  exact hblk t

theorem before1_4 (c : Dev nD) (t : Fin cfg1.N) (d) : (dat1 V c).before 4 t d = iblk1 V c 4 t := by
  have hblk : ∀ s, (dat1 V c).blockOf 4 s = iblk1 V c 4 s := fun s => by
    unfold Dat.blockOf iblk1; rw [A_eq1]
  have hkeep : ∀ s, (cfg1.win 4).cut (cfg1.grid.coords s) ((dat1 V c).after 4 s) = (dat1 V c).blockOf 4 s :=
    fun s => by rw [hblk, after1_4]
  rw [(dat1 V c).before_in_eq_fetched 4 rfl (fun _ => rfl) (fun _ _ _ => rfl) hkeep t d]
  exact hblk t

theorem before1_5 (c : Dev nD) (t : Fin cfg1.N) (d) : (dat1 V c).before 5 t d = iblk1 V c 5 t := by
  have hblk : ∀ s, (dat1 V c).blockOf 5 s = iblk1 V c 5 s := fun s => by
    unfold Dat.blockOf iblk1; rw [A_eq1]
  have hkeep : ∀ s, (cfg1.win 5).cut (cfg1.grid.coords s) ((dat1 V c).after 5 s) = (dat1 V c).blockOf 5 s :=
    fun s => by rw [hblk, after1_5]
  rw [(dat1 V c).before_in_eq_fetched 5 rfl (fun _ => rfl) (fun _ _ _ => rfl) hkeep t d]
  exact hblk t

/-! ## The body's triple -/

/-- The offsets of every access of the body are zero. -/
theorem off_zero : (![0, 0] : Fin 2 → Nat) = fun _ => 0 := by
  funext a; fin_cases a <;> rfl

/-- A load through the whole-shape rectangle at offset zero reads the view's contents. -/
theorem readAt_unit_zero {κ : Kind} {sp : Space} {S : Shape} {e : EltTy} (v : View sig κ sp S e) {off : Fin S.rank → Nat}
    (h : off = fun _ => 0) (inb : ∀ a, off a + S.size a ≤ S.size a) (f : v.ty.Contents (Elt F)) :
    v.readAt (Elt F) (Rect.unit off S.size inb).toLoadRect f = v.read (Elt F) f :=
  View.ld_unit_zero h inb _

set_option maxHeartbeats 1000000 in
/-- The body on whole staging memrefs: the six inputs' at contents x0 … x5 (window order) and the output's at anything.
    It loads each input through the whole-buffer rectangle at offset zero, which reads the contents themselves; it
    then stores once, through the whole-buffer rectangle of the output, the payload of those six values. One store
    through the whole rectangle covers every index, so whatever the buffer held before, it now reads as that payload:
    the block oOf x0 … x5. The inputs' buffers are only read, so they are handed back as they were. -/
theorem sound_kernel1 (c : Dev nD) (E : Set ℕ) (i : grid1.Coords)
    (a1 : Memref sig .tc .vmem S5000x128 .f32) (h1 : a1.IsWhole) (a2 : Memref sig .tc .vmem S5000x128 .f32) (h2 : a2.IsWhole)
    (a3 : Memref sig .tc .vmem S1x128 .f32) (h3 : a3.IsWhole) (a4 : Memref sig .tc .vmem S1x128 .f32) (h4 : a4.IsWhole)
    (a5 : Memref sig .tc .vmem S1x128 .f32) (h5 : a5.IsWhole) (a6 : Memref sig .tc .vmem S1x128 .f32) (h6 : a6.IsWhole)
    (a7 : Memref sig .tc .vmem S5000x128 .f32) (h7 : a7.IsWhole)
    (x0 x1 : Vec F S5000x128 .f32) (x2 x3 x4 x5 : Vec F S1x128 .f32) (K : PUnit → sProp 𝕄) :
    iprop(owns (c : Thread nD τ) a1 fullShare x0 ∗ owns (c : Thread nD τ) a2 fullShare x1
        ∗ owns (c : Thread nD τ) a3 fullShare x2 ∗ owns (c : Thread nD τ) a4 fullShare x3
        ∗ owns (c : Thread nD τ) a5 fullShare x4 ∗ owns (c : Thread nD τ) a6 fullShare x5
        ∗ (∃ d, owns (c : Thread nD τ) a7 fullShare d)
        ∗ (iprop(owns (c : Thread nD τ) a1 fullShare x0 ∗ owns (c : Thread nD τ) a2 fullShare x1
            ∗ owns (c : Thread nD τ) a3 fullShare x2 ∗ owns (c : Thread nD τ) a4 fullShare x3
            ∗ owns (c : Thread nD τ) a5 fullShare x4 ∗ owns (c : Thread nD τ) a6 fullShare x5
            ∗ owns (c : Thread nD τ) a7 fullShare (oOf x0 x1 x2 x3 x4 x5)) -∗ K ⟨⟩))
      ⊢ wp frame (wpE (defs₀ (F := F)) Variants.none c none) E (cc1__bn_kernel i a1 h1 a2 h2 a3 h3 a4 h4 a5 h5 a6 h6 a7 h7) K := by
  simp only [cc1__bn_kernel_eq_skeleton]; unfold cc1__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  rw [View.read_writes_eq_canon _ _ _
      (fun y => ⟨_, List.mem_singleton_self _, View.mem_set_unit_zero off_zero inb_S5000x128_S5000x128_0_0 y⟩),
    View.canon_unit_zero off_zero]
  rw [readAt_unit_zero (S := S5000x128) a1.view off_zero, readAt_unit_zero (S := S5000x128) a2.view off_zero,
    readAt_unit_zero (S := S1x128) a3.view off_zero, readAt_unit_zero (S := S1x128) a4.view off_zero,
    readAt_unit_zero (S := S1x128) a5.view off_zero, readAt_unit_zero (S := S1x128) a6.view off_zero]
  rfl

/-! ## The body obligation, at a generic point -/

/-- What the body is called with at point t: the invariant, what the core owes, and each window's current staging
    buffer at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- What it returns: the same invariant and debt, and each buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point. The six inputs' buffers hold their blocks, so the triple above applies with those blocks for
    x0 … x5; the output's buffer may hold anything. The invariant and the debt are the same at every point and the body
    touches neither: they pass through. What comes back is each input's buffer at its block and the output's at
    oOf of the six blocks, which is the block the proof data name. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold oblk
  iexact H6

/-- The body obligation of the second pipeline, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIFrame.lean ====
/-
  Each pallas_call gets its record over the contents between stretches: its arrays are split out of the buffers at entry
  and put back at exit, the first call's accumulators enter and leave its invariant. Then the run: every weakly fair
  execution terminates, the result buffer holds what the second call's write-backs leave, and every argument holds what
  it held at launch.
-/
import proofs.«111244_j21663815041135_1_alg».proof.Proof.KIChain
import proofs.«111244_j21663815041135_1_alg».proof.Proof.KIR0Body
import proofs.«111244_j21663815041135_1_alg».proof.Proof.KIR1Body

set_option maxRecDepth 16384

noncomputable section

/-! ## The two pallas_calls over those contents -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After the first call each of its arrays holds what its write-backs leave: an input what it held, a result the fold
    of its write-backs. -/
theorem hF0 (c : Dev nD) (w : Fin cfg0.W) :
    (dat0 (Ve1 m) c).arrAt w cfg0.N = (fun b : Ref sig .tc => Gen.V2 m (outs m) c b) (Pipeline.arrRef spec0 w) := by
  have n01 : (Proc.devRef .tc main_v26_0 : DevRef τ sig) ≠ Proc.devRef .tc main_v26_1 := StableHlo.devRef_ne_of_ne (by decide)
  have n02 : (Proc.devRef .tc main_v26_0 : DevRef τ sig) ≠ Proc.devRef .tc main_v26_2 := StableHlo.devRef_ne_of_ne (by decide)
  have n12 : (Proc.devRef .tc main_v26_1 : DevRef τ sig) ≠ Proc.devRef .tc main_v26_2 := StableHlo.devRef_ne_of_ne (by decide)
  match w with
  | ⟨0, _⟩ => exact ((dat0 (Ve1 m) c).arrAt_in 0 rfl _).trans ((A_eq0 (Ve1 m) c 0).trans (Gen.V2_of m (outs m) c main_v22 (by decide)).symm)
  | ⟨1, _⟩ => exact ((dat0 (Ve1 m) c).arrAt_in 1 rfl _).trans ((A_eq0 (Ve1 m) c 1).trans (Gen.V2_of m (outs m) c main_arg0 (by decide)).symm)
  | ⟨2, _⟩ => exact ((dat0 (Ve1 m) c).arrAt_in 2 rfl _).trans ((A_eq0 (Ve1 m) c 2).trans (Gen.V2_of m (outs m) c main_arg2 (by decide)).symm)
  | ⟨3, _⟩ => exact ((dat0 (Ve1 m) c).arrAt_in 3 rfl _).trans ((A_eq0 (Ve1 m) c 3).trans (Gen.V2_of m (outs m) c main_v23 (by decide)).symm)
  | ⟨4, _⟩ => exact ((dat0 (Ve1 m) c).arrAt_in 4 rfl _).trans ((A_eq0 (Ve1 m) c 4).trans (Gen.V2_of m (outs m) c main_arg4 (by decide)).symm)
  | ⟨5, _⟩ =>
    show _ = Function.update (Function.update (Function.update (Gen.V1 m c) main_v26_0 (outs m 2 main_v26_0 c)) main_v26_1 (outs m 2 main_v26_1 c)) main_v26_2 (outs m 2 main_v26_2 c) main_v26_0
    rw [Function.update_of_ne n02, Function.update_of_ne n01, Function.update_self]
    exact (W2_arr m c 5).symm
  | ⟨6, _⟩ =>
    show _ = Function.update (Function.update (Function.update (Gen.V1 m c) main_v26_0 (outs m 2 main_v26_0 c)) main_v26_1 (outs m 2 main_v26_1 c)) main_v26_2 (outs m 2 main_v26_2 c) main_v26_1
    rw [Function.update_of_ne n12, Function.update_self]
    exact (W2_arr m c 6).symm
  | ⟨7, _⟩ =>
    show _ = Function.update (Function.update (Function.update (Gen.V1 m c) main_v26_0 (outs m 2 main_v26_0 c)) main_v26_1 (outs m 2 main_v26_1 c)) main_v26_2 (outs m 2 main_v26_2 c) main_v26_2
    rw [Function.update_self]
    exact (W2_arr m c 7).symm

/-- Every buffer that is no array of the first call holds after it what it held before. -/
theorem hrest0 (c : Dev nD) : ∀ b, b ∉ Finset.univ.image (Pipeline.arrRef spec0) →
    (fun b : Ref sig .tc => Gen.V2 m (outs m) c b) b = (Ve1 m c) b := fun b hb =>
  Gen.V2_of m (outs m) c b fun hmem => by
    simp only [List.mem_cons, List.mem_nil_iff, or_false] at hmem
    rcases hmem with rfl | rfl | rfl
    · exact hb (Finset.mem_image.mpr ⟨5, Finset.mem_univ _, rfl⟩)
    · exact hb (Finset.mem_image.mpr ⟨6, Finset.mem_univ _, rfl⟩)
    · exact hb (Finset.mem_image.mpr ⟨7, Finset.mem_univ _, rfl⟩)

/-- After the second call each of its arrays holds what its write-backs leave. -/
theorem hF1 (c : Dev nD) (w : Fin cfg1.W) :
    (dat1 (Ve3 m) c).arrAt w cfg1.N = (fun b : Ref sig .tc => Gen.V4 m (outs m) c b) (Pipeline.arrRef spec1 w) := by
  match w with
  | ⟨0, _⟩ => exact ((dat1 (Ve3 m) c).arrAt_in 0 rfl _).trans ((A_eq1 (Ve3 m) c 0).trans (Gen.V4_of m (outs m) c main_v26_0 (by decide)).symm)
  | ⟨1, _⟩ => exact ((dat1 (Ve3 m) c).arrAt_in 1 rfl _).trans ((A_eq1 (Ve3 m) c 1).trans (Gen.V4_of m (outs m) c main_arg0 (by decide)).symm)
  | ⟨2, _⟩ => exact ((dat1 (Ve3 m) c).arrAt_in 2 rfl _).trans ((A_eq1 (Ve3 m) c 2).trans (Gen.V4_of m (outs m) c main_v28 (by decide)).symm)
  | ⟨3, _⟩ => exact ((dat1 (Ve3 m) c).arrAt_in 3 rfl _).trans ((A_eq1 (Ve3 m) c 3).trans (Gen.V4_of m (outs m) c main_v34 (by decide)).symm)
  | ⟨4, _⟩ => exact ((dat1 (Ve3 m) c).arrAt_in 4 rfl _).trans ((A_eq1 (Ve3 m) c 4).trans (Gen.V4_of m (outs m) c main_v24 (by decide)).symm)
  | ⟨5, _⟩ => exact ((dat1 (Ve3 m) c).arrAt_in 5 rfl _).trans ((A_eq1 (Ve3 m) c 5).trans (Gen.V4_of m (outs m) c main_v25 (by decide)).symm)
  | ⟨6, _⟩ =>
    show _ = Function.update (Gen.V3 m (outs m) c) main_v35 (outs m 4 main_v35 c) main_v35
    rw [Function.update_self]
    exact (W4_arr m c 6).symm

/-- Every buffer that is no array of the second call holds after it what it held before. -/
theorem hrest1 (c : Dev nD) : ∀ b, b ∉ Finset.univ.image (Pipeline.arrRef spec1) →
    (fun b : Ref sig .tc => Gen.V4 m (outs m) c b) b = (Ve3 m c) b := fun b hb =>
  Gen.V4_of m (outs m) c b fun hmem => by
    simp only [List.mem_cons, List.mem_nil_iff, or_false] at hmem
    rcases hmem with rfl
    exact hb (Finset.mem_image.mpr ⟨6, Finset.mem_univ _, rfl⟩)

end Cert.KernelIdeal.Hand

/-! ## The regions as segments, and the run -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The first pallas_call over the thread state: entered with every unscoped buffer as the first host stretch leaves
    it, left with its three result arrays at what its write-backs leave. Its arrays are split out of the buffers and
    put back; the generator register and the scoped buffers enter its invariant (where the two accumulators are
    tracked) and come back; nothing is owed; it has no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Ve1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Ve1 m) c)
    unfold Pipeline.ΦA
    iintro ⟨Hp, -, Hr⟩
    isplitl [Hr]; · iexact Hr
    iexact Hp
  hout c := by
    refine BIBase.Entails.trans (hout0 (Ve1 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve1 m c) (fun b : Ref sig .tc => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call over the thread state: entered with every unscoped buffer as the second host stretch
    leaves it, left with its result array at what its write-backs leave. Nothing is tracked between its points. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve3 m) c).loose
  hwaits := Pipeline.hwaits_of_owed_zero _ _ _ _ L lv 1 fun _ _ => rfl
  pre c := iprop(StableHlo.held (c : Thread nD τ) (Pipeline.ucRefs τ sig) (Gen.V3 m (outs m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Ve3 m c)
  hentry c := by
    rw [Pipeline.ownSems0_none, V3_outs m c]
    have hsplit := Pipeline.arrays_of_unscopedBufs (p := 1) (pcfgs (F := F)) adm (pdats m) launch1.win launch1.arr_whole c
      ((pdats m 1 c).share_full fun _ => rfl) (Ve3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve3 m c) (fun b : Ref sig .tc => Gen.V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

/-! ## The run -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What rides beside the buffers, made from what the launch deals each core. -/
theorem rides_init : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => (R c : sProp 𝕄)) : sProp 𝕄) :=
  Pipeline.initEach L lv fun c => by
    iintro ⟨⟨-, HO, -, Hp, -⟩, -⟩
    imodintro
    isplitl [Hp]; · iexists _; iexact Hp
    iexists ∅; iexact HO

set_option backward.isDefEq.respectTransparency.types false in
/-- THE RUN. From any memory with zero counters every weakly fair execution of the program terminates, nothing
    faulting; the result buffer ends at what the second call's write-backs leave and every argument as launched. -/
theorem run : θ_run defs (onTc (τ := τ) (main (F := F))) ⟨m, fun _ => 0, ρ⟩ (fun r => ∀ c : Dev nD,
      r.2.mem ((c.tc : Thread nD τ).loc main_v35) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) adm (pdats m) () cellOf_inj emb₁ defs₀ 𝒱₀ L lv m ρ main
    (Gen.segs m (outs m) 𝒱₀ L lv (fun _ c => R c) () (pdats m) (reg0 m) (reg1 m))
    (fun c Q => by
      rewrite [main_chain c, Seg.run_eq_chain,
        show (Gen.segs m (outs m) 𝒱₀ L lv (fun _ c => R c) () (pdats m) (reg0 m) (reg1 m) c).map Seg.prog = [
          StableHlo.seq hostOps0,
          Prog.lift (.customCall (Pipeline.entry 0) ()),
          StableHlo.seq hostOps1,
          Prog.lift (.customCall (Pipeline.entry 1) ()) ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V4 m (outs m) c))
    (hch := fun c => ⟨.rfl, .rfl, .rfl, .rfl, sep_mono .rfl (by iintro ⟨-, H⟩; iexact H)⟩)
    (hinit := ?_) (QY := fun c s => s.mem ((c.tc : Thread nD τ).loc main_v35) = result m c
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6))
    (hfin := fun c s' => ?_) (hQ := fun _ h => h)
  · -- the launch: the unscoped buffers are held at the launch contents; the rest makes what rides on every core
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)))
            : sProp 𝕄) := by
      rw [← bigSep_sep']
      exact bigSep_mono fun c _ => by rw [← Pipeline.unscopedBufs_held (Ix := Unit) (Name := ℕ) (U := UR sig nD τ) (Lvl := ℕ) c (Gen.V0 m c)]; exact BI.Entails.refl _
    iintro ⟨H, Hla⟩
    ihave H' := hsplit $$ H
    icases H' with ⟨Hh, Hr⟩
    imod (rides_init (F := F) ρ) $$ [Hr Hla] with HE
    · isplitl [Hr]; · iexact Hr
      iexact Hla
    imodintro
    rw [bigSep_sep' Finset.univ (fun c : Dev nD => StableHlo.held (c : Thread nD τ) (Pipeline.ucRefs τ sig) (Gen.V0 m c)) (fun c : Dev nD => (R c : sProp 𝕄))]
    isplitl [Hh]; · iexact Hh
    iexact HE
  · -- the end: the result buffer and each argument's buffer read off the last contents
    unfold StableHlo.held
    iintro ⟨Hh, HSI⟩
    ihave Hr := (pointsTo_read_all (Pipeline.ucRefs τ sig) (fun b => ((c : Thread nD τ).1, b)) (Gen.V4 m (outs m) c) s') $$ [Hh HSI]
    · isplitl [Hh] <;> iassumption
    icases Hr with ⟨%h, HSI⟩
    imodintro
    isplitr
    · ipureintro
      exact ⟨h (Proc.devRef .tc main_v35) (Finset.mem_filter.mpr ⟨StableHlo.devRef_mem_tcRefs main_v35, by decide⟩),
        (h (Proc.devRef .tc main_arg0) (Finset.mem_filter.mpr ⟨StableHlo.devRef_mem_tcRefs main_arg0, by decide⟩)).trans (Gen.V4_main_arg0 m (outs m) c),
        (h (Proc.devRef .tc main_arg1) (Finset.mem_filter.mpr ⟨StableHlo.devRef_mem_tcRefs main_arg1, by decide⟩)).trans (Gen.V4_main_arg1 m (outs m) c),
        (h (Proc.devRef .tc main_arg2) (Finset.mem_filter.mpr ⟨StableHlo.devRef_mem_tcRefs main_arg2, by decide⟩)).trans (Gen.V4_main_arg2 m (outs m) c),
        (h (Proc.devRef .tc main_arg3) (Finset.mem_filter.mpr ⟨StableHlo.devRef_mem_tcRefs main_arg3, by decide⟩)).trans (Gen.V4_main_arg3 m (outs m) c),
        (h (Proc.devRef .tc main_arg4) (Finset.mem_filter.mpr ⟨StableHlo.devRef_mem_tcRefs main_arg4, by decide⟩)).trans (Gen.V4_main_arg4 m (outs m) c),
        (h (Proc.devRef .tc main_arg5) (Finset.mem_filter.mpr ⟨StableHlo.devRef_mem_tcRefs main_arg5, by decide⟩)).trans (Gen.V4_main_arg5 m (outs m) c),
        (h (Proc.devRef .tc main_arg6) (Finset.mem_filter.mpr ⟨StableHlo.devRef_mem_tcRefs main_arg6, by decide⟩)).trans (Gen.V4_main_arg6 m (outs m) c)⟩
    · iexact HSI

end Cert.KernelIdeal.Hand

end
-- ==== Proof.Spec.lean ====
/-
  The layer as plain mathematics over the extended reals.

  Rows r < 100000, features j, k < 128. With m the neighbourhood mean of x,
    pre(r, j)  = ∑ₖ m(r,k)·W_l(k,j) + ∑ₖ x(r,k)·W_r(k,j) + b(j)        (the two programs add the three terms in two orders)
    h          = max(pre, 0)
    S(j) = ∑ᵣ h(r,j),  Q(j) = ∑ᵣ h(r,j)²,  μ(j) = S(j) / 100000
    one program's variance:   max(Q(j)/100000 − μ(j)², 0)
    the other's:              (∑ᵣ (h(r,j) − μ(j))²) / 100000
    out(r, j)  = x(r,j) + ((h(r,j) − μ(j)) · rsqrt(variance(j) + ε) · γ(j) + β(j)).
  Over the reals the two variances are one number (expand the square; the mean of the squared deviations is never
  negative, so the outer max changes nothing). On the extended reals that needs every h(r,j) to be a real number:
  with an infinite entry one side is 0 and the other +∞. So the law is proved for finite h, and h is finite when
  m, x, W_l, W_r and b are.
-/
import Idealize.ShloMosaic.PureOps.Ideal.Laws
import Idealize.ShloMosaic.Lib.ValueIdx

noncomputable section

namespace Cert.Spec

open Idealize.ShloMosaic

abbrev Mat := Fin 100000 → Fin 128 → EReal
abbrev Sq := Fin 128 → Fin 128 → EReal
abbrev Row := Fin 128 → EReal

/-- The number of rows, as an extended real. -/
def nn : EReal := ((100000 : ℝ) : EReal)

/-- The number of rows is not zero. -/
theorem nn_ne : (100000 : ℝ) ≠ 0 := by norm_num

/-- The single-precision word 0x47C35000 has sign 0, exponent field 143 and fraction field 4411392, so it denotes
    (2²³ + 4411392) · 2^(143 − 127 − 23) = 12800000 / 128 = 100000. -/
theorem ofBits_n : Ideal.ofBits .f32 0x47C35000#32 = nn := by
  simp [Ideal.ofBits, Ideal.ieee, nn, -EReal.coe_mul]; norm_num

/-- Every entry is a real number. -/
def FinMat (a : Mat) : Prop := ∀ r j, ∃ v : ℝ, a r j = (v : EReal)
def FinSq (a : Sq) : Prop := ∀ k j, ∃ v : ℝ, a k j = (v : EReal)
def FinRow (a : Row) : Prop := ∀ j, ∃ v : ℝ, a j = (v : EReal)

/-- The pre-activation, the bias added last. -/
def preK (m x : Mat) (wl wr : Sq) (b : Row) : Mat :=
  fun r j => ((∑ k, m r k * wl k j) + (∑ k, x r k * wr k j)) + b j
/-- The pre-activation, the bias added before the second product. -/
def preR (m x : Mat) (wl wr : Sq) (b : Row) : Mat :=
  fun r j => ((∑ k, m r k * wl k j) + b j) + (∑ k, x r k * wr k j)
def relu (p : Mat) : Mat := fun r j => max (p r j) 0

def colSum (h : Mat) : Row := fun j => ∑ r, h r j
def colSumSq (h : Mat) : Row := fun j => ∑ r, h r j * h r j
def mu (h : Mat) : Row := fun j => Ideal.div (colSum h j) nn
/-- The variance as mean of squares minus squared mean, clipped at zero. -/
def varK (h : Mat) : Row := fun j => max (Ideal.div (colSumSq h j) nn - mu h j * mu h j) 0
/-- The variance as mean of squared deviations. -/
def varR (h : Mat) : Row := fun j => Ideal.div (∑ r, (h r j - mu h j) * (h r j - mu h j)) nn
/-- The normalised output with residual. -/
def out (x h : Mat) (v γ β : Row) (ε : EReal) : Mat :=
  fun r j => x r j + (((h r j - mu h j) * Ideal.rsqrt (v j + ε)) * γ j + β j)

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A finite sum of reals is a real: it is the coercion of the sum of the witnesses. -/
theorem sum_finite' {ι : Type} (s : Finset ι) (f : ι → EReal) (hf : ∀ i ∈ s, ∃ v : ℝ, f i = (v : EReal)) :
    ∃ v : ℝ, (∑ i ∈ s, f i) = (v : EReal) := by
  choose! g hg using hf
  exact ⟨∑ i ∈ s, g i, by rw [coe_sum]; exact Finset.sum_congr rfl hg⟩

theorem mul_finite {a b : EReal} (ha : ∃ v : ℝ, a = (v : EReal)) (hb : ∃ v : ℝ, b = (v : EReal)) :
    ∃ v : ℝ, a * b = (v : EReal) := by
  obtain ⟨u, rfl⟩ := ha
  obtain ⟨w, rfl⟩ := hb
  exact ⟨u * w, (EReal.coe_mul u w).symm⟩

theorem add_finite {a b : EReal} (ha : ∃ v : ℝ, a = (v : EReal)) (hb : ∃ v : ℝ, b = (v : EReal)) :
    ∃ v : ℝ, a + b = (v : EReal) := by
  obtain ⟨u, rfl⟩ := ha
  obtain ⟨w, rfl⟩ := hb
  exact ⟨u + w, (EReal.coe_add u w).symm⟩

/-- Over the reals, with c the reciprocal of the number of rows: the mean of the squares less the squared mean is the
    mean of the squared deviations. Expanding (gᵣ − μ)² and summing gives Q − 2μS + nμ²; with μ = S·c and n·c = 1 that is
    Q − S²c. -/
theorem real_var (g : Fin 100000 → ℝ) (c : ℝ) (hc : c * 100000 = 1) :
    (∑ r, g r * g r) * c - (∑ r, g r) * c * ((∑ r, g r) * c)
      = (∑ r, (g r - (∑ r, g r) * c) * (g r - (∑ r, g r) * c)) * c := by
  have hexp : ∀ r, (g r - (∑ r, g r) * c) * (g r - (∑ r, g r) * c)
      = g r * g r - 2 * ((∑ r, g r) * c) * g r + ((∑ r, g r) * c) * ((∑ r, g r) * c) := fun r => by ring
  have hsum : (∑ r, (g r - (∑ r, g r) * c) * (g r - (∑ r, g r) * c))
      = (∑ r, g r * g r) - 2 * ((∑ r, g r) * c) * (∑ r, g r)
        + 100000 * (((∑ r, g r) * c) * ((∑ r, g r) * c)) := by
    simp only [hexp, Finset.sum_add_distrib, Finset.sum_sub_distrib, ← Finset.mul_sum, Finset.sum_const,
      Finset.card_univ, Fintype.card_fin, nsmul_eq_mul]
    push_cast
    ring
  rw [hsum]
  linear_combination (-((∑ r, g r) * (∑ r, g r) * c * c)) * hc

/-- Addition of extended reals is commutative and associative: the two orders of the three terms agree. -/
theorem preK_eq_preR (m x : Mat) (wl wr : Sq) (b : Row) : preK m x wl wr b = preR m x wl wr b := by
  funext r j
  simp only [preK, preR]
  exact add_right_comm _ _ _

/-- Finite operands give a finite pre-activation (finite sums and products of reals are reals). -/
theorem preK_finite (m x : Mat) (wl wr : Sq) (b : Row) (hm : FinMat m) (hx : FinMat x) (hl : FinSq wl) (hr : FinSq wr)
    (hb : FinRow b) : FinMat (preK m x wl wr b) := by
  intro r j
  have h1 : ∃ v : ℝ, (∑ k, m r k * wl k j) = (v : EReal) :=
    sum_finite' _ _ (fun k _ => mul_finite (hm r k) (hl k j))
  have h2 : ∃ v : ℝ, (∑ k, x r k * wr k j) = (v : EReal) :=
    sum_finite' _ _ (fun k _ => mul_finite (hx r k) (hr k j))
  exact add_finite (add_finite h1 h2) (hb j)

theorem relu_finite (p : Mat) (hp : FinMat p) : FinMat (relu p) := by
  intro r j
  obtain ⟨v, hv⟩ := hp r j
  refine ⟨max v 0, ?_⟩
  simp only [relu, hv]
  rcases le_total v 0 with h | h
  · rw [max_eq_right h, max_eq_right (by exact_mod_cast h), EReal.coe_zero]
  · rw [max_eq_left h, max_eq_left (by exact_mod_cast h)]

/-- THE LAW: for finite h the two variances are equal. -/
theorem varK_eq_varR (h : Mat) (hf : FinMat h) : varK h = varR h := by
  choose g hg using hf
  have hh : h = fun r j => ((g r j : ℝ) : EReal) := funext fun r => funext fun j => hg r j
  subst hh
  funext j
  have hn : (100000 : ℝ) ≠ 0 := by norm_num
  simp only [varK, varR, mu, colSum, colSumSq, nn, Ideal.div_coe hn, ← EReal.coe_mul, ← coe_sum, ← EReal.coe_sub]
  rw [real_var (fun r => g r j) (1 / 100000) (by norm_num)]
  refine max_eq_left (EReal.coe_nonneg.mpr ?_)
  exact mul_nonneg (Finset.sum_nonneg fun r _ => mul_self_nonneg _) (by norm_num)

/-- So for finite operands the two programs' outputs are equal. -/
theorem out_eq (m x : Mat) (wl wr : Sq) (b γ β : Row) (ε : EReal) (hm : FinMat m) (hx : FinMat x) (hl : FinSq wl)
    (hr : FinSq wr) (hb : FinRow b) :
    out x (relu (preK m x wl wr b)) (varK (relu (preK m x wl wr b))) γ β ε
      = out x (relu (preR m x wl wr b)) (varR (relu (preR m x wl wr b))) γ β ε := by
  rw [← preK_eq_preR m x wl wr b,
    varK_eq_varR _ (relu_finite _ (preK_finite m x wl wr b hm hx hl hr hb))]

/-- Row 5000·t + p of the 100000. -/
def rowOf (t : Fin 20) (p : Fin 5000) : Fin 100000 := ⟨5000 * t.val + p.val, by have := t.isLt; have := p.isLt; omega⟩

/-- A sum over all rows is the sum over the twenty blocks of the sums over each block's 5000 rows. -/
theorem sum_rows_blocks (f : Fin 100000 → EReal) : (∑ r, f r) = ∑ t : Fin 20, ∑ p : Fin 5000, f (rowOf t p) := by
  rw [← Fintype.sum_prod_type' (f := fun t p => f (rowOf t p))]
  symm
  refine Fintype.sum_equiv (finProdFinEquiv.trans (finCongr (by norm_num))) _ _ ?_
  rintro ⟨t, p⟩
  congr 1
  apply Fin.ext
  simp only [rowOf, Equiv.trans_apply, finProdFinEquiv_apply_val, finCongr_apply_coe]
  omega

/-- An accumulator that starts at 0 + g 0 and adds g (n+1) at each later step holds, after step n, the sum of g over
    the steps up to n. -/
theorem chain_eq_sum (g : ℕ → EReal) (acc : ℕ → EReal) (h0 : acc 0 = 0 + g 0) (hs : ∀ n, acc (n + 1) = acc n + g (n + 1))
    (n : ℕ) : acc n = ∑ i ∈ Finset.range (n + 1), g i := by
  induction n with
  | zero => rw [h0, zero_add, Finset.sum_range_one]
  | succ n ih => rw [hs, ih, Finset.sum_range_succ _ (n + 1)]

/-- A finite sum of reals is a real. -/
theorem sum_finite {ι : Type} (s : Finset ι) (f : ι → EReal) (hf : ∀ i ∈ s, ∃ v : ℝ, f i = (v : EReal)) :
    ∃ v : ℝ, (∑ i ∈ s, f i) = (v : EReal) := by
  classical
  induction s using Finset.induction_on with
  | empty => exact ⟨0, by rw [Finset.sum_empty, EReal.coe_zero]⟩
  | insert a s ha ih =>
    obtain ⟨va, hva⟩ := hf a (Finset.mem_insert_self a s)
    obtain ⟨vs, hvs⟩ := ih (fun i hi => hf i (Finset.mem_insert_of_mem hi))
    exact ⟨va + vs, by rw [Finset.sum_insert ha, hva, hvs, EReal.coe_add]⟩

/-- A real divided by an extended real that is at least one is a real (the divisor's inverse lies in [0, 1]). -/
theorem div_finite_of_one_le (a : EReal) (ha : ∃ v : ℝ, a = (v : EReal)) (d : EReal) (hd : 1 ≤ d) :
    ∃ v : ℝ, Ideal.div a d = (v : EReal) := by
  obtain ⟨v, rfl⟩ := ha
  have hd0 : d ≠ 0 := fun h0 => by
    rw [h0] at hd
    exact absurd hd (by norm_num)
  rw [Ideal.div, if_neg hd0]
  induction d using EReal.rec with
  | bot => exact absurd (le_bot_iff.mp hd) (by rw [← EReal.coe_one]; exact EReal.coe_ne_bot 1)
  | coe y => exact ⟨v * y⁻¹, by rw [EReal.coe_mul, EReal.coe_inv]⟩
  | top => exact ⟨0, by rw [EReal.inv_top, mul_zero, EReal.coe_zero]⟩

end Cert.Spec

end
-- ==== Proof.Conv.lean ====
/-
  Arrays as matrices: an array of shape [100000, 128] read as (row, feature) ↦ entry, a [128, 128] array as a square
  matrix, a [128] or [1, 128] array as a row; and the small constant ε the two programs add to the variance.
-/
import proofs.«111244_j21663815041135_1_alg».proof.Proof.Spec

noncomputable section

namespace Cert.Spec

open Idealize.ShloMosaic Idealize.ShloMosaic.ValueIdx

def toMat (a : (⟨2, ![100000, 128]⟩ : Shape).Idx → EReal) : Mat := fun r j => a (ix2 r j)
def toSq (a : (⟨2, ![128, 128]⟩ : Shape).Idx → EReal) : Sq := fun k j => a (ix2 k j)
def toRow1 (a : (⟨1, ![128]⟩ : Shape).Idx → EReal) : Row := fun j => a (ix1 j)
def toRow2 (a : (⟨2, ![1, 128]⟩ : Shape).Idx → EReal) : Row := fun j => a (ix2 0 j)

/-- The variance's ε: the single-precision value nearest 1e-5, the same word in both programs. -/
def eps : EReal := Ideal.ofBits .f32 0x3727C5AC#32

end Cert.Spec

end
-- ==== Proof.KIHost.lean ====
/-
  What the host operations around the two pallas_calls hold, at the ideal values. Before the first call: the
  neighbourhood mean (the same chain of operations as the reference's, kept as one function of x and the edge list),
  the bias as a [1, 128] row, and the untouched arguments. Between the calls: the column mean S/100000 and the variance
  max(Q/100000 − mean², 0) of the first call's two sums, gamma and beta as rows, and the first call's array of h.
-/
import proofs.«111244_j21663815041135_1_alg».proof.Proof.KIChain
import proofs.«111244_j21663815041135_1_alg».proof.Proof.Conv
import proofs.«111244_j21663815041135_1_alg».proof.Proof.Gen.ReferenceIdeal.Read
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## Buffers no operation writes -/

/-- The first call finds x, W_l and W_r as launched: no operation of the first stretch writes an argument. -/
theorem e1_x (c : Dev nD) : Spec.toMat (Ve1 m c main_arg0) = Spec.toMat (m ((c.tc : Thread nD τ).loc main_arg0)) :=
  congrArg Spec.toMat (Gen.V1_of m c main_arg0 (by decide))
theorem e1_wl (c : Dev nD) : Spec.toSq (Ve1 m c main_arg2) = Spec.toSq (m ((c.tc : Thread nD τ).loc main_arg2)) :=
  congrArg Spec.toSq (Gen.V1_of m c main_arg2 (by decide))
theorem e1_wr (c : Dev nD) : Spec.toSq (Ve1 m c main_arg4) = Spec.toSq (m ((c.tc : Thread nD τ).loc main_arg4)) :=
  congrArg Spec.toSq (Gen.V1_of m c main_arg4 (by decide))

/-! ## The neighbourhood mean

The first stretch computes it by the same operations, in the same order and on the same two arguments (x and the edge
list) as the reference program does: the two terms differ only in the names of their shape and dimension records, which
hold the same numbers. So nothing is read at an index here. -/

theorem V1_v22 (c : Dev nD) : (Ve1 m c main_v22 : S100000x128.Idx → EReal)
    = Cert.ReferenceIdeal.Read.val_main_v22 (F := Ideal) (m ((c.tc : Thread nD τ).loc main_arg0))
        (m ((c.tc : Thread nD τ).loc main_arg1)) := by
  show StableHlo.after hostOps0 (fun b => m (c, b)) (Proc.devRef .tc main_v22) = _
  after_results_simp
  rfl

/-- It finds the neighbourhood mean: the reference's own chain of operations on x and the edge list. -/
theorem e1_mean (c : Dev nD) :
    Spec.toMat (Ve1 m c main_v22)
      = Spec.toMat (Cert.ReferenceIdeal.Read.val_main_v22 (F := Ideal) (m ((c.tc : Thread nD τ).loc main_arg0)) (m ((c.tc : Thread nD τ).loc main_arg1))) :=
  congrArg Spec.toMat (V1_v22 m c)

/-- A buffer that neither host stretch writes and that is no result of the first call holds, when the second call
    begins, what the memory held at launch. -/
theorem Ve3_launch (c : Dev nD) (r : Ref sig .tc) (h1 : r ∉ hostOps1_W)
    (h2 : r ∉ ([main_v26_0, main_v26_1, main_v26_2] : List (Ref sig .tc))) (h0 : r ∉ hostOps0_W) :
    Ve3 m c r = m ((c.tc : Thread nD τ).loc r) :=
  (Gen.V3_of m (outs2 m) c r h1).trans ((Gen.V2_of m (outs2 m) c r h2).trans (Gen.V1_of m c r h0))

/-- A buffer the first stretch writes, that the second does not and that is no result of the first call, holds at
    the second call what it held at the first. -/
theorem Ve3_Ve1 (c : Dev nD) (r : Ref sig .tc) (h1 : r ∉ hostOps1_W)
    (h2 : r ∉ ([main_v26_0, main_v26_1, main_v26_2] : List (Ref sig .tc))) : Ve3 m c r = Ve1 m c r :=
  (Gen.V3_of m (outs2 m) c r h1).trans (Gen.V2_of m (outs2 m) c r h2)

/-! ## A [128] array recast as a [1, 128] row

Entry (0, j) of the recast row and entry j of the array sit at the same row-major position, 0·128 + j = j. -/

theorem row_of_cast (a : S128.Idx → EReal) (j : Fin 128) :
    Spec.toRow2 (shapeCast S1x128 a shapeCasts_S128_S1x128) j = Spec.toRow1 a j := by
  show shapeCast S1x128 a shapeCasts_S128_S1x128 (ix2 0 j) = a (ix1 j)
  refine shapeCast_apply a shapeCasts_S128_S1x128 (ix2 0 j) (ix1 j) ?_
  rw [Shape.rowMajor_val_one, Shape.rowMajor_val_two]
  show j.val = 0 * 128 + j.val
  omega

/-- What the first stretch leaves in the three recast buffers. -/
theorem V1_v23 (c : Dev nD) : (Ve1 m c main_v23 : S1x128.Idx → EReal)
    = shapeCast S1x128 (m ((c.tc : Thread nD τ).loc main_arg3)) shapeCasts_S128_S1x128 := by
  show StableHlo.after hostOps0 (fun b => m (c, b)) (Proc.devRef .tc main_v23) = _
  after_results
  rfl
theorem V1_v24 (c : Dev nD) : (Ve1 m c main_v24 : S1x128.Idx → EReal)
    = shapeCast S1x128 (m ((c.tc : Thread nD τ).loc main_arg5)) shapeCasts_S128_S1x128 := by
  show StableHlo.after hostOps0 (fun b => m (c, b)) (Proc.devRef .tc main_v24) = _
  after_results
  rfl
theorem V1_v25 (c : Dev nD) : (Ve1 m c main_v25 : S1x128.Idx → EReal)
    = shapeCast S1x128 (m ((c.tc : Thread nD τ).loc main_arg6)) shapeCasts_S128_S1x128 := by
  show StableHlo.after hostOps0 (fun b => m (c, b)) (Proc.devRef .tc main_v25) = _
  after_results
  rfl

/-- It finds the bias as a row. -/
theorem e1_bias (c : Dev nD) : Spec.toRow2 (Ve1 m c main_v23) = Spec.toRow1 (m ((c.tc : Thread nD τ).loc main_arg3)) := by
  funext j
  rw [V1_v23]
  exact row_of_cast _ j

/-- The second call finds x as launched, -/
theorem e3_x (c : Dev nD) : Spec.toMat (Ve3 m c main_arg0) = Spec.toMat (m ((c.tc : Thread nD τ).loc main_arg0)) :=
  congrArg Spec.toMat (Ve3_launch m c main_arg0 (by decide) (by decide) (by decide))

/-! ## The first call's results as the second stretch finds them

Between the two stretches the three result buffers are set to what the first call's write-backs leave; the second
stretch writes none of them. -/

theorem V2_h (c : Dev nD) : Gen.V2 m (outs2 m) c main_v26_0 = (dat0 (Ve1 m) c).arrAt 5 cfg0.N := by
  show Function.update (Function.update (Function.update (Gen.V1 m c) main_v26_0 (outs2 m 2 main_v26_0 c)) main_v26_1
    (outs2 m 2 main_v26_1 c)) main_v26_2 (outs2 m 2 main_v26_2 c) main_v26_0 = _
  rw [Function.update_of_ne (StableHlo.devRef_ne_of_ne (by decide)),
    Function.update_of_ne (StableHlo.devRef_ne_of_ne (by decide)), Function.update_self]
  exact W2_arr m c 5
theorem V2_S (c : Dev nD) : Gen.V2 m (outs2 m) c main_v26_1 = (dat0 (Ve1 m) c).arrAt 6 cfg0.N := by
  show Function.update (Function.update (Function.update (Gen.V1 m c) main_v26_0 (outs2 m 2 main_v26_0 c)) main_v26_1
    (outs2 m 2 main_v26_1 c)) main_v26_2 (outs2 m 2 main_v26_2 c) main_v26_1 = _
  rw [Function.update_of_ne (StableHlo.devRef_ne_of_ne (by decide)), Function.update_self]
  exact W2_arr m c 6
theorem V2_Q (c : Dev nD) : Gen.V2 m (outs2 m) c main_v26_2 = (dat0 (Ve1 m) c).arrAt 7 cfg0.N := by
  show Function.update (Function.update (Function.update (Gen.V1 m c) main_v26_0 (outs2 m 2 main_v26_0 c)) main_v26_1
    (outs2 m 2 main_v26_1 c)) main_v26_2 (outs2 m 2 main_v26_2 c) main_v26_2 = _
  rw [Function.update_self]
  exact W2_arr m c 7

/-- the first call's array of h, -/
theorem e3_h (c : Dev nD) : Spec.toMat (Ve3 m c main_v26_0) = Spec.toMat ((dat0 (Ve1 m) c).arrAt 5 cfg0.N) :=
  congrArg Spec.toMat ((Gen.V3_of m (outs2 m) c main_v26_0 (by decide)).trans (V2_h m c))

/-- gamma and beta as rows, -/
theorem e3_gamma (c : Dev nD) : Spec.toRow2 (Ve3 m c main_v24) = Spec.toRow1 (m ((c.tc : Thread nD τ).loc main_arg5)) := by
  funext j
  rw [Ve3_Ve1 m c main_v24 (by decide) (by decide), V1_v24]
  exact row_of_cast _ j
theorem e3_beta (c : Dev nD) : Spec.toRow2 (Ve3 m c main_v25) = Spec.toRow1 (m ((c.tc : Thread nD τ).loc main_arg6)) := by
  funext j
  rw [Ve3_Ve1 m c main_v25 (by decide) (by decide), V1_v25]
  exact row_of_cast _ j

/-! ## The column mean and the variance

From any contents W the second stretch leaves, in the mean's buffer, the quotient of the sums' buffer by the splat of the
word 0x47C35000, and in the variance's buffer the maximum of (the squares' buffer over the same splat, less the square
of the mean's buffer) and the splat of the zero word. The first word denotes 100000 and the second 0. -/

/-- The splat of the row count reads 100000 everywhere. -/
theorem splat_n (i : S1x128.Idx) :
    broadcastInDim S1x128 ![] bcast_S_S1x128 (constant (F := Ideal) S_ .f32 0x47C35000#32) i = Spec.nn := by
  rw [broadcastInDim_scalar_apply, constant_apply, Spec.ofBits_n]

/-- The splat of the zero word reads 0 everywhere. -/
theorem splat_0 (i : S1x128.Idx) :
    broadcastInDim S1x128 ![] bcast_S_S1x128 (constant (F := Ideal) S_ .f32 0x00000000#32) i = 0 := by
  rw [broadcastInDim_scalar_apply, constant_apply, Ideal.ofBits_zero_f32]

theorem after1_v28 (W : Valuation τ sig (Elt Ideal)) :
    (StableHlo.after hostOps1 W (Proc.devRef .tc main_v28) : S1x128.Idx → EReal)
      = Host.divf (W (Proc.devRef .tc main_v26_1) : S1x128.Idx → EReal)
          (broadcastInDim S1x128 ![] bcast_S_S1x128 (constant (F := Ideal) S_ .f32 0x47C35000#32)) := by
  after_results

theorem after1_v34 (W : Valuation τ sig (Elt Ideal)) :
    (StableHlo.after hostOps1 W (Proc.devRef .tc main_v34) : S1x128.Idx → EReal)
      = maximumf
          (subf
            (Host.divf (W (Proc.devRef .tc main_v26_2) : S1x128.Idx → EReal)
              (broadcastInDim S1x128 ![] bcast_S_S1x128 (constant (F := Ideal) S_ .f32 0x47C35000#32)))
            (mulf (StableHlo.after hostOps1 W (Proc.devRef .tc main_v28) : S1x128.Idx → EReal)
              (StableHlo.after hostOps1 W (Proc.devRef .tc main_v28) : S1x128.Idx → EReal)))
          (broadcastInDim S1x128 ![] bcast_S_S1x128 (constant (F := Ideal) S_ .f32 0x00000000#32)) := by
  rw [after1_v28]
  after_results

/-- the column mean: the first call's column sums over 100000, -/
theorem e3_mu (c : Dev nD) (j : Fin 128) :
    Spec.toRow2 (Ve3 m c main_v28) j = Ideal.div (Spec.toRow2 ((dat0 (Ve1 m) c).arrAt 6 cfg0.N) j) Spec.nn := by
  show (StableHlo.after hostOps1 (Gen.V2 m (outs2 m) c) (Proc.devRef .tc main_v28) : S1x128.Idx → EReal) (ix2 0 j) = _
  rw [after1_v28, hostDivf_apply, splat_n]
  show Ideal.div ((Gen.V2 m (outs2 m) c main_v26_1 : S1x128.Idx → EReal) (ix2 0 j)) Spec.nn = _
  rw [V2_S]
  rfl

/-- and the variance: the sums of squares over 100000 less the squared mean, clipped at zero. -/
theorem e3_var (c : Dev nD) (j : Fin 128) :
    Spec.toRow2 (Ve3 m c main_v34) j
      = max (Ideal.div (Spec.toRow2 ((dat0 (Ve1 m) c).arrAt 7 cfg0.N) j) Spec.nn
              - Spec.toRow2 (Ve3 m c main_v28) j * Spec.toRow2 (Ve3 m c main_v28) j) 0 := by
  show (StableHlo.after hostOps1 (Gen.V2 m (outs2 m) c) (Proc.devRef .tc main_v34) : S1x128.Idx → EReal) (ix2 0 j) = _
  rw [after1_v34, maximumf_apply, subf_apply, mulf_apply, hostDivf_apply, splat_n, splat_0]
  show max (Ideal.div ((Gen.V2 m (outs2 m) c main_v26_2 : S1x128.Idx → EReal) (ix2 0 j)) Spec.nn - _ * _) 0 = _
  rw [V2_Q]
  rfl

end Cert.KernelIdeal.HandValue

end
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.KIValue0.lean ====
/-
  What the first pallas_call leaves in its three result arrays, at the ideal values: the array of h entry by entry,
  and the column sums of h and of h², each accumulated over the twenty row blocks.
-/
import proofs.«111244_j21663815041135_1_alg».proof.Proof.KIR0Defs
import proofs.«111244_j21663815041135_1_alg».proof.Proof.Conv
import proofs.«111244_j21663815041135_1_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The body's payloads at an entry, at the ideal values -/

/-- The product record the body's two matrix products use is the plain rows-by-columns one. -/
theorem dot_eq_plain : dot_S5000x128_S128x128_S5000x128_1_0_0_1_n_n = DotDims.plain 5000 128 128 := rfl

/-- The zero word is the number zero. -/
theorem zero_word : (FloatOps.ofBits FTy.f32 0x00000000#32 : Ideal .f32) = 0 := Ideal.ofBits_zero_f32

/-- The block of h at an entry: the two products' sums, the bias row's entry, clipped at zero. -/
theorem pay4_apply (x0 x1 : Vec Ideal S5000x128 .f32) (x2 x4 : Vec Ideal S128x128 .f32) (x3 : Vec Ideal S1x128 .f32)
    (p : Fin 5000) (q : Fin 128) :
    k0_pay4 x0 x1 x2 x4 x3 (ix2 p q)
      = max (((∑ k : Fin 128, x0 (ix2 p k) * x2 (ix2 k q)) + (∑ k : Fin 128, x1 (ix2 p k) * x4 (ix2 k q))) + x3 (ix2 0 q)) 0 := by
  unfold k0_pay4
  simp only [maximumf_apply, addf_apply, broadcast_apply, shapeCast_self, matmul, dot_eq_plain]
  rw [Cert.GNN.matmul_plain_zero_apply, Cert.GNN.matmul_plain_zero_apply, broadcastTo_1b_ab_apply]
  simp only [truncf_apply]
  rw [zero_word]

/-- The sum over the rows of a block, cast to a one-row array, read at a column. -/
theorem colsum_apply (h : FVec Ideal S5000x128 .f32) (q : Fin 128) :
    shapeCast S1x128 (multiReduction .add [0] S128 h 0x00000000#32 reduces_S5000x128_S128 (.inl rfl) rfl) shapeCasts_S128_S1x128 (ix2 0 q)
      = ∑ p : Fin 5000, h (ix2 p q) := by
  rw [shapeCast_a_1a_apply]
  refine (Ideal.multiReduction_add_single h _ reduces_S5000x128_S128 (.inl rfl) rfl (ix1 q)).trans ?_
  refine Finset.sum_congr rfl fun p _ => congrArg h ?_
  funext a
  apply Fin.ext
  match a with
  | ⟨0, _⟩ => rfl
  | ⟨1, _⟩ => rfl

/-- The column-sum accumulator after a point: what it held plus the block's column sums. -/
theorem pay5_apply (x0 x1 : Vec Ideal S5000x128 .f32) (x2 x4 : Vec Ideal S128x128 .f32) (x3 s : Vec Ideal S1x128 .f32) (q : Fin 128) :
    k0_pay5 x0 x1 x2 x4 x3 s (ix2 0 q) = s (ix2 0 q) + ∑ p : Fin 5000, k0_pay4 x0 x1 x2 x4 x3 (ix2 p q) := by
  unfold k0_pay5
  simp only [shapeCast_self, addf_apply]
  rw [colsum_apply]

/-- The sum-of-squares accumulator after a point: what it held plus the column sums of the block's squares. -/
theorem pay1_apply (x0 x1 : Vec Ideal S5000x128 .f32) (x2 x4 : Vec Ideal S128x128 .f32) (x3 s : Vec Ideal S1x128 .f32) (q : Fin 128) :
    k0_pay1 s (k0_pay6 x0 x1 x2 x4 x3) (ix2 0 q)
      = s (ix2 0 q) + ∑ p : Fin 5000, k0_pay4 x0 x1 x2 x4 x3 (ix2 p q) * k0_pay4 x0 x1 x2 x4 x3 (ix2 p q) := by
  unfold k0_pay1 k0_pay6
  simp only [shapeCast_self, addf_apply]
  rw [colsum_apply]
  simp only [mulf_apply]

/-- The cleared accumulators hold zero. -/
theorem pay2_apply (q : Fin 128) : k0_pay2 (F := Ideal) (ix2 0 q) = 0 := by
  unfold k0_pay2
  simp only [shapeCast_self, broadcast_apply]
  exact zero_word

theorem pay3_apply (q : Fin 128) : k0_pay3 (F := Ideal) (ix2 0 q) = 0 := by
  unfold k0_pay3
  simp only [shapeCast_self, broadcast_apply]
  exact zero_word

variable (V : (c : Dev nD) → (b : Ref sig .tc) → Buf (Elt Ideal) ((c : Thread nD τ).loc b))

/-- h, from the arrays the region finds: the neighbourhood mean, x, W_l, W_r and the bias row. -/
def hK (c : Dev nD) : Spec.Mat :=
  Spec.relu (Spec.preK (Spec.toMat (V c main_v22)) (Spec.toMat (V c main_arg0)) (Spec.toSq (V c main_arg2))
    (Spec.toSq (V c main_arg4)) (Spec.toRow2 (V c main_v23)))

/-! ## The input blocks at an entry: rows 5000·t … 5000·t + 4999 of the row-blocked arrays, the whole of the others -/

/-- The block index maps, decided over the twenty points: the row-blocked windows take block (t, 0), the others (0, 0). -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Row 5000·t + p of the 100000: row p of the t-th block. -/
def row (t : Fin cfg0.N) (p : Fin 5000) : Fin 100000 :=
  ⟨5000 * t.val + p.val, by have := t.isLt; have hN : cfg0.N = 20 := N_0; have := p.isLt; omega⟩

/-- The t-th row block of the neighbourhood mean, at an entry. -/
theorem iblk0_0_apply (c : Dev nD) (t : Fin cfg0.N) (p : Fin 5000) (q : Fin 128) :
    (iblk0 V c 0 t : Vec Ideal S5000x128 .f32) (ix2 p q) = (V c main_v22 : S100000x128.Idx → EReal) (ix2 (row t p) q) := by
  unfold iblk0
  rw [View.read_apply]
  show V c main_v22 _ = V c main_v22 _
  congr 1
  funext a
  apply Fin.ext
  match a with
  | ⟨0, _⟩ => show win0_0.index t 0 * 5000 + 1 * p.val = 5000 * t.val + p.val; rw [(idx_rows t).1]; omega
  | ⟨1, _⟩ => show win0_0.index t 1 * 128 + 1 * q.val = q.val; rw [(idx_rows t).2.1]; omega

/-- The t-th row block of x, at an entry. -/
theorem iblk0_1_apply (c : Dev nD) (t : Fin cfg0.N) (p : Fin 5000) (q : Fin 128) :
    (iblk0 V c 1 t : Vec Ideal S5000x128 .f32) (ix2 p q) = (V c main_arg0 : S100000x128.Idx → EReal) (ix2 (row t p) q) := by
  unfold iblk0
  rw [View.read_apply]
  show V c main_arg0 _ = V c main_arg0 _
  congr 1
  funext a
  apply Fin.ext
  match a with
  | ⟨0, _⟩ => show win0_1.index t 0 * 5000 + 1 * p.val = 5000 * t.val + p.val; rw [(idx_rows t).2.2.1]; omega
  | ⟨1, _⟩ => show win0_1.index t 1 * 128 + 1 * q.val = q.val; rw [(idx_rows t).2.2.2.1]; omega

/-- The one block of W_l is W_l. -/
theorem iblk0_2_apply (c : Dev nD) (t : Fin cfg0.N) (k : Fin 128) (q : Fin 128) :
    (iblk0 V c 2 t : Vec Ideal S128x128 .f32) (ix2 k q) = (V c main_arg2 : S128x128.Idx → EReal) (ix2 k q) := by
  unfold iblk0
  rw [View.read_apply]
  show V c main_arg2 _ = V c main_arg2 _
  congr 1
  funext a
  apply Fin.ext
  match a with
  | ⟨0, _⟩ => show win0_2.index t 0 * 128 + 1 * k.val = k.val; rw [(idx_rows t).2.2.2.2.1]; omega
  | ⟨1, _⟩ => show win0_2.index t 1 * 128 + 1 * q.val = q.val; rw [(idx_rows t).2.2.2.2.2.1]; omega

/-- The one block of the bias row is the bias row. -/
theorem iblk0_3_apply (c : Dev nD) (t : Fin cfg0.N) (q : Fin 128) :
    (iblk0 V c 3 t : Vec Ideal S1x128 .f32) (ix2 0 q) = (V c main_v23 : S1x128.Idx → EReal) (ix2 0 q) := by
  unfold iblk0
  rw [View.read_apply]
  show V c main_v23 _ = V c main_v23 _
  congr 1
  funext a
  apply Fin.ext
  match a with
  | ⟨0, _⟩ => show win0_3.index t 0 * 1 + 1 * 0 = 0; rw [(idx_rows t).2.2.2.2.2.2.1]
  | ⟨1, _⟩ => show win0_3.index t 1 * 128 + 1 * q.val = q.val; rw [(idx_rows t).2.2.2.2.2.2.2.1]; omega

/-- The one block of W_r is W_r. -/
theorem iblk0_4_apply (c : Dev nD) (t : Fin cfg0.N) (k : Fin 128) (q : Fin 128) :
    (iblk0 V c 4 t : Vec Ideal S128x128 .f32) (ix2 k q) = (V c main_arg4 : S128x128.Idx → EReal) (ix2 k q) := by
  unfold iblk0
  rw [View.read_apply]
  show V c main_arg4 _ = V c main_arg4 _
  congr 1
  funext a
  apply Fin.ext
  match a with
  | ⟨0, _⟩ => show win0_4.index t 0 * 128 + 1 * k.val = k.val; rw [(idx_rows t).2.2.2.2.2.2.2.2.1]; omega
  | ⟨1, _⟩ => show win0_4.index t 1 * 128 + 1 * q.val = q.val; rw [(idx_rows t).2.2.2.2.2.2.2.2.2.1]; omega

/-- The block of h the body stores at point t is rows 5000·t … 5000·t + 4999 of h. -/
theorem hblk_apply (c : Dev nD) (t : Fin cfg0.N) (p : Fin 5000) (q : Fin 128) :
    (hblk V c t : Vec Ideal S5000x128 .f32) (ix2 p q) = hK V c (row t p) q := by
  unfold hblk hOf
  refine (pay4_apply _ _ _ _ _ p q).trans ?_
  simp only [iblk0_0_apply, iblk0_1_apply, iblk0_2_apply, iblk0_3_apply, iblk0_4_apply]
  rfl

/-! ## The first result array: every point writes back its own row block -/

/-- h as contents of the whole [100000, 128] array. -/
def G5 (c : Dev nD) : S100000x128.Idx → EReal := fun i => hK V c ⟨(i 0).val, idx2_lt0 i⟩ ⟨(i 1).val, idx2_lt1 i⟩

/-- The block of h at point t, at any index of the block. -/
theorem hblk_idx (c : Dev nD) (t : Fin cfg0.N) (y : S5000x128.Idx) :
    (hblk V c t : Vec Ideal S5000x128 .f32) y = hK V c (row t ⟨(y 0).val, idx2_lt0 y⟩) ⟨(y 1).val, idx2_lt1 y⟩ := by
  have e : y = ix2 (⟨(y 0).val, idx2_lt0 y⟩ : Fin 5000) (⟨(y 1).val, idx2_lt1 y⟩ : Fin 128) := by
    funext a
    match a with
    | ⟨0, _⟩ => rfl
    | ⟨1, _⟩ => rfl
  exact (congrArg (hblk V c t : Vec Ideal S5000x128 .f32) e).trans (hblk_apply V c t _ _)

/-- What point t writes back is block t of h. -/
theorem flushed5_eq (c : Dev nD) (t : Fin cfg0.N) :
    (dat0 V c).flushed 5 t = ((cfg0.win 5).blk t).view.read (Elt Ideal) (G5 V c) := by
  show (cfg0.win 5).cut (grid0.coords t) ((dat0 V c).after 5 t) = _
  rw [after0_5]
  funext y
  rw [View.read_apply]
  show (hblk V c t : Vec Ideal S5000x128 .f32) y = G5 V c (((cfg0.win 5).blk t).view.emb y)
  rw [hblk_idx]
  unfold G5
  congr 1
  · apply Fin.ext
    show 5000 * t.val + (y 0).val = win0_5.index t 0 * 5000 + 1 * (y 0).val
    rw [(idx_rows t).2.2.2.2.2.2.2.2.2.2.1]; omega
  · apply Fin.ext
    show (y 1).val = win0_5.index t 1 * 128 + 1 * (y 1).val
    rw [(idx_rows t).2.2.2.2.2.2.2.2.2.2.2.1]; omega

/-- An index of the array is in point t's block iff each coordinate is in the block's range on its axis. -/
theorem mem_blk5 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26_0).slice (win0_5.rect t)).set ↔ _
  rw [View.set_slice_whole, Rect.mem_set_unit]
  exact Iff.rfl

/-- Row r is in the block of point r / 5000. -/
theorem cover5 (i : S100000x128.Idx) : ∃ t : Fin cfg0.N, (cfg0.win 5).flush t = true ∧ i ∈ ((cfg0.win 5).blk t).view.set := by
  have hN : cfg0.N = 20 := N_0
  have hi0 : (i 0).val < 100000 := idx2_lt0 i
  have hi1 : (i 1).val < 128 := idx2_lt1 i
  refine ⟨⟨(i 0).val / 5000, by omega⟩, flush0_5 _, ?_⟩
  rw [mem_blk5]
  intro a
  match a with
  | ⟨0, _⟩ =>
    show win0_5.index _ 0 * 5000 ≤ (i 0).val ∧ (i 0).val < win0_5.index _ 0 * 5000 + 5000
    rw [(idx_rows _).2.2.2.2.2.2.2.2.2.2.1]
    show (i 0).val / 5000 * 5000 ≤ (i 0).val ∧ (i 0).val < (i 0).val / 5000 * 5000 + 5000
    omega
  | ⟨1, _⟩ =>
    show win0_5.index _ 1 * 128 ≤ (i 1).val ∧ (i 1).val < win0_5.index _ 1 * 128 + 128
    rw [(idx_rows _).2.2.2.2.2.2.2.2.2.2.2.1]
    omega

/-- The first result array holds h. -/
theorem arr0_5 (c : Dev nD) (r : Fin 100000) (j : Fin 128) :
    ((dat0 V c).arrAt 5 cfg0.N : (⟨2, ![100000, 128]⟩ : Shape).Idx → EReal) (ix2 r j) = hK V c r j := by
  have h := (dat0 V c).arrAt_eq_of_cover 5 (G5 V c) (fun t _ => flushed5_eq V c t) (cover5)
  exact (congrFun h (ix2 r j)).trans rfl

/-! ## The two accumulators: one block, written back once, after the last point -/

/-- The column-sum accumulator's update at point t, at a column: what it held plus the column sum of rows
    5000·t … 5000·t + 4999 of h. -/
theorem sStep_apply (c : Dev nD) (t : Fin cfg0.N) (s : Vec Ideal S1x128 .f32) (q : Fin 128) :
    sStep (iblk0 V c 0 t) (iblk0 V c 1 t) (iblk0 V c 2 t) (iblk0 V c 3 t) (iblk0 V c 4 t) s (ix2 0 q)
      = s (ix2 0 q) + ∑ p : Fin 5000, hK V c (row t p) q := by
  unfold sStep
  refine (pay5_apply _ _ _ _ _ s q).trans ?_
  congr 1
  exact Finset.sum_congr rfl fun p _ => hblk_apply V c t p q

/-- The sum-of-squares accumulator's update at point t, at a column. -/
theorem qStep_apply (c : Dev nD) (t : Fin cfg0.N) (s : Vec Ideal S1x128 .f32) (q : Fin 128) :
    qStep (iblk0 V c 0 t) (iblk0 V c 1 t) (iblk0 V c 2 t) (iblk0 V c 3 t) (iblk0 V c 4 t) s (ix2 0 q)
      = s (ix2 0 q) + ∑ p : Fin 5000, hK V c (row t p) q * hK V c (row t p) q := by
  unfold qStep
  refine (pay1_apply _ _ _ _ _ s q).trans ?_
  congr 1
  refine Finset.sum_congr rfl fun p _ => ?_
  have e := hblk_apply V c t p q
  unfold hblk hOf at e
  rw [e]

/-- The column sum of the n-th row block of h (zero past the grid). -/
def blockSum (c : Dev nD) (q : Fin 128) (n : ℕ) : EReal :=
  if h : n < cfg0.N then ∑ p : Fin 5000, hK V c (row ⟨n, h⟩ p) q else 0

/-- The column sum of the squares of the n-th row block of h (zero past the grid). -/
def blockSumSq (c : Dev nD) (q : Fin 128) (n : ℕ) : EReal :=
  if h : n < cfg0.N then ∑ p : Fin 5000, hK V c (row ⟨n, h⟩ p) q * hK V c (row ⟨n, h⟩ p) q else 0

/-- After point n the column-sum accumulator holds the sum of the block sums up to n: by induction on the point. -/
theorem accS_apply (c : Dev nD) (q : Fin 128) : ∀ (n : ℕ) (h : n < cfg0.N),
    accS V c n h (ix2 0 q) = ∑ i ∈ Finset.range (n + 1), blockSum V c q i
  | 0, h => by
    rw [accS, sStep_apply, pay2_apply, zero_add, Finset.sum_range_one, blockSum, dif_pos h]
  | n + 1, h => by
    rw [accS, sStep_apply, accS_apply c q n, Finset.sum_range_succ _ (n + 1), blockSum, dif_pos h]

/-- The same for the sum-of-squares accumulator. -/
theorem accQ_apply (c : Dev nD) (q : Fin 128) : ∀ (n : ℕ) (h : n < cfg0.N),
    accQ V c n h (ix2 0 q) = ∑ i ∈ Finset.range (n + 1), blockSumSq V c q i
  | 0, h => by
    rw [accQ, qStep_apply, pay3_apply, zero_add, Finset.sum_range_one, blockSumSq, dif_pos h]
  | n + 1, h => by
    rw [accQ, qStep_apply, accQ_apply c q n, Finset.sum_range_succ _ (n + 1), blockSumSq, dif_pos h]

theorem lt19 : 19 < cfg0.N := by rw [show cfg0.N = 20 from N_0]; decide

/-- The last point. -/
def t19 : Fin cfg0.N := ⟨19, lt19⟩

/-- After the last point the accumulator holds the column sums of h: the twenty block sums are the sum over all rows. -/
theorem accS_last (c : Dev nD) (q : Fin 128) : accS V c 19 lt19 (ix2 0 q) = Spec.colSum (hK V c) q := by
  rw [accS_apply, Spec.colSum, Spec.sum_rows_blocks, Finset.sum_range]
  refine Finset.sum_congr rfl fun t _ => ?_
  have ht : t.val < cfg0.N := by have := t.isLt; have hN : cfg0.N = 20 := N_0; omega
  rw [blockSum, dif_pos ht]
  rfl

theorem accQ_last (c : Dev nD) (q : Fin 128) : accQ V c 19 lt19 (ix2 0 q) = Spec.colSumSq (hK V c) q := by
  rw [accQ_apply, Spec.colSumSq, Spec.sum_rows_blocks, Finset.sum_range]
  refine Finset.sum_congr rfl fun t _ => ?_
  have ht : t.val < cfg0.N := by have := t.isLt; have hN : cfg0.N = 20 := N_0; omega
  rw [blockSumSq, dif_pos ht]
  rfl

/-- The second result array's contents after the run: the column-sum accumulator after the last point. -/
abbrev result6 (c : Dev nD) : Buf (Elt Ideal) ((c : Thread nD τ).loc main_v26_1) := accS V c 19 lt19

/-- The third's: the sum-of-squares accumulator after the last point. -/
abbrev result7 (c : Dev nD) : Buf (Elt Ideal) ((c : Thread nD τ).loc main_v26_2) := accQ V c 19 lt19

/-- The one write-back of the second result, at the last point, writes the accumulator: block (0, 0) of a [1, 128] array
    read through zero offsets is the array. -/
theorem flushed6_eq (c : Dev nD) (t : Fin cfg0.N) (hf : (cfg0.win 6).flush t = true) :
    (dat0 V c).flushed 6 t = ((cfg0.win 6).blk t).view.read (Elt Ideal) (result6 V c) := by
  have hN : cfg0.N = 20 := N_0
  have h19 : t.val = 19 := by have := (flush0_6 t).mp hf; have := t.isLt; omega
  obtain rfl : t = t19 := Fin.ext h19
  show (cfg0.win 6).cut (grid0.coords t19) ((dat0 V c).after 6 t19) = _
  rw [after0_6]
  have hz' : (fun a => win0_6.index t19 a * main_v26_1.ty.shape.size a) = fun _ => 0 := funext fun a => by
    match a with
    | ⟨0, _⟩ => show win0_6.index t19 0 * 1 = 0; rw [(idx_rows t19).2.2.2.2.2.2.2.2.2.2.2.2.1]
    | ⟨1, _⟩ => show win0_6.index t19 1 * 128 = 0; rw [(idx_rows t19).2.2.2.2.2.2.2.2.2.2.2.2.2.1]
  exact (Memref.read_access_unit_zero (Elt Ideal) main_v26_1 hz' (fun a => by rw [congrFun hz' a]; simp) (result6 V c)).symm

theorem flushed7_eq (c : Dev nD) (t : Fin cfg0.N) (hf : (cfg0.win 7).flush t = true) :
    (dat0 V c).flushed 7 t = ((cfg0.win 7).blk t).view.read (Elt Ideal) (result7 V c) := by
  have hN : cfg0.N = 20 := N_0
  have h19 : t.val = 19 := by have := (flush0_7 t).mp hf; have := t.isLt; omega
  obtain rfl : t = t19 := Fin.ext h19
  show (cfg0.win 7).cut (grid0.coords t19) ((dat0 V c).after 7 t19) = _
  rw [after0_7]
  have hz' : (fun a => win0_7.index t19 a * main_v26_2.ty.shape.size a) = fun _ => 0 := funext fun a => by
    match a with
    | ⟨0, _⟩ => show win0_7.index t19 0 * 1 = 0; rw [(idx_rows t19).2.2.2.2.2.2.2.2.2.2.2.2.2.2.1]
    | ⟨1, _⟩ => show win0_7.index t19 1 * 128 = 0; rw [(idx_rows t19).2.2.2.2.2.2.2.2.2.2.2.2.2.2.2]
  exact (Memref.read_access_unit_zero (Elt Ideal) main_v26_2 hz' (fun a => by rw [congrFun hz' a]; simp) (result7 V c)).symm

/-- An index of a [1, 128] result array is in the last point's block: the block is the array. -/
theorem mem_blk6 (i : S1x128.Idx) : i ∈ ((cfg0.win 6).blk t19).view.set := by
  show i ∈ ((View.whole main_v26_1).slice (win0_6.rect t19)).set
  rw [View.set_slice_whole, Rect.mem_set_unit]
  have h0 : (i 0).val < 1 := idx2_lt0 i
  have h1 : (i 1).val < 128 := idx2_lt1 i
  intro a
  match a with
  | ⟨0, _⟩ =>
    show win0_6.index t19 0 * 1 ≤ (i 0).val ∧ (i 0).val < win0_6.index t19 0 * 1 + 1
    rw [(idx_rows t19).2.2.2.2.2.2.2.2.2.2.2.2.1]; omega
  | ⟨1, _⟩ =>
    show win0_6.index t19 1 * 128 ≤ (i 1).val ∧ (i 1).val < win0_6.index t19 1 * 128 + 128
    rw [(idx_rows t19).2.2.2.2.2.2.2.2.2.2.2.2.2.1]; omega

theorem mem_blk7 (i : S1x128.Idx) : i ∈ ((cfg0.win 7).blk t19).view.set := by
  show i ∈ ((View.whole main_v26_2).slice (win0_7.rect t19)).set
  rw [View.set_slice_whole, Rect.mem_set_unit]
  have h0 : (i 0).val < 1 := idx2_lt0 i
  have h1 : (i 1).val < 128 := idx2_lt1 i
  intro a
  match a with
  | ⟨0, _⟩ =>
    show win0_7.index t19 0 * 1 ≤ (i 0).val ∧ (i 0).val < win0_7.index t19 0 * 1 + 1
    rw [(idx_rows t19).2.2.2.2.2.2.2.2.2.2.2.2.2.2.1]; omega
  | ⟨1, _⟩ =>
    show win0_7.index t19 1 * 128 ≤ (i 1).val ∧ (i 1).val < win0_7.index t19 1 * 128 + 128
    rw [(idx_rows t19).2.2.2.2.2.2.2.2.2.2.2.2.2.2.2]; omega

/-- So the second result array ends holding the column-sum accumulator after the last point, -/
theorem final6 (c : Dev nD) : (dat0 V c).arrAt 6 cfg0.N = result6 V c :=
  (dat0 V c).arrAt_eq_of_cover 6 (result6 V c) (flushed6_eq V c) fun i =>
    ⟨t19, (flush0_6 t19).mpr rfl, mem_blk6 i⟩

/-- and the third the sum-of-squares accumulator. -/
theorem final7 (c : Dev nD) : (dat0 V c).arrAt 7 cfg0.N = result7 V c :=
  (dat0 V c).arrAt_eq_of_cover 7 (result7 V c) (flushed7_eq V c) fun i =>
    ⟨t19, (flush0_7 t19).mpr rfl, mem_blk7 i⟩

/-- The second holds the column sums of h. -/
theorem arr0_6 (c : Dev nD) (j : Fin 128) :
    ((dat0 V c).arrAt 6 cfg0.N : (⟨2, ![1, 128]⟩ : Shape).Idx → EReal) (ix2 0 j) = Spec.colSum (hK V c) j :=
  (congrFun (final6 V c) (ix2 0 j)).trans (accS_last V c j)

/-- The third holds the column sums of h². -/
theorem arr0_7 (c : Dev nD) (j : Fin 128) :
    ((dat0 V c).arrAt 7 cfg0.N : (⟨2, ![1, 128]⟩ : Shape).Idx → EReal) (ix2 0 j) = Spec.colSumSq (hK V c) j :=
  (congrFun (final7 V c) (ix2 0 j)).trans (accQ_last V c j)

end Cert.KernelIdeal.HandValue

end
-- ==== Proof.KIValue1.lean ====
/-
  What the second pallas_call leaves in its result array, at the ideal values, entry by entry.
-/
import proofs.«111244_j21663815041135_1_alg».proof.Proof.KIR1Defs
import proofs.«111244_j21663815041135_1_alg».proof.Proof.Conv
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- A [1,128] row broadcast over 5000 rows reads, at (p, q), the row's entry q. -/
theorem bcast_row_apply {α : Type} (x : S1x128.Idx → α) (p : Fin 5000) (q : Fin 128) :
    broadcastTo S5000x128 x broadcasts_S1x128_S5000x128 (ix2 p q) = x (ix2 0 q) := by
  refine broadcastTo_apply x _ (ix2 p q) (ix2 0 q) fun a => ?_
  match a with
  | ⟨0, _⟩ => rfl
  | ⟨1, _⟩ => rfl

/-- The block the body stores, at entry (p, q): x + ((h − mean) · rsqrt(variance + ε) · gamma + beta) of the six blocks'
    entries, the four rows read at their entry q. -/
theorem oOf_apply (x0 x1 : Vec Ideal S5000x128 .f32) (x2 x3 x4 x5 : Vec Ideal S1x128 .f32) (p : Fin 5000) (q : Fin 128) :
    oOf x0 x1 x2 x3 x4 x5 (ix2 p q)
      = x1 (ix2 p q) + (((x0 (ix2 p q) - x2 (ix2 0 q)) * Ideal.rsqrt (x3 (ix2 0 q) + Spec.eps)) * x4 (ix2 0 q) + x5 (ix2 0 q)) := by
  unfold oOf k1_pay1
  simp only [shapeCast_self]
  rw [addf_apply, addf_apply, mulf_apply, mulf_apply, subf_apply, bcast_row_apply, bcast_row_apply, bcast_row_apply,
    bcast_row_apply]
  rfl

/-- The index maps, decided over the twenty points: windows 0, 1 and 6 take row block t, windows 2 to 5 the one block
    of their [1,128] array. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Window 0's block at point t, entry (p, q), is h at row 5000·t + p. -/
theorem iblk1_0_apply (c : Dev nD) (t : Fin cfg1.N) (p : Fin 5000) (q : Fin 128) (r : Fin 100000)
    (hr : r.val = 5000 * t.val + p.val) :
    (iblk1 V c 0 t : Vec Ideal S5000x128 .f32) (ix2 p q) = (V c main_v26_0 : S100000x128.Idx → EReal) (ix2 r q) := by
  obtain ⟨e0, e1, -⟩ := idx_facts1 t
  unfold iblk1
  rw [View.read_apply]
  show V c main_v26_0 _ = V c main_v26_0 _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 128 + 1 * q.val = q.val; rw [e1]; omega

/-- Window 1's block at point t, entry (p, q), is x at row 5000·t + p. -/
theorem iblk1_1_apply (c : Dev nD) (t : Fin cfg1.N) (p : Fin 5000) (q : Fin 128) (r : Fin 100000)
    (hr : r.val = 5000 * t.val + p.val) :
    (iblk1 V c 1 t : Vec Ideal S5000x128 .f32) (ix2 p q) = (V c main_arg0 : S100000x128.Idx → EReal) (ix2 r q) := by
  obtain ⟨-, -, e0, e1, -⟩ := idx_facts1 t
  unfold iblk1
  rw [View.read_apply]
  show V c main_arg0 _ = V c main_arg0 _
  congr 1
  funext a
  apply Fin.ext
  match a with
  | ⟨0, _⟩ => show win1_1.index t (0 : Fin 2) * 5000 + 1 * p.val = r.val; rw [e0, hr]; omega
  | ⟨1, _⟩ => show win1_1.index t (1 : Fin 2) * 128 + 1 * q.val = q.val; rw [e1]; omega

/-- Window 2's block at every point is the whole column-mean row. -/
theorem iblk1_2_apply (c : Dev nD) (t : Fin cfg1.N) (q : Fin 128) :
    (iblk1 V c 2 t : Vec Ideal S1x128 .f32) (ix2 0 q) = (V c main_v28 : S1x128.Idx → EReal) (ix2 0 q) := by
  obtain ⟨-, -, -, -, e0, e1, -⟩ := idx_facts1 t
  unfold iblk1
  rw [View.read_apply]
  show V c main_v28 _ = V c main_v28 _
  congr 1
  funext a
  apply Fin.ext
  match a with
  | ⟨0, _⟩ => show win1_2.index t (0 : Fin 2) * 1 + 1 * 0 = 0; rw [e0]
  | ⟨1, _⟩ => show win1_2.index t (1 : Fin 2) * 128 + 1 * q.val = q.val; rw [e1]; omega

/-- Window 3's block at every point is the whole column-variance row. -/
theorem iblk1_3_apply (c : Dev nD) (t : Fin cfg1.N) (q : Fin 128) :
    (iblk1 V c 3 t : Vec Ideal S1x128 .f32) (ix2 0 q) = (V c main_v34 : S1x128.Idx → EReal) (ix2 0 q) := by
  obtain ⟨-, -, -, -, -, -, e0, e1, -⟩ := idx_facts1 t
  unfold iblk1
  rw [View.read_apply]
  show V c main_v34 _ = V c main_v34 _
  congr 1
  funext a
  apply Fin.ext
  match a with
  | ⟨0, _⟩ => show win1_3.index t (0 : Fin 2) * 1 + 1 * 0 = 0; rw [e0]
  | ⟨1, _⟩ => show win1_3.index t (1 : Fin 2) * 128 + 1 * q.val = q.val; rw [e1]; omega

/-- Window 4's block at every point is the whole gamma row. -/
theorem iblk1_4_apply (c : Dev nD) (t : Fin cfg1.N) (q : Fin 128) :
    (iblk1 V c 4 t : Vec Ideal S1x128 .f32) (ix2 0 q) = (V c main_v24 : S1x128.Idx → EReal) (ix2 0 q) := by
  obtain ⟨-, -, -, -, -, -, -, -, e0, e1, -⟩ := idx_facts1 t
  unfold iblk1
  rw [View.read_apply]
  show V c main_v24 _ = V c main_v24 _
  congr 1
  funext a
  apply Fin.ext
  match a with
  | ⟨0, _⟩ => show win1_4.index t (0 : Fin 2) * 1 + 1 * 0 = 0; rw [e0]
  | ⟨1, _⟩ => show win1_4.index t (1 : Fin 2) * 128 + 1 * q.val = q.val; rw [e1]; omega

/-- Window 5's block at every point is the whole beta row. -/
theorem iblk1_5_apply (c : Dev nD) (t : Fin cfg1.N) (q : Fin 128) :
    (iblk1 V c 5 t : Vec Ideal S1x128 .f32) (ix2 0 q) = (V c main_v25 : S1x128.Idx → EReal) (ix2 0 q) := by
  obtain ⟨-, -, -, -, -, -, -, -, -, -, e0, e1, -⟩ := idx_facts1 t
  unfold iblk1
  rw [View.read_apply]
  show V c main_v25 _ = V c main_v25 _
  congr 1
  funext a
  apply Fin.ext
  match a with
  | ⟨0, _⟩ => show win1_5.index t (0 : Fin 2) * 1 + 1 * 0 = 0; rw [e0]
  | ⟨1, _⟩ => show win1_5.index t (1 : Fin 2) * 128 + 1 * q.val = q.val; rw [e1]; omega

/-- Entry (r, j) of the normalised output with residual, from the arrays the region finds. -/
def outAt (c : Dev nD) (r : Fin 100000) (j : Fin 128) : EReal :=
  Spec.toMat (V c main_arg0) r j
    + (((Spec.toMat (V c main_v26_0) r j - Spec.toRow2 (V c main_v28) j)
        * Ideal.rsqrt (Spec.toRow2 (V c main_v34) j + Spec.eps))
      * Spec.toRow2 (V c main_v24) j + Spec.toRow2 (V c main_v25) j)

/-- The same as one function on the result array's index set. -/
def G1 (c : Dev nD) : S100000x128.Idx → Elt Ideal .f32 :=
  fun i => outAt V c ⟨(i 0).val, idx2_lt0 i⟩ ⟨(i 1).val, idx2_lt1 i⟩

/-- The block stored at point t, at entry (p, q), is the output's entry at row 5000·t + p. -/
theorem oblk_apply (c : Dev nD) (t : Fin cfg1.N) (p : Fin 5000) (q : Fin 128) (r : Fin 100000)
    (hr : r.val = 5000 * t.val + p.val) : oblk V c t (ix2 p q) = outAt V c r q := by
  unfold oblk
  rw [oOf_apply, iblk1_0_apply V c t p q r hr, iblk1_1_apply V c t p q r hr, iblk1_2_apply, iblk1_3_apply, iblk1_4_apply,
    iblk1_5_apply]
  rfl

/-- What point t writes back is block t of the whole-array function. -/
theorem flushed1_eq (c : Dev nD) (t : Fin cfg1.N) :
    (dat1 V c).flushed 6 t = ((cfg1.win 6).blk t).view.read (Elt Ideal) (G1 V c) := by
  show (cfg1.win 6).cut (grid1.coords t) ((dat1 V c).after 6 t) = _
  rw [after1_6]
  obtain ⟨-, -, -, -, -, -, -, -, -, -, -, -, e0, e1⟩ := idx_facts1 t
  have ht : t.val < 20 := lt_of_lt_of_eq t.isLt N_1
  have key : ∀ (p : Fin 5000) (q : Fin 128),
      oblk V c t (ix2 p q) = G1 V c (((cfg1.win 6).blk t).view.emb (ix2 p q)) := by
    intro p q
    have hp : p.val < 5000 := p.isLt
    rw [oblk_apply V c t p q ⟨5000 * t.val + p.val, by omega⟩ rfl]
    unfold G1
    congr 1
    · apply Fin.ext
      show 5000 * t.val + p.val = win1_6.index t (0 : Fin 2) * 5000 + 1 * p.val
      rw [e0]; omega
    · apply Fin.ext
      show q.val = win1_6.index t (1 : Fin 2) * 128 + 1 * q.val
      rw [e1]; omega
  funext y
  obtain ⟨p, q, rfl⟩ : ∃ (p : Fin 5000) (q : Fin 128), y = ix2 p q := ⟨y 0, y 1, eq_ix2 y⟩
  exact key p q

/-- An index of the result array is in point t's block iff each coordinate is in the block's range on its axis. -/
theorem mem_blk1 (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v35).slice (win1_6.rect t)).set ↔ _
  rw [View.set_slice_whole, Rect.mem_set_unit]
  exact Iff.rfl

/-- Row r is in the block of point r / 5000, and every point writes its block back. -/
theorem cover1 (i : S100000x128.Idx) :
    ∃ t : Fin cfg1.N, (cfg1.win 6).flush t = true ∧ i ∈ ((cfg1.win 6).blk t).view.set := by
  have hi0 : (i 0).val < 100000 := idx2_lt0 i
  have hi1 : (i 1).val < 128 := idx2_lt1 i
  obtain ⟨t, ht⟩ : ∃ t : Fin cfg1.N, t.val = (i 0).val / 5000 :=
    ⟨⟨(i 0).val / 5000, by show _ < grid1.N; rw [N_1]; omega⟩, rfl⟩
  obtain ⟨-, -, -, -, -, -, -, -, -, -, -, -, e0, e1⟩ := idx_facts1 t
  refine ⟨t, flush1_6 t, ?_⟩
  rw [mem_blk1]
  intro a
  match a with
  | ⟨0, _⟩ =>
    show win1_6.index t (0 : Fin 2) * 5000 ≤ (i 0).val ∧ (i 0).val < win1_6.index t (0 : Fin 2) * 5000 + 5000
    rw [e0, ht]; omega
  | ⟨1, _⟩ =>
    show win1_6.index t (1 : Fin 2) * 128 ≤ (i 1).val ∧ (i 1).val < win1_6.index t (1 : Fin 2) * 128 + 128
    rw [e1]; omega

/-- The result array after the twenty points is the whole-array function. -/
theorem final1 (c : Dev nD) : (dat1 V c).arrAt 6 cfg1.N = G1 V c :=
  (dat1 V c).arrAt_eq_of_cover 6 (G1 V c) (fun t _ => flushed1_eq V c t) cover1

/-- Entry (r, j) of the result: x + ((h − mean) · rsqrt(variance + ε) · gamma + beta), each read off the arrays the
    region finds. -/
theorem arr1_6 (c : Dev nD) (r : Fin 100000) (j : Fin 128) :
    Spec.toMat ((dat1 V c).arrAt 6 cfg1.N) r j
      = Spec.toMat (V c main_arg0) r j
        + (((Spec.toMat (V c main_v26_0) r j - Spec.toRow2 (V c main_v28) j)
            * Ideal.rsqrt (Spec.toRow2 (V c main_v34) j + Spec.eps))
          * Spec.toRow2 (V c main_v24) j + Spec.toRow2 (V c main_v25) j) := by
  rw [final1]
  rfl

end Cert.KernelIdeal.HandValue

end
-- ==== Proof.KIBridge.lean ====
/-
  The idealized kernel's result at an entry. Composing what the second pallas_call leaves (x + (h − mean) · rsqrt(var + ε)
  · gamma + beta, read off the arrays it finds) with what those arrays hold (h and its two column sums from the first
  pallas_call; mean = S/100000 and var = max(Q/100000 − mean², 0) from the host operations between the calls; the
  neighbourhood mean, the bias row, gamma and beta from the host operations before), entry (r, j) of the result is the
  layer's formula with the bias added last and the variance taken as mean of squares less squared mean.
-/
import proofs.«111244_j21663815041135_1_alg».proof.Proof.KIChain
import proofs.«111244_j21663815041135_1_alg».proof.Proof.KIHost
import proofs.«111244_j21663815041135_1_alg».proof.Proof.KIValue0
import proofs.«111244_j21663815041135_1_alg».proof.Proof.KIValue1

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- h from the launch contents: the neighbourhood mean (the reference's own chain on x and the edge list), x, W_l,
    W_r and the bias. -/
def hKm (c : Dev nD) : Spec.Mat :=
  Spec.relu (Spec.preK
    (Spec.toMat (Cert.ReferenceIdeal.Read.val_main_v22 (F := Ideal) (m ((c.tc : Thread nD τ).loc main_arg0)) (m ((c.tc : Thread nD τ).loc main_arg1))))
    (Spec.toMat (m ((c.tc : Thread nD τ).loc main_arg0))) (Spec.toSq (m ((c.tc : Thread nD τ).loc main_arg2))) (Spec.toSq (m ((c.tc : Thread nD τ).loc main_arg4)))
    (Spec.toRow1 (m ((c.tc : Thread nD τ).loc main_arg3))))

/-- The first call's h, from the arrays it finds, is h from the launch contents: each array it finds is the launch
    contents' (the neighbourhood mean, x, W_l, W_r, the bias row). -/
theorem hK_eq (c : Dev nD) : hK (Ve1 m) c = hKm m c := by
  unfold hK hKm
  rw [e1_mean, e1_x, e1_wl, e1_wr, e1_bias]

/-- The first call's array of h at an entry. -/
theorem h_apply (c : Dev nD) (r : Fin 100000) (j : Fin 128) :
    Spec.toMat (Ve3 m c main_v26_0) r j = hKm m c r j := by
  rw [e3_h]
  show ((dat0 (Ve1 m) c).arrAt 5 cfg0.N : (⟨2, ![100000, 128]⟩ : Shape).Idx → EReal) (ix2 r j) = _
  rw [arr0_5, hK_eq]

/-- The first call's column sums of h. -/
theorem colSum_apply (c : Dev nD) (j : Fin 128) :
    Spec.toRow2 ((dat0 (Ve1 m) c).arrAt 6 cfg0.N) j = Spec.colSum (hKm m c) j := by
  show ((dat0 (Ve1 m) c).arrAt 6 cfg0.N : (⟨2, ![1, 128]⟩ : Shape).Idx → EReal) (ix2 0 j) = _
  rw [arr0_6, hK_eq]

/-- The first call's column sums of h². -/
theorem colSumSq_apply (c : Dev nD) (j : Fin 128) :
    Spec.toRow2 ((dat0 (Ve1 m) c).arrAt 7 cfg0.N) j = Spec.colSumSq (hKm m c) j := by
  show ((dat0 (Ve1 m) c).arrAt 7 cfg0.N : (⟨2, ![1, 128]⟩ : Shape).Idx → EReal) (ix2 0 j) = _
  rw [arr0_7, hK_eq]

/-- The column mean the second call finds is the mean of h's columns. -/
theorem mu_apply (c : Dev nD) (j : Fin 128) : Spec.toRow2 (Ve3 m c main_v28) j = Spec.mu (hKm m c) j := by
  rw [e3_mu, colSum_apply]
  rfl

/-- The variance the second call finds is the mean of squares less the squared mean, clipped at zero. -/
theorem var_apply (c : Dev nD) (j : Fin 128) : Spec.toRow2 (Ve3 m c main_v34) j = Spec.varK (hKm m c) j := by
  rw [e3_var, colSumSq_apply, mu_apply]
  rfl

/-- The kernel's result at entry (r, j). -/
theorem kernel_apply (c : Dev nD) (r : Fin 100000) (j : Fin 128) :
    Spec.toMat (result m c) r j
      = Spec.out (Spec.toMat (m ((c.tc : Thread nD τ).loc main_arg0))) (hKm m c) (Spec.varK (hKm m c))
          (Spec.toRow1 (m ((c.tc : Thread nD τ).loc main_arg5))) (Spec.toRow1 (m ((c.tc : Thread nD τ).loc main_arg6))) Spec.eps r j := by
  have hx : Spec.toMat (Ve3 m c main_arg0) r j = Spec.toMat (m ((c.tc : Thread nD τ).loc main_arg0)) r j :=
    congrFun (congrFun (e3_x m c) r) j
  have hg : Spec.toRow2 (Ve3 m c main_v24) j = Spec.toRow1 (m ((c.tc : Thread nD τ).loc main_arg5)) j :=
    congrFun (e3_gamma m c) j
  have hb : Spec.toRow2 (Ve3 m c main_v25) j = Spec.toRow1 (m ((c.tc : Thread nD τ).loc main_arg6)) j :=
    congrFun (e3_beta m c) j
  show Spec.toMat (result m c) r j = _
  rw [result_eq, arr1_6 (Ve3 m) c r j, hx, h_apply, hg, hb, mu_apply, var_apply]
  rfl

end Cert.KernelIdeal.HandValue

end
-- ==== Proof.RefValue.lean ====
/-
  The reference's result read at an entry: with the neighbourhood mean kept as one function of x and the edge list,
  entry (r, j) of the result is the layer's formula, the bias added before the second product and the variance taken
  as the mean of squared deviations.
-/
import proofs.«111244_j21663815041135_1_alg».proof.Proof.Gen.ReferenceIdeal.Run
import proofs.«111244_j21663815041135_1_alg».proof.Proof.Gen.ReferenceIdeal.Read
import proofs.«111244_j21663815041135_1_alg».proof.Proof.Conv
import proofs.«111244_j21663815041135_1_alg».proof.Proof.LibDot

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-- The neighbourhood mean as the reference computes it, one function of x and the edge list. -/
abbrev meanOf (x0 : (⟨S100000x128, .f32⟩ : BufTy).Contents (Elt Ideal)) (x1 : (⟨S2x1600000, .i32⟩ : BufTy).Contents (Elt Ideal)) :
    (⟨S100000x128, .f32⟩ : BufTy).Contents (Elt Ideal) := val_main_v22 (F := Ideal) x0 x1

/-- h as the reference computes it. -/
def hR (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) : Spec.Mat :=
  Spec.relu (Spec.preR (Spec.toMat (meanOf x0 x1)) (Spec.toMat x0) (Spec.toSq x2) (Spec.toSq x4) (Spec.toRow1 x3))

/-! Index bookkeeping: the index functions of the products, broadcasts and column sums, at the entry (r, j). -/

theorem lidx23 (r : Fin 100000) (j k : Fin 128) : lidx_main_v23 (ix2 r j) k = ix2 r k :=
  funext fun a => Fin.ext (by match a with | ⟨0, _⟩ => rfl | ⟨1, _⟩ => rfl)
theorem ridx23 (r : Fin 100000) (j k : Fin 128) : ridx_main_v23 (ix2 r j) k = ix2 k j :=
  funext fun a => Fin.ext (by match a with | ⟨0, _⟩ => rfl | ⟨1, _⟩ => rfl)
theorem lidx27 (r : Fin 100000) (j k : Fin 128) : lidx_main_v27 (ix2 r j) k = ix2 r k :=
  funext fun a => Fin.ext (by match a with | ⟨0, _⟩ => rfl | ⟨1, _⟩ => rfl)
theorem ridx27 (r : Fin 100000) (j k : Fin 128) : ridx_main_v27 (ix2 r j) k = ix2 k j :=
  funext fun a => Fin.ext (by match a with | ⟨0, _⟩ => rfl | ⟨1, _⟩ => rfl)
theorem idx2524 (r : Fin 100000) (j : Fin 128) : idx_main_v24 (idx_main_v25 (ix2 r j)) = ix1 j :=
  funext fun a => Fin.ext (by match a with | ⟨0, _⟩ => rfl)

/-- Entry (r, j) of the reference's h. -/
theorem h_apply (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (r : Fin 100000) (j : Fin 128) :
    val_main_v29 (F := Ideal) x0 x1 x2 x3 x4 (ix2 r j) = hR x0 x1 x2 x3 x4 r j := by
  rw [val_main_v29_apply, val_main_v28_apply, val_main_v26_apply, val_main_v23_apply, val_main_v25_apply,
    val_main_v24_apply, val_main_v27_apply, val_main_call0_v0_apply, val_main_call0_cst_apply]
  simp only [lidx23, ridx23, lidx27, ridx27, idx2524, Ideal.addf_def, Ideal.maximumf_def, Ideal.ofBits_def,
    Ideal.ofBits_zero_f32, hR, Spec.relu, Spec.preR, Spec.toMat, Spec.toSq, Spec.toRow1]

theorem idx30 (j : Fin 128) (k : Fin 100000) : idx_main_v30 (ix1 j) k = ix2 k j :=
  funext fun a => Fin.ext (by match a with | ⟨0, _⟩ => rfl | ⟨1, _⟩ => rfl)
theorem idx37 (j : Fin 128) (k : Fin 100000) : idx_main_v37 (ix1 j) k = ix2 k j :=
  funext fun a => Fin.ext (by match a with | ⟨0, _⟩ => rfl | ⟨1, _⟩ => rfl)
theorem idx3433 (r : Fin 100000) (j : Fin 128) : idx_main_v33 (idx_main_v34 (ix2 r j)) = ix1 j :=
  funext fun a => Fin.ext (by match a with | ⟨0, _⟩ => rfl)
theorem idx4140 (r : Fin 100000) (j : Fin 128) : idx_main_v40 (idx_main_v41 (ix2 r j)) = ix1 j :=
  funext fun a => Fin.ext (by match a with | ⟨0, _⟩ => rfl)
theorem idx4746 (r : Fin 100000) (j : Fin 128) : idx_main_v46 (idx_main_v47 (ix2 r j)) = ix1 j :=
  funext fun a => Fin.ext (by match a with | ⟨0, _⟩ => rfl)
theorem idx5049 (r : Fin 100000) (j : Fin 128) : idx_main_v49 (idx_main_v50 (ix2 r j)) = ix1 j :=
  funext fun a => Fin.ext (by match a with | ⟨0, _⟩ => rfl)
theorem idx5352 (r : Fin 100000) (j : Fin 128) : idx_main_v52 (idx_main_v53 (ix2 r j)) = ix1 j :=
  funext fun a => Fin.ext (by match a with | ⟨0, _⟩ => rfl)

/-- The column mean: the column's sum over the 100000 rows, divided by 100000. -/
theorem mean_apply (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (j : Fin 128) :
    val_main_v32 (F := Ideal) x0 x1 x2 x3 x4 (ix1 j) = Spec.mu (hR x0 x1 x2 x3 x4) j := by
  rw [val_main_v32_apply, val_main_v30_apply, val_main_v31_apply, val_main_cst_5_apply, val_main_cst_4_apply]
  simp only [idx30, h_apply, Ideal.hostDivf_def, Ideal.ofBits_def, Ideal.ofBits_zero_f32, Spec.ofBits_n]
  rw [zero_add, Spec.mu, Spec.colSum]

/-- The deviation from the column mean, as the variance reads it. -/
theorem dev_apply (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (r : Fin 100000) (j : Fin 128) :
    val_main_v35 (F := Ideal) x0 x1 x2 x3 x4 (ix2 r j)
      = hR x0 x1 x2 x3 x4 r j - Spec.mu (hR x0 x1 x2 x3 x4) j := by
  rw [val_main_v35_apply, val_main_v34_apply, val_main_v33_apply, idx3433, h_apply, mean_apply, Ideal.subf_def]

/-- The deviation from the column mean, as the normalisation reads it. -/
theorem dev'_apply (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (r : Fin 100000) (j : Fin 128) :
    val_main_v42 (F := Ideal) x0 x1 x2 x3 x4 (ix2 r j)
      = hR x0 x1 x2 x3 x4 r j - Spec.mu (hR x0 x1 x2 x3 x4) j := by
  rw [val_main_v42_apply, val_main_v41_apply, val_main_v40_apply, idx4140, h_apply, mean_apply, Ideal.subf_def]

/-- The squared deviation. -/
theorem sq_apply (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (r : Fin 100000) (j : Fin 128) :
    val_main_v36 (F := Ideal) x0 x1 x2 x3 x4 (ix2 r j)
      = (hR x0 x1 x2 x3 x4 r j - Spec.mu (hR x0 x1 x2 x3 x4) j) * (hR x0 x1 x2 x3 x4 r j - Spec.mu (hR x0 x1 x2 x3 x4) j) := by
  rw [val_main_v36_apply, dev_apply, Ideal.mulf_def]

/-- The variance: the mean over the rows of the squared deviations. -/
theorem var_apply (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (j : Fin 128) :
    val_main_v39 (F := Ideal) x0 x1 x2 x3 x4 (ix1 j) = Spec.varR (hR x0 x1 x2 x3 x4) j := by
  rw [val_main_v39_apply, val_main_v37_apply, val_main_v38_apply, val_main_cst_7_apply, val_main_cst_6_apply]
  simp only [idx37, sq_apply]
  simp only [Ideal.hostDivf_def, Ideal.ofBits_def, Ideal.ofBits_zero_f32, Spec.ofBits_n]
  rw [zero_add, Spec.varR]

/-- The scale: the reciprocal square root of the variance plus ε. -/
theorem scale_apply (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (j : Fin 128) :
    val_main_v45 (F := Ideal) x0 x1 x2 x3 x4 (ix1 j)
      = Ideal.rsqrt (Spec.varR (hR x0 x1 x2 x3 x4) j + Spec.eps) := by
  rw [val_main_v45_apply, val_main_v44_apply, val_main_v43_apply, val_main_cst_8_apply, var_apply,
    Ideal.hostUnary_rsqrt_def, Ideal.addf_def, Ideal.ofBits_def, Spec.eps]

/-- The reference's result at entry (r, j). -/
theorem ref_apply (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 x6 : (⟨S128, .f32⟩ : BufTy).Contents (Elt Ideal))
    (r : Fin 100000) (j : Fin 128) :
    val_main_v55 (F := Ideal) x0 x1 x2 x3 x4 x5 x6 (ix2 r j)
      = Spec.out (Spec.toMat x0) (hR x0 x1 x2 x3 x4) (Spec.varR (hR x0 x1 x2 x3 x4)) (Spec.toRow1 x5) (Spec.toRow1 x6) Spec.eps r j := by
  rw [val_main_v55_apply, val_main_v54_apply, val_main_v51_apply, val_main_v48_apply, val_main_v47_apply,
    val_main_v46_apply, val_main_v50_apply, val_main_v49_apply, val_main_v53_apply, val_main_v52_apply,
    idx4746, idx5049, idx5352, dev'_apply, scale_apply]
  simp only [Ideal.addf_def, Ideal.mulf_def, Spec.out, Spec.toMat, Spec.toRow1]

end Cert.ReferenceIdeal.RefValue

end
-- ==== Proof.Finite.lean ====
/-
  Finiteness. The precondition says every float input holds real numbers; the neighbourhood mean of such an x is
  again real in every entry: each gathered row is a row of x, each scattered sum is a finite sum of such entries,
  and the divisor max(degree, 1) is at least one, so its inverse is a real between 0 and 1.
-/
import proofs.«111244_j21663815041135_1_alg».proof.Proof.Gen.Pre_finite_inputs
import proofs.«111244_j21663815041135_1_alg».proof.Proof.Gen.ReferenceIdeal.Read
import proofs.«111244_j21663815041135_1_alg».proof.Proof.Conv
import Idealize.ShloMosaic.Lib.ReduceAll

noncomputable section

namespace Cert.Finite

open Idealize.ShloMosaic Idealize.ShloMosaic.ValueIdx

/-- The scalar shape has one index. -/
instance subsingleton_scalar_idx : Subsingleton (⟨0, ![]⟩ : Shape).Idx := ⟨fun a b => funext fun d => d.elim0⟩

/-- The single-precision word 0x7F800000 (exponent field all ones, fraction zero, sign clear) denotes +∞. -/
theorem ofBits_inf : Ideal.ofBits .f32 0x7F800000#32 = ⊤ := by
  simp [Ideal.ofBits, Ideal.ieee]

/-- The all-zero word denotes 0. -/
theorem ofBits_zero : Ideal.ofBits .f32 0x00000000#32 = ((0 : ℝ) : EReal) := by
  simp [Ideal.ofBits, Ideal.ieee]

/-- The word 0x3F800000 (exponent field 127, fraction zero) denotes 2²³ · 2^(127 − 127 − 23) = 1. -/
theorem ofBits_one : Ideal.ofBits .f32 0x3F800000#32 = 1 := by
  simp [Ideal.ofBits, Ideal.ieee, -EReal.coe_mul]; norm_num

/-- An extended real whose absolute value max(x, −x) is strictly below +∞ is a real number: at ⊥ and at ⊤ the
    absolute value is ⊤ itself. -/
theorem real_of_abs_lt_top (x : EReal) (h : Ideal.cmp .olt (max x (-x)) ⊤ = 1#1) : ∃ v : ℝ, x = (v : EReal) := by
  induction x using EReal.rec with
  | bot => simp [Ideal.cmp] at h
  | coe v => exact ⟨v, rfl⟩
  | top => simp [Ideal.cmp] at h

/-- One element of the test |x| < +∞, read at an index: the element is a real number. -/
theorem elem_finite {s : Shape} (dims : Fin 0 → Fin s.rank) (hb : (⟨0, ![]⟩ : Shape).BroadcastsInDim s dims)
    (x : FVec Ideal s .f32) (i : s.Idx)
    (h : cmpf .olt (Host.absf x) (broadcastInDim s dims hb (constant (⟨0, ![]⟩ : Shape) .f32 0x7F800000#32)) i = 1#1) :
    ∃ v : ℝ, x i = (v : EReal) := by
  apply real_of_abs_lt_top
  rw [← ofBits_inf]
  exact h

/-- A conjunction of two one-bit arrays is 1 at an index exactly when both are. -/
theorem andi_apply_eq_one {s : Shape} (a b : IVec s 1) (i : s.Idx) : andi a b i = 1#1 ↔ a i = 1#1 ∧ b i = 1#1 :=
  IntOp.andi_eq_one

/-- Every index of a [100000, 128] array is (row, feature), so a finite matrix is finite at every index. -/
theorem fin_at (x0 : (⟨2, ![100000, 128]⟩ : Shape).Idx → EReal) (hx : Spec.FinMat (Spec.toMat x0))
    (k : (⟨2, ![100000, 128]⟩ : Shape).Idx) : ∃ v : ℝ, x0 k = (v : EReal) := by
  rw [eq_ix2 k]
  exact hx (k 0) (k 1)

/-- At the ideal values a scatter-add of finite updates into a finite array is finite: each element is its old value
    plus a finite sum of updates. -/
theorem scatterAdd_finite {s si su : Shape} {w : Nat} {φ : FTy} (d : ScatterDims s si su) (x : FVec Ideal s φ)
    (idx : IVec si w) (upd : FVec Ideal su φ) (hx : ∀ i, ∃ v : ℝ, x i = (v : EReal))
    (hu : ∀ j, ∃ v : ℝ, upd j = (v : EReal)) (i : s.Idx) :
    ∃ v : ℝ, Host.scatterAdd d x idx upd i = (v : EReal) := by
  unfold Host.scatterAdd
  rw [Ideal.hostScatterAdd_def]
  unfold Ideal.hostScatterAdd
  exact Spec.add_finite (hx i) (Spec.sum_finite _ _ fun k _ => hu k)

/-- A gather only reads entries of its operand, so it is finite when the operand is. -/
theorem gather_finite {s si t : Shape} {w : Nat} (d : GatherDims s si t) (x : s.Idx → EReal) (idx : IVec si w)
    (hx : ∀ i, ∃ v : ℝ, x i = (v : EReal)) (j : t.Idx) : ∃ v : ℝ, Host.gather d x idx j = (v : EReal) :=
  hx _

open Cert.ReferenceIdeal.Read Cert.ReferenceIdeal.Gen in
/-- The gathered rows are finite: each entry is an entry of x. -/
theorem gathered_finite (x0 : (⟨Cert.ReferenceIdeal.S100000x128, .f32⟩ : BufTy).Contents (Elt Ideal))
    (x1 : (⟨Cert.ReferenceIdeal.S2x1600000, .i32⟩ : BufTy).Contents (Elt Ideal)) (hx : Spec.FinMat (Spec.toMat x0))
    (j : Cert.ReferenceIdeal.S1600000x128.Idx) : ∃ v : ℝ, val_main_v10 (F := Ideal) x0 x1 j = (v : EReal) :=
  gather_finite _ x0 (val_main_v9 (F := Ideal) x1) (fin_at x0 hx) j

open Cert.ReferenceIdeal.Read in
/-- The array the sums are scattered into holds zeros. -/
theorem zeros_finite (i : Cert.ReferenceIdeal.S100000x128.Idx) : ∃ v : ℝ, val_main_v11 (F := Ideal) i = (v : EReal) := by
  rw [val_main_v11_apply, val_main_cst_apply]
  exact ⟨0, ofBits_zero⟩

open Cert.ReferenceIdeal.Read in
/-- The scattered sum is finite: 0 plus a finite sum of gathered entries of x. -/
theorem num_finite (x0 : (⟨Cert.ReferenceIdeal.S100000x128, .f32⟩ : BufTy).Contents (Elt Ideal))
    (x1 : (⟨Cert.ReferenceIdeal.S2x1600000, .i32⟩ : BufTy).Contents (Elt Ideal)) (hx : Spec.FinMat (Spec.toMat x0))
    (i : Cert.ReferenceIdeal.S100000x128.Idx) :
    ∃ v : ℝ, val_main_v13 (F := Ideal) x0 x1 i = (v : EReal) :=
  scatterAdd_finite _ (val_main_v11 (F := Ideal)) (val_main_v12 (F := Ideal) x1) (val_main_v10 (F := Ideal) x0 x1)
    zeros_finite (gathered_finite x0 x1 hx) i

open Cert.ReferenceIdeal.Read in
/-- The divisor max(degree, 1) is at least one. -/
theorem one_le_den (x1 : (⟨Cert.ReferenceIdeal.S2x1600000, .i32⟩ : BufTy).Contents (Elt Ideal))
    (i : Cert.ReferenceIdeal.S100000x128.Idx) : (1 : EReal) ≤ val_main_v21 (F := Ideal) x1 i := by
  rw [val_main_v21_apply, val_main_v20_apply, val_main_v19_apply, val_main_v18_apply, val_main_cst_3_apply]
  show (1 : EReal) ≤ max _ (Ideal.ofBits .f32 0x3F800000#32)
  rw [ofBits_one]
  exact le_max_right _ _

/-- Under the precondition, read at the ideal values, every float input is finite in every entry. -/
theorem inputs_finite [Cert.Pre_finite_inputs.Facts]
    (x0 : FVec Ideal Cert.Pre_finite_inputs.S100000x128 .f32) (x1 : IVec Cert.Pre_finite_inputs.S2x1600000 32)
    (x2 : FVec Ideal Cert.Pre_finite_inputs.S128x128 .f32) (x3 : FVec Ideal Cert.Pre_finite_inputs.S128 .f32)
    (x4 : FVec Ideal Cert.Pre_finite_inputs.S128x128 .f32) (x5 x6 : FVec Ideal Cert.Pre_finite_inputs.S128 .f32)
    (h : Cert.Pre_finite_inputs.fn (F := Ideal) x0 x1 x2 x3 x4 x5 x6 = fun _ => 1#1) :
    Spec.FinMat (Spec.toMat x0) ∧ Spec.FinSq (Spec.toSq x2) ∧ Spec.FinRow (Spec.toRow1 x3) ∧ Spec.FinSq (Spec.toSq x4)
      ∧ Spec.FinRow (Spec.toRow1 x5) ∧ Spec.FinRow (Spec.toRow1 x6) := by
  have h0 := congrFun h ValueIdx.ix0
  dsimp only [Cert.Pre_finite_inputs.fn, Cert.Pre_finite_inputs.fn_part1] at h0
  simp only [andi_apply_eq_one] at h0
  obtain ⟨⟨⟨⟨⟨h3, h7⟩, h12⟩, h17⟩, h22⟩, h27⟩ := h0
  refine ⟨fun r j => ?_, fun k j => ?_, fun j => ?_, fun k j => ?_, fun j => ?_, fun j => ?_⟩
  · exact elem_finite _ _ x0 (ix2 r j) (Host.reduce_andi_all _ _ _ _ _ h3 (ix2 r j))
  · exact elem_finite _ _ x2 (ix2 k j) (Host.reduce_andi_all _ _ _ _ _ h7 (ix2 k j))
  · exact elem_finite _ _ x3 (ix1 j) (Host.reduce_andi_all _ _ _ _ _ h12 (ix1 j))
  · exact elem_finite _ _ x4 (ix2 k j) (Host.reduce_andi_all _ _ _ _ _ h17 (ix2 k j))
  · exact elem_finite _ _ x5 (ix1 j) (Host.reduce_andi_all _ _ _ _ _ h22 (ix1 j))
  · exact elem_finite _ _ x6 (ix1 j) (Host.reduce_andi_all _ _ _ _ _ h27 (ix1 j))

/-- The neighbourhood mean of a finite x is finite, whatever the edge list holds. -/
theorem mean_finite (x0 : (⟨Cert.ReferenceIdeal.S100000x128, .f32⟩ : BufTy).Contents (Elt Ideal))
    (x1 : (⟨Cert.ReferenceIdeal.S2x1600000, .i32⟩ : BufTy).Contents (Elt Ideal)) (hx : Spec.FinMat (Spec.toMat x0)) :
    Spec.FinMat (Spec.toMat (Cert.ReferenceIdeal.Read.val_main_v22 (F := Ideal) x0 x1)) := by
  intro r j
  show ∃ v : ℝ, Cert.ReferenceIdeal.Read.val_main_v22 (F := Ideal) x0 x1 (ix2 r j) = (v : EReal)
  rw [Cert.ReferenceIdeal.Read.val_main_v22_apply]
  exact Spec.div_finite_of_one_le _ (num_finite x0 x1 hx (ix2 r j)) _ (one_le_den x1 (ix2 r j))

end Cert.Finite

end
-- ==== Proof.lean ====
/-
  A mean-aggregation graph layer followed by batch normalisation with a residual, against its plain reference.

  With m the neighbourhood mean of x (each node's incoming rows of x summed and divided by max(degree, 1)),
    h = max(m · W_l + x · W_r + b, 0),   S = column sums of h,   Q = column sums of h²,   μ = S / 100000,
    out = x + ((h − μ) · rsqrt(variance + ε) · γ + β).
  The kernel computes h, S and Q in one pass over twenty row blocks of 5000 (S and Q in two accumulators carried from
  block to block), takes variance = max(Q/100000 − μ², 0) on the host, and normalises in a second pass over the same
  blocks; the reference takes variance = mean of (h − μ)². The neighbourhood mean is the same chain of host operations in
  both programs and is never opened. At the ideal values the kernel's bf16 products are exact, a block-wise sum is the
  sum, and the two orders in which the three terms of the pre-activation are added agree because addition of extended
  reals is commutative and associative. The two variances agree for real entries (expand the square); with an infinite
  entry they differ, so the precondition is used: finite x, W_l, W_r, b give a finite neighbourhood mean (a finite sum of
  entries of x over a divisor that is at least one) and hence finite h.

  The three runs: both kernel programs run as four stretches (host operations, first call, host operations, second
  call), each call's record built from its body's behaviour at a grid point; the reference's run is its list of host
  operations. No rewrite was applied when the kernel was idealized, so there is nothing to preserve.
-/
import proofs.«111244_j21663815041135_1_alg».proof.Defs
import proofs.«111244_j21663815041135_1_alg».proof.Proof.Gen.Kernel
import proofs.«111244_j21663815041135_1_alg».proof.Proof.Gen.Kernel.Skeleton
import proofs.«111244_j21663815041135_1_alg».proof.Proof.Gen.Kernel.Launch
import proofs.«111244_j21663815041135_1_alg».proof.Proof.Gen.Kernel.Regions
import proofs.«111244_j21663815041135_1_alg».proof.Proof.Gen.Kernel.Points
import proofs.«111244_j21663815041135_1_alg».proof.Proof.Gen.KernelIdeal
import proofs.«111244_j21663815041135_1_alg».proof.Proof.Gen.KernelIdeal.Skeleton
import proofs.«111244_j21663815041135_1_alg».proof.Proof.Gen.KernelIdeal.Launch
import proofs.«111244_j21663815041135_1_alg».proof.Proof.Gen.KernelIdeal.Regions
import proofs.«111244_j21663815041135_1_alg».proof.Proof.Gen.KernelIdeal.Points
import proofs.«111244_j21663815041135_1_alg».proof.Proof.Gen.ReferenceIdeal
import proofs.«111244_j21663815041135_1_alg».proof.Proof.Gen.ReferenceIdeal.Run
import proofs.«111244_j21663815041135_1_alg».proof.Proof.Gen.ReferenceIdeal.Read
import proofs.«111244_j21663815041135_1_alg».proof.Proof.Gen.Pre_finite_inputs
import proofs.«111244_j21663815041135_1_alg».proof.Proof.KFrame
import proofs.«111244_j21663815041135_1_alg».proof.Proof.KIFrame
import proofs.«111244_j21663815041135_1_alg».proof.Proof.KIBridge
import proofs.«111244_j21663815041135_1_alg».proof.Proof.RefValue
import proofs.«111244_j21663815041135_1_alg».proof.Proof.Finite
import Idealize.ShloMosaic.Adequacy
import Idealize.ShloMosaic.Init

noncomputable section

namespace Cert.Proof

open Idealize.ShloMosaic Idealize.SL.Sem Idealize.ShloMosaic.ValueIdx

/-- The word-level kernel runs and leaves its arguments as launched. -/
theorem frame_k : Cert.frame_Kernel := fun m ρ _ =>
  (θ_run Cert.Kernel.defs _ _).mono (fun _ h c => (h c).2) (Cert.Kernel.Hand.run (F := Bits) m ρ)

/-- So does the idealized kernel. -/
theorem frame_ki : Cert.frame_KernelIdeal := fun m ρ _ =>
  (θ_run Cert.KernelIdeal.defs _ _).mono (fun _ h c => (h c).2) (Cert.KernelIdeal.Hand.run (F := Ideal) m ρ)

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- At the ideal values, from memories that agree on the arguments, the two programs end with equal results: entry by
    entry both are the layer's formula, and for finite inputs the two variance formulas are one number. -/
theorem algebraic : Cert.algebraic_KernelIdeal_ReferenceIdeal := by
  intro m ρ m' ρ' hpre hagree
  refine ⟨fun c => Cert.KernelIdeal.Hand.result m c, Cert.KernelIdeal.Hand.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v55_eq]
  obtain ⟨h0, h1, h2, h3, h4, h5, h6⟩ := hagree c
  rw [h0, h1, h2, h3, h4, h5, h6]
  obtain ⟨fx, fl, fb, fr, _, _⟩ := Cert.Finite.inputs_finite _ _ _ _ _ _ _ (hpre c)
  have fm := Cert.Finite.mean_finite _ (m ((c.tc : Thread Cert.KernelIdeal.nD Cert.KernelIdeal.τ).loc Cert.KernelIdeal.main_arg1)) fx
  funext i
  obtain ⟨r, j, rfl⟩ : ∃ (r : Fin 100000) (j : Fin 128), i = ix2 r j := ⟨i 0, i 1, eq_ix2 i⟩
  rw [Cert.ReferenceIdeal.RefValue.ref_apply]
  exact ((Cert.KernelIdeal.HandValue.kernel_apply m c r j).trans
    (congrFun (congrFun (Cert.Spec.out_eq _ _ _ _ _ _ _ _ fm fx fl fr fb) r) j)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
